-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S2000x128 : Shape := ⟨2, ![2000, 128]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S2000x64 : Shape := ⟨2, ![2000, 64]⟩
abbrev S1700000x64 : Shape := ⟨2, ![1700000, 64]⟩
abbrev S1x64 : Shape := ⟨2, ![1, 64]⟩
abbrev S100000x1 : Shape := ⟨2, ![100000, 1]⟩
abbrev S64x64 : Shape := ⟨2, ![64, 64]⟩
abbrev S2000x1 : Shape := ⟨2, ![2000, 1]⟩
abbrev S64x1 : Shape := ⟨2, ![64, 1]⟩

abbrev nBuf : Space → Nat
  | .hbm => 150
  | .vmem => 23
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x64, .f32⟩
  | 6 => ⟨S64, .f32⟩
  | 7 => ⟨S1x1600000, .i32⟩
  | 8 => ⟨S1600000, .i32⟩
  | 9 => ⟨S1x1600000, .i32⟩
  | 10 => ⟨S1600000, .i32⟩
  | 11 => ⟨S100000x128, .f32⟩
  | 12 => ⟨S100000, .i32⟩
  | 13 => ⟨S1700000, .i32⟩
  | 14 => ⟨S1700000, .i32⟩
  | 15 => ⟨S_, .f32⟩
  | 16 => ⟨S100000, .f32⟩
  | 17 => ⟨S_, .i32⟩
  | 18 => ⟨S1700000, .i32⟩
  | 19 => ⟨S1700000, .i1⟩
  | 20 => ⟨S_, .i32⟩
  | 21 => ⟨S1700000, .i32⟩
  | 22 => ⟨S1700000, .i32⟩
  | 23 => ⟨S1700000, .i32⟩
  | 24 => ⟨S1700000x1, .i32⟩
  | 25 => ⟨S_, .f32⟩
  | 26 => ⟨S1700000, .f32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x128, .f32⟩
  | 64 => ⟨S1700000x1, .f32⟩
  | 65 => ⟨S1700000x128, .f32⟩
  | 66 => ⟨S1700000x128, .f32⟩
  | 67 => ⟨S_, .f32⟩
  | 68 => ⟨S100000x128, .f32⟩
  | 69 => ⟨S_, .i32⟩
  | 70 => ⟨S1700000, .i32⟩
  | 71 => ⟨S1700000, .i1⟩
  | 72 => ⟨S_, .i32⟩
  | 73 => ⟨S1700000, .i32⟩
  | 74 => ⟨S1700000, .i32⟩
  | 75 => ⟨S1700000, .i32⟩
  | 76 => ⟨S1700000x1, .i32⟩
  | 77 => ⟨S100000x128, .f32⟩
  | 78 => ⟨S1x128, .f32⟩
  | 79 => ⟨S100000x128, .f32⟩
  | 80 => ⟨S100000x64, .f32⟩
  | 81 => ⟨S100000, .i32⟩
  | 82 => ⟨S1700000, .i32⟩
  | 83 => ⟨S1700000, .i32⟩
  | 84 => ⟨S_, .f32⟩
  | 85 => ⟨S100000, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S_, .f32⟩
  | 95 => ⟨S1700000, .f32⟩
  | 96 => ⟨S100000, .f32⟩
  | 97 => ⟨S_, .f32⟩
  | 98 => ⟨S100000, .f32⟩
  | 99 => ⟨S100000, .i1⟩
  | 100 => ⟨S100000, .f32⟩
  | 101 => ⟨S_, .f32⟩
  | 102 => ⟨S_, .f32⟩
  | 103 => ⟨S100000, .f32⟩
  | 104 => ⟨S100000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000, .f32⟩
  | 123 => ⟨S1700000, .f32⟩
  | 124 => ⟨S_, .i32⟩
  | 125 => ⟨S1700000, .i32⟩
  | 126 => ⟨S1700000, .i1⟩
  | 127 => ⟨S_, .i32⟩
  | _ => ⟨S100000x128, .f32⟩

abbrev hbmTy0_1 (i : Nat) : BufTy := match i % 128 with
  | 0 => ⟨S1700000, .i32⟩
  | 1 => ⟨S1700000, .i32⟩
  | 2 => ⟨S1700000, .i32⟩
  | 3 => ⟨S1700000x1, .i32⟩
  | 4 => ⟨S1700000x64, .f32⟩
  | 5 => ⟨S1700000x1, .f32⟩
  | 6 => ⟨S1700000x64, .f32⟩
  | 7 => ⟨S1700000x64, .f32⟩
  | 8 => ⟨S_, .f32⟩
  | 9 => ⟨S100000x64, .f32⟩
  | 10 => ⟨S_, .i32⟩
  | 11 => ⟨S1700000, .i32⟩
  | 12 => ⟨S1700000, .i1⟩
  | 13 => ⟨S_, .i32⟩
  | 14 => ⟨S1700000, .i32⟩
  | 15 => ⟨S1700000, .i32⟩
  | 16 => ⟨S1700000, .i32⟩
  | 17 => ⟨S1700000x1, .i32⟩
  | 18 => ⟨S100000x64, .f32⟩
  | 19 => ⟨S1x64, .f32⟩
  | 20 => ⟨S100000x1, .i32⟩
  | 21 => ⟨S64x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x1, .i32⟩
  | .local _ .vmem, ⟨19, _⟩ => ⟨S2000x1, .i32⟩
  | .local _ .vmem, ⟨20, _⟩ => ⟨S64x64, .f32⟩
  | .local _ .vmem, ⟨21, _⟩ => ⟨S64x64, .f32⟩
  | .local _ .vmem, ⟨22, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_c_11 : Ref sig .tc := ⟨.hbm, 69, rfl⟩
abbrev main_v47 : Ref sig .tc := ⟨.hbm, 70, rfl⟩
abbrev main_v48 : Ref sig .tc := ⟨.hbm, 71, rfl⟩
abbrev main_c_12 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_c_14 : Ref sig .tc := ⟨.hbm, 86, rfl⟩
abbrev main_v61 : Ref sig .tc := ⟨.hbm, 87, rfl⟩
abbrev main_v62 : Ref sig .tc := ⟨.hbm, 88, rfl⟩
abbrev main_c_15 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_16 : Ref sig .tc := ⟨.hbm, 94, rfl⟩
abbrev main_v67 : Ref sig .tc := ⟨.hbm, 95, rfl⟩
abbrev main_v68 : Ref sig .tc := ⟨.hbm, 96, rfl⟩
abbrev main_cst_17 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_18 : Ref sig .tc := ⟨.hbm, 101, rfl⟩
abbrev main_call1_v0 : Ref sig .tc := ⟨.hbm, 102, rfl⟩
abbrev main_call1_v1 : Ref sig .tc := ⟨.hbm, 103, rfl⟩
abbrev main_v72 : Ref sig .tc := ⟨.hbm, 104, rfl⟩
abbrev main_c_19 : Ref sig .tc := ⟨.hbm, 105, rfl⟩
abbrev main_v73 : Ref sig .tc := ⟨.hbm, 106, rfl⟩
abbrev main_v74 : Ref sig .tc := ⟨.hbm, 107, rfl⟩
abbrev main_c_20 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_21 : Ref sig .tc := ⟨.hbm, 114, rfl⟩
abbrev main_v80 : Ref sig .tc := ⟨.hbm, 115, rfl⟩
abbrev main_v81 : Ref sig .tc := ⟨.hbm, 116, rfl⟩
abbrev main_c_22 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_c_23 : Ref sig .tc := ⟨.hbm, 124, rfl⟩
abbrev main_v88 : Ref sig .tc := ⟨.hbm, 125, rfl⟩
abbrev main_v89 : Ref sig .tc := ⟨.hbm, 126, rfl⟩
abbrev main_c_24 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_25 : Ref sig .tc := ⟨.hbm, 136, rfl⟩
abbrev main_v98 : Ref sig .tc := ⟨.hbm, 137, rfl⟩
abbrev main_c_26 : Ref sig .tc := ⟨.hbm, 138, rfl⟩
abbrev main_v99 : Ref sig .tc := ⟨.hbm, 139, rfl⟩
abbrev main_v100 : Ref sig .tc := ⟨.hbm, 140, rfl⟩
abbrev main_c_27 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_scratch0 : Ref sig .tc := ⟨.vmem, 21, rfl⟩
abbrev cc3_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def k3_cond2 (i : grid3.Coords) : BitVec 1 :=
  let arg0 : BitVec 32 := BitVec.ofNat 32 (i 0).val
  let c49_i32 : BitVec 32 := 49#32
  let v29 : BitVec 1 := Scalar.cmpi .eq arg0 c49_i32
  let v30 : BitVec 32 := Scalar.extui v29
  let c0_i32_16 : BitVec 32 := 0#32
  let v31 : BitVec 1 := Scalar.cmpi .ne v30 c0_i32_16
  v31

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  concatenates_S1600000_S100000_S1700000_d0 : Shape.Concatenates [S1600000, S100000] S1700000 0
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S100000_S100000x1 : S100000.ShapeCasts S100000x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x64_d1_w32 : S2000x64.Iotas .tc 32 [1]
  broadcasts_S2000x1_S2000x64 : S2000x1.Broadcasts S2000x64
  natLt_1_32 : 1 < 32
  broadcasts_S64x1_S64x64 : S64x1.Broadcasts S64x64
  dot_S2000x128_S128x128_S2000x128_1_0_0_1_n_n_wf : DotDims.WF S2000x128 S128x128 S2000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S2000x64_S64x64_0_0_1_1_n_n_wf : DotDims.WF S2000x64 S2000x64 S64x64 [0] [0] [1] [1] [] []
  dot_S2000x64_S2000x1_S64x1_0_0_1_1_n_n_wf : DotDims.WF S2000x64 S2000x1 S64x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .i32 = 32 ∨ (Rect.block (s := S100000x1) S2000x1.size (cc3_transform_2 i) (hinb3_2 i)).WholeWords (EltTy.packing .i32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S2000x64_S64x64_0_0_1_1_n_n : DotDims S2000x64 S2000x64 S64x64 where
  lhsContracting := [0]
  rhsContracting := [0]
  lhsNonContracting := [1]
  rhsNonContracting := [1]
  lhsBatch := []
  rhsBatch := []
  wf := dot_S2000x64_S2000x64_S64x64_0_0_1_1_n_n_wf
def dot_S2000x64_S2000x1_S64x1_0_0_1_1_n_n : DotDims S2000x64 S2000x1 S64x1 where
  lhsContracting := [0]
  rhsContracting := [0]
  lhsNonContracting := [1]
  rhsNonContracting := [1]
  lhsBatch := []
  rhsBatch := []
  wf := dot_S2000x64_S2000x1_S64x1_0_0_1_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v55) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v105) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v106) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v107) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v108) S64x64.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S64x64 : Shape := ⟨2, ![64, 64]⟩
abbrev S100000x1 : Shape := ⟨2, ![100000, 1]⟩
abbrev S64x1 : Shape := ⟨2, ![64, 1]⟩

abbrev nBuf : Space → Nat
  | .hbm => 170
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x64, .f32⟩
  | 6 => ⟨S64, .f32⟩
  | 7 => ⟨S1x1600000, .i32⟩
  | 8 => ⟨S1600000, .i32⟩
  | 9 => ⟨S1x1600000, .i32⟩
  | 10 => ⟨S1600000, .i32⟩
  | 11 => ⟨S100000x128, .f32⟩
  | 12 => ⟨S100000, .i32⟩
  | 13 => ⟨S1700000, .i32⟩
  | 14 => ⟨S1700000, .i32⟩
  | 15 => ⟨S_, .f32⟩
  | 16 => ⟨S100000, .f32⟩
  | 17 => ⟨S_, .i32⟩
  | 18 => ⟨S1700000, .i32⟩
  | 19 => ⟨S1700000, .i1⟩
  | 20 => ⟨S_, .i32⟩
  | 21 => ⟨S1700000, .i32⟩
  | 22 => ⟨S1700000, .i32⟩
  | 23 => ⟨S1700000, .i32⟩
  | 24 => ⟨S1700000x1, .i32⟩
  | 25 => ⟨S_, .f32⟩
  | 26 => ⟨S1700000, .f32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x128, .f32⟩
  | 64 => ⟨S1700000x1, .f32⟩
  | 65 => ⟨S1700000x128, .f32⟩
  | 66 => ⟨S1700000x128, .f32⟩
  | 67 => ⟨S_, .f32⟩
  | 68 => ⟨S100000x128, .f32⟩
  | 69 => ⟨S_, .i32⟩
  | 70 => ⟨S1700000, .i32⟩
  | 71 => ⟨S1700000, .i1⟩
  | 72 => ⟨S_, .i32⟩
  | 73 => ⟨S1700000, .i32⟩
  | 74 => ⟨S1700000, .i32⟩
  | 75 => ⟨S1700000, .i32⟩
  | 76 => ⟨S1700000x1, .i32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S100000x64, .f32⟩
  | 85 => ⟨S100000, .i32⟩
  | 86 => ⟨S1700000, .i32⟩
  | 87 => ⟨S1700000, .i32⟩
  | 88 => ⟨S_, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S_, .f32⟩
  | 99 => ⟨S1700000, .f32⟩
  | 100 => ⟨S100000, .f32⟩
  | 101 => ⟨S_, .f32⟩
  | 102 => ⟨S100000, .f32⟩
  | 103 => ⟨S100000, .i1⟩
  | 104 => ⟨S100000, .f32⟩
  | 105 => ⟨S_, .f32⟩
  | 106 => ⟨S_, .f32⟩
  | 107 => ⟨S100000, .f32⟩
  | 108 => ⟨S100000, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000, .f32⟩
  | 127 => ⟨S1700000, .f32⟩
  | _ => ⟨S100000x128, .f32⟩

abbrev hbmTy0_1 (i : Nat) : BufTy := match i % 128 with
  | 0 => ⟨S_, .i32⟩
  | 1 => ⟨S1700000, .i32⟩
  | 2 => ⟨S1700000, .i1⟩
  | 3 => ⟨S_, .i32⟩
  | 4 => ⟨S1700000, .i32⟩
  | 5 => ⟨S1700000, .i32⟩
  | 6 => ⟨S1700000, .i32⟩
  | 7 => ⟨S1700000x1, .i32⟩
  | 8 => ⟨S1700000x64, .f32⟩
  | 9 => ⟨S1700000x1, .f32⟩
  | 10 => ⟨S1700000x64, .f32⟩
  | 11 => ⟨S1700000x64, .f32⟩
  | 12 => ⟨S_, .f32⟩
  | 13 => ⟨S100000x64, .f32⟩
  | 14 => ⟨S_, .i32⟩
  | 15 => ⟨S1700000, .i32⟩
  | 16 => ⟨S1700000, .i1⟩
  | 17 => ⟨S_, .i32⟩
  | 18 => ⟨S1700000, .i32⟩
  | 19 => ⟨S1700000, .i32⟩
  | 20 => ⟨S1700000, .i32⟩
  | 21 => ⟨S1700000x1, .i32⟩
  | 22 => ⟨S100000x64, .f32⟩
  | 23 => ⟨S1x64, .f32⟩
  | 24 => ⟨S100000x64, .f32⟩
  | 25 => ⟨S100000x64, .f32⟩
  | 26 => ⟨S_, .f32⟩
  | 27 => ⟨S64x64, .f32⟩
  | 28 => ⟨S100000x1, .i32⟩
  | 29 => ⟨S64x64, .f32⟩
  | 30 => ⟨S_, .f32⟩
  | 31 => ⟨S100000, .f32⟩
  | 32 => ⟨S_, .f32⟩
  | 33 => ⟨S64, .f32⟩
  | 34 => ⟨S100000x1, .i32⟩
  | 35 => ⟨S64, .f32⟩
  | 36 => ⟨S_, .f32⟩
  | 37 => ⟨S64, .f32⟩
  | 38 => ⟨S64, .f32⟩
  | 39 => ⟨S64x1, .f32⟩
  | 40 => ⟨S64x64, .f32⟩
  | 41 => ⟨S64x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_c_11 : Ref sig .tc := ⟨.hbm, 69, rfl⟩
abbrev main_v47 : Ref sig .tc := ⟨.hbm, 70, rfl⟩
abbrev main_v48 : Ref sig .tc := ⟨.hbm, 71, rfl⟩
abbrev main_c_12 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call1_cst : Ref sig .tc := ⟨.hbm, 81, rfl⟩
abbrev main_call1_v0 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_c_14 : Ref sig .tc := ⟨.hbm, 90, rfl⟩
abbrev main_v63 : Ref sig .tc := ⟨.hbm, 91, rfl⟩
abbrev main_v64 : Ref sig .tc := ⟨.hbm, 92, rfl⟩
abbrev main_c_15 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_16 : Ref sig .tc := ⟨.hbm, 98, rfl⟩
abbrev main_v69 : Ref sig .tc := ⟨.hbm, 99, rfl⟩
abbrev main_v70 : Ref sig .tc := ⟨.hbm, 100, rfl⟩
abbrev main_cst_17 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_18 : Ref sig .tc := ⟨.hbm, 105, rfl⟩
abbrev main_call2_v0 : Ref sig .tc := ⟨.hbm, 106, rfl⟩
abbrev main_call2_v1 : Ref sig .tc := ⟨.hbm, 107, rfl⟩
abbrev main_v74 : Ref sig .tc := ⟨.hbm, 108, rfl⟩
abbrev main_c_19 : Ref sig .tc := ⟨.hbm, 109, rfl⟩
abbrev main_v75 : Ref sig .tc := ⟨.hbm, 110, rfl⟩
abbrev main_v76 : Ref sig .tc := ⟨.hbm, 111, rfl⟩
abbrev main_c_20 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c_21 : Ref sig .tc := ⟨.hbm, 118, rfl⟩
abbrev main_v82 : Ref sig .tc := ⟨.hbm, 119, rfl⟩
abbrev main_v83 : Ref sig .tc := ⟨.hbm, 120, rfl⟩
abbrev main_c_22 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_c_23 : Ref sig .tc := ⟨.hbm, 128, rfl⟩
abbrev main_v90 : Ref sig .tc := ⟨.hbm, 129, rfl⟩
abbrev main_v91 : Ref sig .tc := ⟨.hbm, 130, rfl⟩
abbrev main_c_24 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_25 : Ref sig .tc := ⟨.hbm, 140, rfl⟩
abbrev main_v100 : Ref sig .tc := ⟨.hbm, 141, rfl⟩
abbrev main_c_26 : Ref sig .tc := ⟨.hbm, 142, rfl⟩
abbrev main_v101 : Ref sig .tc := ⟨.hbm, 143, rfl⟩
abbrev main_v102 : Ref sig .tc := ⟨.hbm, 144, rfl⟩
abbrev main_c_27 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_28 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_29 : Ref sig .tc := ⟨.hbm, 158, rfl⟩
abbrev main_v114 : Ref sig .tc := ⟨.hbm, 159, rfl⟩
abbrev main_cst_30 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_cst_31 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.KB.Reg0.lean ====
/-
  Region 0: the first dense projection, one grid point at a time. At point t the body reads the block of
  rows 2000·t … 2000·t+1999 of the node features (window 0) and the whole 128×128 weight matrix (window 1, the
  same block at every point), multiplies them on the matrix unit into a zero accumulator and stores the
  2000×128 product over the whole of window 2's buffer. Everything is stated at a parameter V, the contents of
  the core's buffers when the region is entered, and at any float instance F.
-/
import proofs.«420483_j44942537786128_1_alg».proof.Proof.Gen.Kernel.Launch
import proofs.«420483_j44942537786128_1_alg».proof.Proof.Gen.Kernel.Skeleton
import proofs.«420483_j44942537786128_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Two zero offsets, as the constant function. -/
theorem off2_zero : (![0, 0] : Fin 2 → ℕ) = fun _ => 0 :=
  funext fun a => by match a with | ⟨0, _⟩ => rfl | ⟨1, _⟩ => rfl

/-! ## The windows' blocks -/

/-- Window w's block at point t, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's buffer holds its block at every point: it is fetched at every point. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The weight window's buffer holds the whole matrix at every point: fetched once, its index never moves and the
    body leaves it in place. -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## What the body leaves in the product window's buffer -/

abbrev rX0 : Rect S2000x128 := Rect.unit (s := S2000x128) ![0, 0] S2000x128.size inb_S2000x128_S2000x128_0_0
abbrev rW0 : Rect S128x128 := Rect.unit (s := S128x128) ![0, 0] S128x128.size inb_S128x128_S128x128_0_0

/-- The product block: the features' block times the weights, both rounded to bf16 first, accumulated from zero. -/
def prod0 (x : Vec F S2000x128 .f32) (w : Vec F S128x128 .f32) : Vec F S2000x128 .f32 := k0_pay1 x w

/-- The one store covers the buffer. -/
theorem cover0 (p0 : Vec F S2000x128 .f32) (y : S2000x128.Idx) :
    ∃ pc ∈ ([⟨rX0, p0⟩] : List (View.Piece (Elt F) S2000x128 .f32)), y ∈ pc.1.set :=
  View.cover_of_tiled [⟨rX0, p0⟩] S2000x128.size (by rfl) y

set_option maxHeartbeats 1000000 in
/-- The body on whole staging buffers: the two inputs at x and w, the output at anything; it ends with the inputs
    as they were and the output at the product block. -/
theorem sound_kernel0 (c : Dev nD) (E : Set ℕ) (i : grid0.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod0 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover0 _), View.canon_unit_zero off2_zero]
  unfold prod0
  simp only [View.readAt_eq_ld, View.ld_unit_zero (S := S2000x128) off2_zero, View.ld_unit_zero (S := S128x128) off2_zero]

/-! ## The proof data -/

/-- Region 0's proof data on core c: the arrays as the region finds them; after the body at point t the two
    input buffers at their blocks and the output buffer at the product of the two blocks; the class invariant
    (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = prod0 (blk0 V c 0 t) (blk0 V c 1 t) := by dsimp only [dat0]

theorem held0_0 (c : Dev nD) (t : Fin cfg0.N) (d) : (dat0 V c).before 0 t d = blk0 V c 0 t :=
  held0_0_of V (dat0 V c) (A_eq0 V c 0) (after0_0 V c) t d
theorem held0_1 (c : Dev nD) (t : Fin cfg0.N) (d) : (dat0 V c).before 1 t d = blk0 V c 1 t :=
  held0_1_of V (dat0 V c) (A_eq0 V c 1) (after0_1 V c) t d

/-! ## The body obligation -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the triple above applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg1.lean ====
/-
  Region 1: bias and rectifier, one grid point at a time. At point t the body reads the block of rows
  2000·t … 2000·t+1999 of the aggregated features (window 0) and the 1×128 bias row (window 1, the same block at
  every point), adds the row to every row of the block, takes the maximum with zero and stores the 2000×128
  result over the whole of window 2's buffer. Stated at a parameter V, the contents of the core's buffers when the
  region is entered, and at any float instance F.
-/
import proofs.«420483_j44942537786128_1_alg».proof.Proof.Gen.Kernel.Launch
import proofs.«420483_j44942537786128_1_alg».proof.Proof.Gen.Kernel.Skeleton
import proofs.«420483_j44942537786128_1_alg».proof.Proof.Gen.Kernel.Points
import proofs.«420483_j44942537786128_1_alg».proof.Proof.KB.Reg0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregated-feature window's buffer holds its block at every point: it is fetched at every point. -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The bias window's buffer holds the bias row at every point: fetched once, its index never moves and the
    body leaves it in place. -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## What the body leaves in the result window's buffer -/

abbrev rX1 : Rect S2000x128 := Rect.unit (s := S2000x128) ![0, 0] S2000x128.size inb_S2000x128_S2000x128_0_0
abbrev rB1 : Rect S1x128 := Rect.unit (s := S1x128) ![0, 0] S1x128.size inb_S1x128_S1x128_0_0

/-- The rectified block: the block plus the bias row on every row, then the maximum with zero. -/
def relu1 (x : Vec F S2000x128 .f32) (w : Vec F S1x128 .f32) : Vec F S2000x128 .f32 := k1_pay1 x w

/-- The one store covers the buffer. -/
theorem cover1 (p0 : Vec F S2000x128 .f32) (y : S2000x128.Idx) :
    ∃ pc ∈ ([⟨rX1, p0⟩] : List (View.Piece (Elt F) S2000x128 .f32)), y ∈ pc.1.set :=
  View.cover_of_tiled [⟨rX1, p0⟩] S2000x128.size (by rfl) y

set_option maxHeartbeats 1000000 in
/-- The body on whole staging buffers: the two inputs at x and b, the output at anything; it ends with the inputs
    as they were and the output at the rectified block. -/
theorem sound_kernel1 (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (relu1 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover1 _), View.canon_unit_zero off2_zero]
  unfold relu1
  simp only [View.readAt_eq_ld, View.ld_unit_zero (S := S2000x128) off2_zero, View.ld_unit_zero (S := S1x128) off2_zero]

/-! ## The proof data -/

/-- Region 1's proof data on core c: the arrays as the region finds them; after the body at point t the two
    input buffers at their blocks and the output buffer at the rectified block; the class invariant (the scoped
    rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => relu1 (blk1 V c 0 t) (blk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = relu1 (blk1 V c 0 t) (blk1 V c 1 t) := by dsimp only [dat1]

theorem held1_0 (c : Dev nD) (t : Fin cfg1.N) (d) : (dat1 V c).before 0 t d = blk1 V c 0 t :=
  held1_0_of V (dat1 V c) (A_eq1 V c 0) (after1_0 V c) t d
theorem held1_1 (c : Dev nD) (t : Fin cfg1.N) (d) : (dat1 V c).before 1 t d = blk1 V c 1 t :=
  held1_1_of V (dat1 V c) (A_eq1 V c 1) (after1_1 V c) t d

/-! ## The body obligation -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so the triple above applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [held1_0, held1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Reg2.lean ====
/-
  Region 2: the second dense projection, one grid point at a time. At point t the body reads the block of rows
  2000·t … 2000·t+1999 of the hidden features (window 0) and the whole 128×64 weight matrix (window 1, the same
  block at every point), multiplies them on the matrix unit into a zero accumulator and stores the 2000×64
  product over the whole of window 2's buffer. Stated at a parameter V, the contents of the core's buffers when
  the region is entered, and at any float instance F.
-/
import proofs.«420483_j44942537786128_1_alg».proof.Proof.Gen.Kernel.Launch
import proofs.«420483_j44942537786128_1_alg».proof.Proof.Gen.Kernel.Skeleton
import proofs.«420483_j44942537786128_1_alg».proof.Proof.Gen.Kernel.Points
import proofs.«420483_j44942537786128_1_alg».proof.Proof.KB.Reg0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The hidden-feature window's buffer holds its block at every point: it is fetched at every point. -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The weight window's buffer holds the whole matrix at every point: fetched once, its index never moves and the
    body leaves it in place. -/
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-! ## What the body leaves in the product window's buffer -/

abbrev rX2 : Rect S2000x128 := Rect.unit (s := S2000x128) ![0, 0] S2000x128.size inb_S2000x128_S2000x128_0_0
abbrev rO2 : Rect S2000x64 := Rect.unit (s := S2000x64) ![0, 0] S2000x64.size inb_S2000x64_S2000x64_0_0
abbrev rW2 : Rect S128x64 := Rect.unit (s := S128x64) ![0, 0] S128x64.size inb_S128x64_S128x64_0_0

/-- The product block: the features' block times the weights, both rounded to bf16 first, accumulated from zero. -/
def prod2 (x : Vec F S2000x128 .f32) (w : Vec F S128x64 .f32) : Vec F S2000x64 .f32 := k2_pay1 x w

/-- The one store covers the buffer. -/
theorem cover2 (p0 : Vec F S2000x64 .f32) (y : S2000x64.Idx) :
    ∃ pc ∈ ([⟨rO2, p0⟩] : List (View.Piece (Elt F) S2000x64 .f32)), y ∈ pc.1.set :=
  View.cover_of_tiled [⟨rO2, p0⟩] S2000x64.size (by rfl) y

set_option maxHeartbeats 1000000 in
/-- The body on whole staging buffers: the two inputs at x and w, the output at anything; it ends with the inputs
    as they were and the output at the product block. -/
theorem sound_kernel2 (c : Dev nD) (E : Set ℕ) (i : grid2.Coords) (arg1 : Memref sig .tc .vmem S2000x128 .f32) (harg1 : arg1.IsWhole) (arg2 : Memref sig .tc .vmem S128x64 .f32) (harg2 : arg2.IsWhole) (arg3 : Memref sig .tc .vmem S2000x64 .f32) (harg3 : arg3.IsWhole)
    (x0 : Vec F S2000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover2 _), View.canon_unit_zero off2_zero]
  unfold prod2
  simp only [View.readAt_eq_ld, View.ld_unit_zero (S := S2000x128) off2_zero, View.ld_unit_zero (S := S128x64) off2_zero]

/-! ## The proof data -/

/-- Region 2's proof data on core c: the arrays as the region finds them; after the body at point t the two
    input buffers at their blocks and the output buffer at the product of the two blocks; the class invariant
    (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => prod2 (blk2 V c 0 t) (blk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = prod2 (blk2 V c 0 t) (blk2 V c 1 t) := by dsimp only [dat2]

theorem held2_0 (c : Dev nD) (t : Fin cfg2.N) (d) : (dat2 V c).before 0 t d = blk2 V c 0 t :=
  held2_0_of V (dat2 V c) (A_eq2 V c 0) (after2_0 V c) t d
theorem held2_1 (c : Dev nD) (t : Fin cfg2.N) (d) : (dat2 V c).before 1 t d = blk2 V c 1 t :=
  held2_1_of V (dat2 V c) (A_eq2 V c 1) (after2_1 V c) t d

/-! ## The body obligation -/

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input buffers hold their blocks, so the triple above applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [held2_0, held2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Reg3.lean ====
/-
  Region 3: bias, then the mean over each of the 64 graphs, accumulated over the 50 grid points in two scratch
  buffers the kernel carries from point to point. At point t the body reads the block of rows 2000·t … 2000·t+1999 of
  the aggregated features (window 0), the 1×64 bias row (window 1) and the same rows of the graph ids (window 2). At
  the first point it clears the running sums (64×64) and the running counts (64×1). At every point it forms the
  2000×64 indicator matrix "row r belongs to graph g", adds (indicatorᵀ · (block + bias)) to the sums and
  (indicatorᵀ · ones) to the counts. At the last point it also stores sums / max(counts, 1) over the whole of the
  result window (window 3), which the pipeline writes back there and nowhere else. Stated at a parameter V, the
  contents of the core's buffers when the region is entered, and at any float instance F.
-/
import proofs.«420483_j44942537786128_1_alg».proof.Proof.KB.Reg0
import proofs.«420483_j44942537786128_1_alg».proof.Proof.Gen.Kernel.Launch
import proofs.«420483_j44942537786128_1_alg».proof.Proof.Gen.Kernel.Skeleton
import proofs.«420483_j44942537786128_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The two conditions of the body, decided over the grid -/

/-- "This is the first grid point", as the body computes it from the grid coordinate. -/
abbrev cnd3_first (i : grid3.Coords) : Prop := (Scalar.cmpi .ne (Scalar.extui (Scalar.cmpi .eq (BitVec.ofNat 32 (i 0).val) 0#32)) 0#32) = 1#1
theorem hcnd3_first : ∀ t : Fin cfg3.N, cnd3_first (grid3.coords t) ↔ t.val = 0 :=
  (by decide +kernel : ∀ t : Fin grid3.N, cnd3_first (grid3.coords t) ↔ t.val = 0)
/-- "This is the last grid point", as the body computes it. -/
abbrev cnd3_last (i : grid3.Coords) : Prop := k3_cond2 i = 1#1
theorem hcnd3_last : ∀ t : Fin cfg3.N, cnd3_last (grid3.coords t) ↔ t.val = 49 :=
  (by decide +kernel : ∀ t : Fin grid3.N, cnd3_last (grid3.coords t) ↔ t.val = 49)

/-- The two carried scratch buffers, whole: the running sums and the running counts. -/
abbrev scS : Memref sig .tc .vmem S64x64 .f32 := Memref.whole cc3_scratch0
abbrev scC : Memref sig .tc .vmem S64x1 .f32 := Memref.whole cc3_scratch1

/-- The class invariant with the two scratch buffers split out of the scoped rest. -/
theorem PhiA3_eq (c : Dev nD) :
    (Pipeline.ΦA spec3 c : sProp 𝕄)
      = iprop((((∃ d, owns (c : Thread nD τ) scS fullShare d) ∗ (∃ d, owns (c : Thread nD τ) scC fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA
  rw [Pipeline.scopedRest_split_of_list spec3 c [cc3_scratch0, cc3_scratch1] (by decide) (by decide)]
  simp only [scS, scC, owns_whole]
  rfl

abbrev rA : Rect S2000x64 := Rect.unit (s := S2000x64) ![0, 0] S2000x64.size inb_S2000x64_S2000x64_0_0
abbrev rS : Rect S64x64 := Rect.unit (s := S64x64) ![0, 0] S64x64.size inb_S64x64_S64x64_0_0
abbrev rC : Rect S64x1 := Rect.unit (s := S64x1) ![0, 0] S64x1.size inb_S64x1_S64x1_0_0

/-! ## The body on whole staging buffers, in its three cases -/

theorem coverS (p0 : Vec F S64x64 .f32) (y : S64x64.Idx) :
    ∃ pc ∈ ([⟨rS, p0⟩] : List (View.Piece (Elt F) S64x64 .f32)), y ∈ pc.1.set :=
  View.cover_of_tiled [⟨rS, p0⟩] S64x64.size (by rfl) y
theorem coverS_cons (p0 : Vec F S64x64 .f32) (L : List (View.Piece (Elt F) S64x64 .f32)) (y : S64x64.Idx) :
    ∃ pc ∈ ((⟨rS, p0⟩ : View.Piece (Elt F) S64x64 .f32) :: L), y ∈ pc.1.set := by
  obtain ⟨pc, hpc, hy⟩ := coverS p0 y
  rw [List.mem_singleton] at hpc; subst hpc
  exact ⟨_, List.mem_cons_self, hy⟩
theorem coverC (p0 : Vec F S64x1 .f32) (y : S64x1.Idx) :
    ∃ pc ∈ ([⟨rC, p0⟩] : List (View.Piece (Elt F) S64x1 .f32)), y ∈ pc.1.set :=
  View.cover_of_tiled [⟨rC, p0⟩] S64x1.size (by rfl) y
theorem coverC_cons (p0 : Vec F S64x1 .f32) (L : List (View.Piece (Elt F) S64x1 .f32)) (y : S64x1.Idx) :
    ∃ pc ∈ ((⟨rC, p0⟩ : View.Piece (Elt F) S64x1 .f32) :: L), y ∈ pc.1.set := by
  obtain ⟨pc, hpc, hy⟩ := coverC p0 y
  rw [List.mem_singleton] at hpc; subst hpc
  exact ⟨_, List.mem_cons_self, hy⟩

set_option maxHeartbeats 2000000 in
/-- A middle point: the sums and counts found at s5, s6 are left at s5 + indicatorᵀ·(x0 + x1) and s6 + indicatorᵀ·1;
    the result window's buffer is not touched. -/
theorem sound_kernel3_mid (c : Dev nD) (E : Set ℕ) (i : grid3.Coords) (hf : ¬cnd3_first i) (hl : ¬cnd3_last i)
    (arg1 : Memref sig .tc .vmem S2000x64 .f32) (harg1 : arg1.IsWhole) (arg2 : Memref sig .tc .vmem S1x64 .f32) (harg2 : arg2.IsWhole)
    (arg3 : Memref sig .tc .vmem S2000x1 .i32) (harg3 : arg3.IsWhole) (arg4 : Memref sig .tc .vmem S64x64 .f32) (harg4 : arg4.IsWhole)
    (arg5 : Memref sig .tc .vmem S64x64 .f32) (harg5 : arg5.IsWhole) (arg6 : Memref sig .tc .vmem S64x1 .f32) (harg6 : arg6.IsWhole)
    (x0 : Vec F S2000x64 .f32) (x1 : Vec F S1x64 .f32) (x2 : Vec F S2000x1 .i32) (xo : Vec F S64x64 .f32)
    (s5 : Vec F S64x64 .f32) (s6 : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo ∗ owns (c : Thread nD τ) arg5 fullShare s5 ∗ owns (c : Thread nD τ) arg6 fullShare s6
        ∗ (iprop(owns (c : Thread nD τ) arg1 fullShare x0 ∗ owns (c : Thread nD τ) arg2 fullShare x1 ∗ owns (c : Thread nD τ) arg3 fullShare x2
            ∗ owns (c : Thread nD τ) arg4 fullShare xo ∗ owns (c : Thread nD τ) arg5 fullShare (k3_pay4 x0 x1 x2 s5)
            ∗ owns (c : Thread nD τ) arg6 fullShare (k3_pay5 x2 s6)) -∗ K ⟨⟩))
      ⊢ wp frame (wpE (defs₀ (F := F)) Variants.none c none) E (cc3__pool_kernel i arg1 harg1 arg2 harg2 arg3 harg3 arg4 harg4 arg5 harg5 arg6 harg6) K := by
  simp only [cc3__pool_kernel_eq_skeleton]; unfold cc3__pool_kernel_skel
  unfold owns
  iintro ⟨⟨%f0, %hf0, H0⟩, ⟨%f1, %hf1, H1⟩, ⟨%f2, %hf2, H2⟩, ⟨%f4, %hf4, H4⟩, ⟨%f5, %hf5, H5⟩, ⟨%f6, %hf6, H6⟩, Hk⟩
  subst hf0 hf1 hf2 hf4 hf5 hf6
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists f4; isplitr; · ipureintro; rfl
    iexact H4
  isplitl [H5]
  · iexists _; isplitr
    swap; · iexact H5
    ipureintro
    rw [View.read_writes_eq_canon _ _ _ (coverS _), View.canon_unit_zero off2_zero]
    simp only [View.readAt_eq_ld, View.ld_unit_zero (S := S2000x64) off2_zero, View.ld_unit_zero (S := S1x64) off2_zero,
      View.ld_unit_zero (S := S2000x1) off2_zero, View.ld_unit_zero (S := S64x64) off2_zero, View.ld_unit_zero (S := S64x1) off2_zero]
  iexists _; isplitr
  swap; · iexact H6
  ipureintro
  rw [View.read_writes_eq_canon _ _ _ (coverC _), View.canon_unit_zero off2_zero]
  simp only [View.readAt_eq_ld, View.ld_unit_zero (S := S2000x64) off2_zero, View.ld_unit_zero (S := S1x64) off2_zero,
      View.ld_unit_zero (S := S2000x1) off2_zero, View.ld_unit_zero (S := S64x64) off2_zero, View.ld_unit_zero (S := S64x1) off2_zero]

set_option maxHeartbeats 2000000 in
/-- The first point: whatever the scratch buffers held, they are cleared first, so they are left at the first
    block's contribution over zero; the result window's buffer is not touched. -/
theorem sound_kernel3_first (c : Dev nD) (E : Set ℕ) (i : grid3.Coords) (hf : cnd3_first i) (hl : ¬cnd3_last i)
    (arg1 : Memref sig .tc .vmem S2000x64 .f32) (harg1 : arg1.IsWhole) (arg2 : Memref sig .tc .vmem S1x64 .f32) (harg2 : arg2.IsWhole)
    (arg3 : Memref sig .tc .vmem S2000x1 .i32) (harg3 : arg3.IsWhole) (arg4 : Memref sig .tc .vmem S64x64 .f32) (harg4 : arg4.IsWhole)
    (arg5 : Memref sig .tc .vmem S64x64 .f32) (harg5 : arg5.IsWhole) (arg6 : Memref sig .tc .vmem S64x1 .f32) (harg6 : arg6.IsWhole)
    (x0 : Vec F S2000x64 .f32) (x1 : Vec F S1x64 .f32) (x2 : Vec F S2000x1 .i32) (xo : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xo ∗ owns (c : Thread nD τ) arg5 fullShare (k3_pay4 x0 x1 x2 k3_pay1)
            ∗ owns (c : Thread nD τ) arg6 fullShare (k3_pay5 x2 k3_pay2)) -∗ K ⟨⟩))
      ⊢ wp frame (wpE (defs₀ (F := F)) Variants.none c none) E (cc3__pool_kernel i arg1 harg1 arg2 harg2 arg3 harg3 arg4 harg4 arg5 harg5 arg6 harg6) K := by
  simp only [cc3__pool_kernel_eq_skeleton]; unfold cc3__pool_kernel_skel
  unfold owns
  iintro ⟨⟨%f0, %hf0, H0⟩, ⟨%f1, %hf1, H1⟩, ⟨%f2, %hf2, H2⟩, ⟨%f4, %hf4, H4⟩, ⟨%d5, %f5, -, H5⟩, ⟨%d6, %f6, -, H6⟩, Hk⟩
  subst hf0 hf1 hf2 hf4
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists f4; isplitr; · ipureintro; rfl
    iexact H4
  isplitl [H5]
  · iexists _; isplitr
    swap; · iexact H5
    ipureintro
    sl_unfold_words
    rw [View.read_writes_eq_canon _ _ _ (coverS_cons _ _), View.canon_cons_unit_zero off2_zero]
    simp only [View.readAt_eq_ld, View.ld_unit_zero (S := S2000x64) off2_zero, View.ld_unit_zero (S := S1x64) off2_zero,
      View.ld_unit_zero (S := S2000x1) off2_zero, View.ld_unit_zero (S := S64x64) off2_zero, View.ld_unit_zero (S := S64x1) off2_zero, View.readCov_unit_zero (S := S64x64) _ off2_zero]
  iexists _; isplitr
  swap; · iexact H6
  ipureintro
  sl_unfold_words
  rw [View.read_writes_eq_canon _ _ _ (coverC_cons _ _), View.canon_cons_unit_zero off2_zero]
  simp only [View.readAt_eq_ld, View.ld_unit_zero (S := S2000x64) off2_zero, View.ld_unit_zero (S := S1x64) off2_zero,
      View.ld_unit_zero (S := S2000x1) off2_zero, View.ld_unit_zero (S := S64x64) off2_zero, View.ld_unit_zero (S := S64x1) off2_zero, View.readCov_unit_zero (S := S64x1) _ off2_zero]

set_option maxHeartbeats 2000000 in
/-- The last point: the sums and counts are updated as at a middle point, and the result window's buffer is left at
    the updated sums divided by max(updated counts, 1). -/
theorem sound_kernel3_last (c : Dev nD) (E : Set ℕ) (i : grid3.Coords) (hf : ¬cnd3_first i) (hl : cnd3_last i)
    (arg1 : Memref sig .tc .vmem S2000x64 .f32) (harg1 : arg1.IsWhole) (arg2 : Memref sig .tc .vmem S1x64 .f32) (harg2 : arg2.IsWhole)
    (arg3 : Memref sig .tc .vmem S2000x1 .i32) (harg3 : arg3.IsWhole) (arg4 : Memref sig .tc .vmem S64x64 .f32) (harg4 : arg4.IsWhole)
    (arg5 : Memref sig .tc .vmem S64x64 .f32) (harg5 : arg5.IsWhole) (arg6 : Memref sig .tc .vmem S64x1 .f32) (harg6 : arg6.IsWhole)
    (x0 : Vec F S2000x64 .f32) (x1 : Vec F S1x64 .f32) (x2 : Vec F S2000x1 .i32)
    (s5 : Vec F S64x64 .f32) (s6 : Vec F S64x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare s5 ∗ owns (c : Thread nD τ) arg6 fullShare s6
        ∗ (iprop(owns (c : Thread nD τ) arg1 fullShare x0 ∗ owns (c : Thread nD τ) arg2 fullShare x1 ∗ owns (c : Thread nD τ) arg3 fullShare x2
            ∗ owns (c : Thread nD τ) arg4 fullShare (k3_pay6 (k3_pay4 x0 x1 x2 s5) (k3_pay5 x2 s6))
            ∗ owns (c : Thread nD τ) arg5 fullShare (k3_pay4 x0 x1 x2 s5)
            ∗ owns (c : Thread nD τ) arg6 fullShare (k3_pay5 x2 s6)) -∗ K ⟨⟩))
      ⊢ wp frame (wpE (defs₀ (F := F)) Variants.none c none) E (cc3__pool_kernel i arg1 harg1 arg2 harg2 arg3 harg3 arg4 harg4 arg5 harg5 arg6 harg6) K := by
  simp only [cc3__pool_kernel_eq_skeleton]; unfold cc3__pool_kernel_skel
  unfold owns
  iintro ⟨⟨%f0, %hf0, H0⟩, ⟨%f1, %hf1, H1⟩, ⟨%f2, %hf2, H2⟩, ⟨%d4, %f4, -, H4⟩, ⟨%f5, %hf5, H5⟩, ⟨%f6, %hf6, H6⟩, Hk⟩
  subst hf0 hf1 hf2 hf5 hf6
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    sl_unfold_words
    rw [View.read_writes_eq_canon _ _ _ (coverS _), View.canon_unit_zero off2_zero]
    simp only [View.readAt_eq_ld, View.ld_unit_zero (S := S2000x64) off2_zero, View.ld_unit_zero (S := S1x64) off2_zero,
      View.ld_unit_zero (S := S2000x1) off2_zero, View.ld_unit_zero (S := S64x64) off2_zero, View.ld_unit_zero (S := S64x1) off2_zero, View.readCov_unit_zero (S := S64x64) _ off2_zero, View.readCov_unit_zero (S := S64x1) _ off2_zero]
  isplitl [H5]
  · iexists _; isplitr
    swap; · iexact H5
    ipureintro
    sl_unfold_words
    rw [View.read_writes_eq_canon _ _ _ (coverS _), View.canon_unit_zero off2_zero]
    simp only [View.readAt_eq_ld, View.ld_unit_zero (S := S2000x64) off2_zero, View.ld_unit_zero (S := S1x64) off2_zero,
      View.ld_unit_zero (S := S2000x1) off2_zero, View.ld_unit_zero (S := S64x64) off2_zero, View.ld_unit_zero (S := S64x1) off2_zero]
  iexists _; isplitr
  swap; · iexact H6
  ipureintro
  sl_unfold_words
  rw [View.read_writes_eq_canon _ _ _ (coverC _), View.canon_unit_zero off2_zero]
  simp only [View.readAt_eq_ld, View.ld_unit_zero (S := S2000x64) off2_zero, View.ld_unit_zero (S := S1x64) off2_zero,
      View.ld_unit_zero (S := S2000x1) off2_zero, View.ld_unit_zero (S := S64x64) off2_zero, View.ld_unit_zero (S := S64x1) off2_zero]

variable (V : (c : Dev nD) → (b : Ref sig .tc) → Buf (Elt F) ((c : Thread nD τ).loc b))

/-! ## The windows' blocks -/

/-- Window w's block at point t, read off its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's buffer holds its block at every point (fetched there, or fetched once and left in place). -/
theorem held3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)
theorem held3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)
theorem held3_2_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-! ## The running sums and counts after each point -/

/-- The running sums after point n: the first point's contribution over zero, then one block's contribution more per point. -/
def accS (c : Dev nD) : (n : ℕ) → n < cfg3.N → Vec F S64x64 .f32
  | 0, h => k3_pay4 (blk3 V c 0 ⟨0, h⟩) (blk3 V c 1 ⟨0, h⟩) (blk3 V c 2 ⟨0, h⟩) k3_pay1
  | n + 1, h => k3_pay4 (blk3 V c 0 ⟨n + 1, h⟩) (blk3 V c 1 ⟨n + 1, h⟩) (blk3 V c 2 ⟨n + 1, h⟩) (accS c n (Nat.lt_of_succ_lt h))

/-- The running counts after point n. -/
def accC (c : Dev nD) : (n : ℕ) → n < cfg3.N → Vec F S64x1 .f32
  | 0, h => k3_pay5 (blk3 V c 2 ⟨0, h⟩) k3_pay2
  | n + 1, h => k3_pay5 (blk3 V c 2 ⟨n + 1, h⟩) (accC c n (Nat.lt_of_succ_lt h))

theorem accS_first (c : Dev nD) (t : Fin cfg3.N) (h : t.val = 0) :
    accS V c t.val t.isLt = k3_pay4 (blk3 V c 0 t) (blk3 V c 1 t) (blk3 V c 2 t) k3_pay1 := by
  obtain ⟨n, hn⟩ := t
  cases n with
  | zero => rfl
  | succ n => exact absurd h (Nat.succ_ne_zero n)
theorem accS_later (c : Dev nD) (t : Fin cfg3.N) (h : t.val ≠ 0) :
    accS V c t.val t.isLt = k3_pay4 (blk3 V c 0 t) (blk3 V c 1 t) (blk3 V c 2 t) (accS V c (t.val - 1) (Nat.lt_of_le_of_lt (Nat.sub_le _ _) t.isLt)) := by
  obtain ⟨n, hn⟩ := t
  cases n with
  | zero => exact absurd rfl h
  | succ n => rfl
theorem accC_first (c : Dev nD) (t : Fin cfg3.N) (h : t.val = 0) :
    accC V c t.val t.isLt = k3_pay5 (blk3 V c 2 t) k3_pay2 := by
  obtain ⟨n, hn⟩ := t
  cases n with
  | zero => rfl
  | succ n => exact absurd h (Nat.succ_ne_zero n)
theorem accC_later (c : Dev nD) (t : Fin cfg3.N) (h : t.val ≠ 0) :
    accC V c t.val t.isLt = k3_pay5 (blk3 V c 2 t) (accC V c (t.val - 1) (Nat.lt_of_le_of_lt (Nat.sub_le _ _) t.isLt)) := by
  obtain ⟨n, hn⟩ := t
  cases n with
  | zero => exact absurd rfl h
  | succ n => rfl

/-! ## The invariant and the proof data -/

/-- The region's invariant before position n: before the first point the class invariant (the scratch at anything);
    afterwards the two scratch buffers at the running sums and counts the point before left, the rest of the scoped
    buffers at anything and the generator register at some state. -/
def Phi3 (c : Dev nD) : (n : ℕ) → n ≤ cfg3.N → sProp 𝕄
  | 0, _ => Pipeline.ΦA spec3 c
  | n + 1, hn => iprop(((owns (c : Thread nD τ) scS fullShare (accS V c n hn) ∗ owns (c : Thread nD τ) scC fullShare (accC V c n hn))
      ∗ Pipeline.scopedRestBut (Ix := Unit) (Name := ℕ) (U := UR sig nD τ) (Lvl := ℕ) (Val := Elt F) spec3 c [cc3_scratch0, cc3_scratch1]) ∗ (∃ r, prngReg c r))

theorem Phi3_zero (c : Dev nD) (n : ℕ) (h : n ≤ cfg3.N) (hz : n = 0) : Phi3 V c n h = Pipeline.ΦA spec3 c := by
  subst hz; rfl
theorem Phi3_succ (c : Dev nD) (n : ℕ) (hn : n < cfg3.N) :
    Phi3 V c (n + 1) hn = iprop(((owns (c : Thread nD τ) scS fullShare (accS V c n hn) ∗ owns (c : Thread nD τ) scC fullShare (accC V c n hn))
      ∗ Pipeline.scopedRestBut (Ix := Unit) (Name := ℕ) (U := UR sig nD τ) (Lvl := ℕ) (Val := Elt F) spec3 c [cc3_scratch0, cc3_scratch1]) ∗ (∃ r, prngReg c r)) := rfl
theorem Phi3_pos (c : Dev nD) (n : ℕ) (h : n ≤ cfg3.N) (hz : n ≠ 0) :
    Phi3 V c n h = iprop(((owns (c : Thread nD τ) scS fullShare (accS V c (n - 1) (by omega)) ∗ owns (c : Thread nD τ) scC fullShare (accC V c (n - 1) (by omega)))
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-- Region 3's proof data on core c: the arrays as the region finds them; after the body at point t the three input
    buffers at their blocks and the result buffer at (running sums after t) / max(running counts after t, 1) — read
    only at the last point, the one point that stores into it and writes it back; the invariant above; nothing owed;
    full shares. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => k3_pay6 (accS V c t.val t.isLt) (accC V c t.val t.isLt)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem Phi3_castSucc (c : Dev nD) (t : Fin cfg3.N) :
    (dat3 V c).Φ t.castSucc = Phi3 V c t.val (Nat.le_of_lt t.isLt) := by
  dsimp only [dat3]; simp only [Fin.coe_castSucc]
theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]
theorem after3_3 (c : Dev nD) (t : Fin cfg3.N) : (dat3 V c).after 3 t = k3_pay6 (accS V c t.val t.isLt) (accC V c t.val t.isLt) := by dsimp only [dat3]

theorem held3_0 (c : Dev nD) (t : Fin cfg3.N) (d) : (dat3 V c).before 0 t d = blk3 V c 0 t :=
  held3_0_of V (dat3 V c) (A_eq3 V c 0) (after3_0 V c) t d
theorem held3_1 (c : Dev nD) (t : Fin cfg3.N) (d) : (dat3 V c).before 1 t d = blk3 V c 1 t :=
  held3_1_of V (dat3 V c) (A_eq3 V c 1) (after3_1 V c) t d
theorem held3_2 (c : Dev nD) (t : Fin cfg3.N) (d) : (dat3 V c).before 2 t d = blk3 V c 2 t :=
  held3_2_of V (dat3 V c) (A_eq3 V c 2) (after3_2 V c) t d

/-! ## Where the windows are idle -/

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
/-- Away from the last point the result window is idle and not written back. -/
theorem idle3_3 : ∀ t : Fin cfg3.N, ¬cnd3_last (grid3.coords t) → cfg3.idle 3 (grid3.coords t) = true := by decide +kernel
theorem noFlush3_3 : ∀ t : Fin cfg3.N, ¬cnd3_last (grid3.coords t) → (cfg3.win 3).flush t = false := by decide +kernel
/-- At the last point it is live. -/
theorem live3_3 : ∀ t : Fin cfg3.N, cnd3_last (grid3.coords t) → cfg3.idle 3 (grid3.coords t) = false := by decide +kernel

/-! ## The body obligation -/

/-- What the body is called with at point t, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4000000 in
/-- The body at any point, by the three cases: the input buffers hold their blocks; the invariant hands the body the
    scratch at what the point before left (at anything at the first point) and takes it back at this point's running
    sums and counts; the result window's buffer is handed back untouched except at the last point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [held3_0, held3_1, held3_2]
  rw [show (dat3 V c).owesAt () t.succ = (dat3 V c).owesAt () t.castSucc from rfl]
  rw [show (dat3 V c).Φ t.succ = Phi3 V c (t.val + 1) t.isLt from rfl, Phi3_succ]
  rw [show (dat3 V c).leavesExact 0 t = owns (c : Thread nD τ) (st3_0 t) fullShare ((dat3 V c).after 0 t) from by
    unfold Dat.leavesExact; rw [live3_0 t], after3_0]
  rw [show (dat3 V c).leavesExact 1 t = owns (c : Thread nD τ) (st3_1 t) fullShare ((dat3 V c).after 1 t) from by
    unfold Dat.leavesExact; rw [live3_1 t], after3_1]
  rw [show (dat3 V c).leavesExact 2 t = owns (c : Thread nD τ) (st3_2 t) fullShare ((dat3 V c).after 2 t) from by
    unfold Dat.leavesExact; rw [live3_2 t], after3_2]
  have hN : t.val < 50 := lt_of_lt_of_eq t.isLt (show cfg3.N = 50 from N_3)
  by_cases hz : t.val = 0
  · have hf : cnd3_first (grid3.coords t) := (hcnd3_first t).mpr hz
    have hl : ¬cnd3_last (grid3.coords t) := fun h => by have := (hcnd3_last t).mp h; omega
    rw [Dat.leavesExact_idle (dat3 V c) 3 t (idle3_3 t hl) (noFlush3_3 t hl)]
    rw [Phi3_castSucc V c t, Phi3_zero V c _ _ hz, PhiA3_eq, accS_first V c t hz, accC_first V c t hz]
    iintro ⟨⟨⟨⟨HS, HC⟩, HR⟩, Hg⟩, Ho, ⟨%d0, H0⟩, ⟨%d1, H1⟩, ⟨%d2, H2⟩, ⟨%d3, H3⟩⟩
    iapply (sound_kernel3_first c Set.univ (grid3.coords t) hf hl _ _ _ _ _ _ _ _ _ _ _ _ (blk3 V c 0 t) (blk3 V c 1 t) (blk3 V c 2 t) ((dat3 V c).before 3 t d3) _)
    isplitl [H0]; · iexact H0
    isplitl [H1]; · iexact H1
    isplitl [H2]; · iexact H2
    isplitl [H3]; · iexact H3
    isplitl [HS]; · iexact HS
    isplitl [HC]; · iexact HC
    iintro ⟨H0, H1, H2, H3, HS, HC⟩
    isplitl [HS HC HR Hg]
    · isplitl [HS HC HR]
      · isplitl [HS HC]
        · isplitl [HS]; · iexact HS
          iexact HC
        iexact HR
      iexact Hg
    isplitl [Ho]; · iexact Ho
    isplitl [H0]; · iexact H0
    isplitl [H1]; · iexact H1
    isplitl [H2]; · iexact H2
    iexists _; iexact H3
  · have hf : ¬cnd3_first (grid3.coords t) := fun h => hz ((hcnd3_first t).mp h)
    rw [Phi3_castSucc V c t, Phi3_pos V c _ _ hz, accS_later V c t hz, accC_later V c t hz]
    by_cases hl49 : t.val = 49
    · have hl : cnd3_last (grid3.coords t) := (hcnd3_last t).mpr hl49
      rw [show (dat3 V c).leavesExact 3 t = owns (c : Thread nD τ) (st3_3 t) fullShare ((dat3 V c).after 3 t) from by
        unfold Dat.leavesExact; rw [live3_3 t hl], after3_3, accS_later V c t hz, accC_later V c t hz]
      iintro ⟨⟨⟨⟨HS, HC⟩, HR⟩, Hg⟩, Ho, ⟨%d0, H0⟩, ⟨%d1, H1⟩, ⟨%d2, H2⟩, ⟨%d3, H3⟩⟩
      iapply (sound_kernel3_last c Set.univ (grid3.coords t) hf hl _ _ _ _ _ _ _ _ _ _ _ _ (blk3 V c 0 t) (blk3 V c 1 t) (blk3 V c 2 t) _ _ _)
      isplitl [H0]; · iexact H0
      isplitl [H1]; · iexact H1
      isplitl [H2]; · iexact H2
      isplitl [H3]; · iexists _; iexact H3
      isplitl [HS]; · iexact HS
      isplitl [HC]; · iexact HC
      iintro ⟨H0, H1, H2, H3, HS, HC⟩
      isplitl [HS HC HR Hg]
      · isplitl [HS HC HR]
        · isplitl [HS HC]
          · isplitl [HS]; · iexact HS
            iexact HC
          iexact HR
        iexact Hg
      isplitl [Ho]; · iexact Ho
      isplitl [H0]; · iexact H0
      isplitl [H1]; · iexact H1
      isplitl [H2]; · iexact H2
      iexact H3
    · have hl : ¬cnd3_last (grid3.coords t) := fun h => hl49 ((hcnd3_last t).mp h)
      rw [Dat.leavesExact_idle (dat3 V c) 3 t (idle3_3 t hl) (noFlush3_3 t hl)]
      iintro ⟨⟨⟨⟨HS, HC⟩, HR⟩, Hg⟩, Ho, ⟨%d0, H0⟩, ⟨%d1, H1⟩, ⟨%d2, H2⟩, ⟨%d3, H3⟩⟩
      iapply (sound_kernel3_mid c Set.univ (grid3.coords t) hf hl _ _ _ _ _ _ _ _ _ _ _ _ (blk3 V c 0 t) (blk3 V c 1 t) (blk3 V c 2 t) ((dat3 V c).before 3 t d3) _ _ _)
      isplitl [H0]; · iexact H0
      isplitl [H1]; · iexact H1
      isplitl [H2]; · iexact H2
      isplitl [H3]; · iexact H3
      isplitl [HS]; · iexact HS
      isplitl [HC]; · iexact HC
      iintro ⟨H0, H1, H2, H3, HS, HC⟩
      isplitl [HS HC HR Hg]
      · isplitl [HS HC HR]
        · isplitl [HS HC]
          · isplitl [HS]; · iexact HS
            iexact HC
          iexact HR
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : Pipeline.ΦA spec3 c ⊢ (dat3 V c).Φ 0 := by
  rw [show (dat3 V c).Φ 0 = Phi3 V c 0 (Nat.zero_le _) from rfl, Phi3_zero V c 0 _ rfl]
  try exact Idealize.SL.BI.Entails.refl _

/-- After the last point the invariant gives the class invariant back: the scratch contents are forgotten. -/
theorem hout3 (c : Dev nD) : (dat3 V c).Φ (Fin.last cfg3.N) ⊢ Pipeline.ΦA spec3 c := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 50 := N_3; omega), PhiA3_eq]
  iintro ⟨⟨⟨HS, HC⟩, HR⟩, Hg⟩
  isplitl [HS HC HR]
  · isplitl [HS HC]
    · isplitl [HS]
      · iexists _; iexact HS
      iexists _; iexact HC
    iexact HR
  iexact Hg

end Cert.Kernel.Hand

end
-- ==== Proof.KB.Run.lean ====
/-
  The whole run of the program: eleven items in order — a stretch of host operations, the first projection, three
  stretches (the first aggregation), the rectifier, the second projection, three stretches (the second aggregation),
  the pooling — each entered from what the item before left. B0 … B11 name the contents of the core's unscoped buffers
  at the twelve boundaries: a host stretch applies its operations; a region leaves its arrays at what its write-backs
  fold to and every other buffer as entered. The run ends with every unscoped buffer at B11; the seven arguments are
  then read back to their launch contents, and the result array is what the last region's write-back left.
-/
import proofs.«420483_j44942537786128_1_alg».proof.Proof.KB.Reg0
import proofs.«420483_j44942537786128_1_alg».proof.Proof.KB.Reg1
import proofs.«420483_j44942537786128_1_alg».proof.Proof.KB.Reg2
import proofs.«420483_j44942537786128_1_alg».proof.Proof.KB.Reg3
import proofs.«420483_j44942537786128_1_alg».proof.Proof.Gen.Kernel.Regions
import proofs.«420483_j44942537786128_1_alg».proof.Proof.Gen.Kernel.Launch
import proofs.«420483_j44942537786128_1_alg».proof.Proof.Gen.Kernel.Skeleton
import proofs.«420483_j44942537786128_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev B0 : Dev nD → Valuation τ sig (Elt F) := fun c b => (s₀ m ρ).mem ((c : Dev nD), b)
/-- After the host stretch `hostOps0`. -/
abbrev B1 : Dev nD → Valuation τ sig (Elt F) := fun c => StableHlo.after hostOps0 (B0 m ρ c)
abbrev V1 : (c : Dev nD) → (b : Ref sig .tc) → Buf (Elt F) ((c : Thread nD τ).loc b) := fun c b => B1 m ρ c b
/-- At region 0's exit: its arrays at what its write-backs leave, every other buffer as entered. -/
def B2 (c : Dev nD) : Valuation τ sig (Elt F) :=
  Pipeline.withArrays spec0 c (B1 m ρ c) fun w => (dat0 (V1 m ρ) c).arrAt w cfg0.N
theorem B2_arr (c : Dev nD) (w : Fin cfg0.W) :
    B2 m ρ c (Proc.devRef .tc (Pipeline.arrRef spec0 w)) = (dat0 (V1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev V2 : (c : Dev nD) → (b : Ref sig .tc) → Buf (Elt F) ((c : Thread nD τ).loc b) := fun c b => B2 m ρ c b
theorem hF0 (c : Dev nD) (w : Fin cfg0.W) : (dat0 (V1 m ρ) c).arrAt w cfg0.N = V2 m ρ c (Pipeline.arrRef spec0 w) :=
  (B2_arr m ρ c w).symm
theorem hrest0 (c : Dev nD) : ∀ b, b ∉ Finset.univ.image (Pipeline.arrRef spec0) → V2 m ρ c b = V1 m ρ c b :=
  fun b hb => B2_of_ne m ρ c b fun w e => hb (Finset.mem_image.mpr ⟨w, Finset.mem_univ _, e⟩)
/-- After the host stretch `hostOps1`. -/
abbrev B3 : Dev nD → Valuation τ sig (Elt F) := fun c => StableHlo.after hostOps1 (B2 m ρ c)
abbrev V3 : (c : Dev nD) → (b : Ref sig .tc) → Buf (Elt F) ((c : Thread nD τ).loc b) := fun c b => B3 m ρ c b
/-- After the host stretch `hostOps1_1`. -/
abbrev B4 : Dev nD → Valuation τ sig (Elt F) := fun c => StableHlo.after hostOps1_1 (B3 m ρ c)
abbrev V4 : (c : Dev nD) → (b : Ref sig .tc) → Buf (Elt F) ((c : Thread nD τ).loc b) := fun c b => B4 m ρ c b
/-- After the host stretch `hostOps1_2`. -/
abbrev B5 : Dev nD → Valuation τ sig (Elt F) := fun c => StableHlo.after hostOps1_2 (B4 m ρ c)
abbrev V5 : (c : Dev nD) → (b : Ref sig .tc) → Buf (Elt F) ((c : Thread nD τ).loc b) := fun c b => B5 m ρ c b
/-- At region 1's exit: its arrays at what its write-backs leave, every other buffer as entered. -/
def B6 (c : Dev nD) : Valuation τ sig (Elt F) :=
  Pipeline.withArrays spec1 c (B5 m ρ c) fun w => (dat1 (V5 m ρ) c).arrAt w cfg1.N
theorem B6_arr (c : Dev nD) (w : Fin cfg1.W) :
    B6 m ρ c (Proc.devRef .tc (Pipeline.arrRef spec1 w)) = (dat1 (V5 m ρ) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m ρ c (Proc.devRef .tc b) = B5 m ρ c (Proc.devRef .tc b) := by
  unfold B6; exact Pipeline.withArrays_of_ne spec1 c _ _ b hb
abbrev V6 : (c : Dev nD) → (b : Ref sig .tc) → Buf (Elt F) ((c : Thread nD τ).loc b) := fun c b => B6 m ρ c b
theorem hF1 (c : Dev nD) (w : Fin cfg1.W) : (dat1 (V5 m ρ) c).arrAt w cfg1.N = V6 m ρ c (Pipeline.arrRef spec1 w) :=
  (B6_arr m ρ c w).symm
theorem hrest1 (c : Dev nD) : ∀ b, b ∉ Finset.univ.image (Pipeline.arrRef spec1) → V6 m ρ c b = V5 m ρ c b :=
  fun b hb => B6_of_ne m ρ c b fun w e => hb (Finset.mem_image.mpr ⟨w, Finset.mem_univ _, e⟩)
/-- At region 2's exit: its arrays at what its write-backs leave, every other buffer as entered. -/
def B7 (c : Dev nD) : Valuation τ sig (Elt F) :=
  Pipeline.withArrays spec2 c (B6 m ρ c) fun w => (dat2 (V6 m ρ) c).arrAt w cfg2.N
theorem B7_arr (c : Dev nD) (w : Fin cfg2.W) :
    B7 m ρ c (Proc.devRef .tc (Pipeline.arrRef spec2 w)) = (dat2 (V6 m ρ) c).arrAt w cfg2.N := by
  unfold B7; exact Pipeline.withArrays_arr spec2 launch2.win.arr_inj c _ _ w
theorem B7_of_ne (c : Dev nD) (b : Ref sig .tc) (hb : ∀ w, Pipeline.arrRef spec2 w ≠ b) :
    B7 m ρ c (Proc.devRef .tc b) = B6 m ρ c (Proc.devRef .tc b) := by
  unfold B7; exact Pipeline.withArrays_of_ne spec2 c _ _ b hb
abbrev V7 : (c : Dev nD) → (b : Ref sig .tc) → Buf (Elt F) ((c : Thread nD τ).loc b) := fun c b => B7 m ρ c b
theorem hF2 (c : Dev nD) (w : Fin cfg2.W) : (dat2 (V6 m ρ) c).arrAt w cfg2.N = V7 m ρ c (Pipeline.arrRef spec2 w) :=
  (B7_arr m ρ c w).symm
theorem hrest2 (c : Dev nD) : ∀ b, b ∉ Finset.univ.image (Pipeline.arrRef spec2) → V7 m ρ c b = V6 m ρ c b :=
  fun b hb => B7_of_ne m ρ c b fun w e => hb (Finset.mem_image.mpr ⟨w, Finset.mem_univ _, e⟩)
/-- After the host stretch `hostOps3`. -/
abbrev B8 : Dev nD → Valuation τ sig (Elt F) := fun c => StableHlo.after hostOps3 (B7 m ρ c)
abbrev V8 : (c : Dev nD) → (b : Ref sig .tc) → Buf (Elt F) ((c : Thread nD τ).loc b) := fun c b => B8 m ρ c b
/-- After the host stretch `hostOps3_1`. -/
abbrev B9 : Dev nD → Valuation τ sig (Elt F) := fun c => StableHlo.after hostOps3_1 (B8 m ρ c)
abbrev V9 : (c : Dev nD) → (b : Ref sig .tc) → Buf (Elt F) ((c : Thread nD τ).loc b) := fun c b => B9 m ρ c b
/-- After the host stretch `hostOps3_2`. -/
abbrev B10 : Dev nD → Valuation τ sig (Elt F) := fun c => StableHlo.after hostOps3_2 (B9 m ρ c)
abbrev V10 : (c : Dev nD) → (b : Ref sig .tc) → Buf (Elt F) ((c : Thread nD τ).loc b) := fun c b => B10 m ρ c b
/-- At region 3's exit: its arrays at what its write-backs leave, every other buffer as entered. -/
def B11 (c : Dev nD) : Valuation τ sig (Elt F) :=
  Pipeline.withArrays spec3 c (B10 m ρ c) fun w => (dat3 (V10 m ρ) c).arrAt w cfg3.N
theorem B11_arr (c : Dev nD) (w : Fin cfg3.W) :
    B11 m ρ c (Proc.devRef .tc (Pipeline.arrRef spec3 w)) = (dat3 (V10 m ρ) c).arrAt w cfg3.N := by
  unfold B11; exact Pipeline.withArrays_arr spec3 launch3.win.arr_inj c _ _ w
theorem B11_of_ne (c : Dev nD) (b : Ref sig .tc) (hb : ∀ w, Pipeline.arrRef spec3 w ≠ b) :
    B11 m ρ c (Proc.devRef .tc b) = B10 m ρ c (Proc.devRef .tc b) := by
  unfold B11; exact Pipeline.withArrays_of_ne spec3 c _ _ b hb
abbrev V11 : (c : Dev nD) → (b : Ref sig .tc) → Buf (Elt F) ((c : Thread nD τ).loc b) := fun c b => B11 m ρ c b
theorem hF3 (c : Dev nD) (w : Fin cfg3.W) : (dat3 (V10 m ρ) c).arrAt w cfg3.N = V11 m ρ c (Pipeline.arrRef spec3 w) :=
  (B11_arr m ρ c w).symm
theorem hrest3 (c : Dev nD) : ∀ b, b ∉ Finset.univ.image (Pipeline.arrRef spec3) → V11 m ρ c b = V10 m ρ c b :=
  fun b hb => B11_of_ne m ρ c b fun w e => hb (Finset.mem_image.mpr ⟨w, Finset.mem_univ _, e⟩)

/-! ## The arguments end as launched -/

theorem B11_main_arg0 (c : Dev nD) : B11 m ρ c (Proc.devRef .tc main_arg0) = m ((c : Thread nD τ).loc main_arg0) :=
  calc B11 m ρ c (Proc.devRef .tc main_arg0)
    _ = B10 m ρ c (Proc.devRef .tc main_arg0) := B11_of_ne m ρ c main_arg0 (by decide)
    _ = B9 m ρ c (Proc.devRef .tc main_arg0) := StableHlo.after_of_writes_sub hostOps3_2 _ hostOps3_2_writes (by decide : main_arg0 ∉ hostOps3_2_W)
    _ = B8 m ρ c (Proc.devRef .tc main_arg0) := StableHlo.after_of_writes_sub hostOps3_1 _ hostOps3_1_writes (by decide : main_arg0 ∉ hostOps3_1_W)
    _ = B7 m ρ c (Proc.devRef .tc main_arg0) := StableHlo.after_of_writes_sub hostOps3 _ hostOps3_writes (by decide : main_arg0 ∉ hostOps3_W)
    _ = B6 m ρ c (Proc.devRef .tc main_arg0) := B7_of_ne m ρ c main_arg0 (by decide)
    _ = B5 m ρ c (Proc.devRef .tc main_arg0) := B6_of_ne m ρ c main_arg0 (by decide)
    _ = B4 m ρ c (Proc.devRef .tc main_arg0) := StableHlo.after_of_writes_sub hostOps1_2 _ hostOps1_2_writes (by decide : main_arg0 ∉ hostOps1_2_W)
    _ = B3 m ρ c (Proc.devRef .tc main_arg0) := StableHlo.after_of_writes_sub hostOps1_1 _ hostOps1_1_writes (by decide : main_arg0 ∉ hostOps1_1_W)
    _ = B2 m ρ c (Proc.devRef .tc main_arg0) := StableHlo.after_of_writes_sub hostOps1 _ hostOps1_writes (by decide : main_arg0 ∉ hostOps1_W)
    _ = B1 m ρ c (Proc.devRef .tc main_arg0) := (B2_arr m ρ c 0).trans (((dat0 (V1 m ρ) c).arrAt_in 0 rfl _).trans (A_eq0 (V1 m ρ) c 0))
    _ = B0 m ρ c (Proc.devRef .tc main_arg0) := StableHlo.after_of_writes_sub hostOps0 _ hostOps0_writes (by decide : main_arg0 ∉ hostOps0_W)
    _ = m ((c : Thread nD τ).loc main_arg0) := rfl
theorem B11_main_arg1 (c : Dev nD) : B11 m ρ c (Proc.devRef .tc main_arg1) = m ((c : Thread nD τ).loc main_arg1) :=
  calc B11 m ρ c (Proc.devRef .tc main_arg1)
    _ = B10 m ρ c (Proc.devRef .tc main_arg1) := B11_of_ne m ρ c main_arg1 (by decide)
    _ = B9 m ρ c (Proc.devRef .tc main_arg1) := StableHlo.after_of_writes_sub hostOps3_2 _ hostOps3_2_writes (by decide : main_arg1 ∉ hostOps3_2_W)
    _ = B8 m ρ c (Proc.devRef .tc main_arg1) := StableHlo.after_of_writes_sub hostOps3_1 _ hostOps3_1_writes (by decide : main_arg1 ∉ hostOps3_1_W)
    _ = B7 m ρ c (Proc.devRef .tc main_arg1) := StableHlo.after_of_writes_sub hostOps3 _ hostOps3_writes (by decide : main_arg1 ∉ hostOps3_W)
    _ = B6 m ρ c (Proc.devRef .tc main_arg1) := B7_of_ne m ρ c main_arg1 (by decide)
    _ = B5 m ρ c (Proc.devRef .tc main_arg1) := B6_of_ne m ρ c main_arg1 (by decide)
    _ = B4 m ρ c (Proc.devRef .tc main_arg1) := StableHlo.after_of_writes_sub hostOps1_2 _ hostOps1_2_writes (by decide : main_arg1 ∉ hostOps1_2_W)
    _ = B3 m ρ c (Proc.devRef .tc main_arg1) := StableHlo.after_of_writes_sub hostOps1_1 _ hostOps1_1_writes (by decide : main_arg1 ∉ hostOps1_1_W)
    _ = B2 m ρ c (Proc.devRef .tc main_arg1) := StableHlo.after_of_writes_sub hostOps1 _ hostOps1_writes (by decide : main_arg1 ∉ hostOps1_W)
    _ = B1 m ρ c (Proc.devRef .tc main_arg1) := B2_of_ne m ρ c main_arg1 (by decide)
    _ = B0 m ρ c (Proc.devRef .tc main_arg1) := StableHlo.after_of_writes_sub hostOps0 _ hostOps0_writes (by decide : main_arg1 ∉ hostOps0_W)
    _ = m ((c : Thread nD τ).loc main_arg1) := rfl
theorem B11_main_arg2 (c : Dev nD) : B11 m ρ c (Proc.devRef .tc main_arg2) = m ((c : Thread nD τ).loc main_arg2) :=
  calc B11 m ρ c (Proc.devRef .tc main_arg2)
    _ = B10 m ρ c (Proc.devRef .tc main_arg2) := B11_of_ne m ρ c main_arg2 (by decide)
    _ = B9 m ρ c (Proc.devRef .tc main_arg2) := StableHlo.after_of_writes_sub hostOps3_2 _ hostOps3_2_writes (by decide : main_arg2 ∉ hostOps3_2_W)
    _ = B8 m ρ c (Proc.devRef .tc main_arg2) := StableHlo.after_of_writes_sub hostOps3_1 _ hostOps3_1_writes (by decide : main_arg2 ∉ hostOps3_1_W)
    _ = B7 m ρ c (Proc.devRef .tc main_arg2) := StableHlo.after_of_writes_sub hostOps3 _ hostOps3_writes (by decide : main_arg2 ∉ hostOps3_W)
    _ = B6 m ρ c (Proc.devRef .tc main_arg2) := B7_of_ne m ρ c main_arg2 (by decide)
    _ = B5 m ρ c (Proc.devRef .tc main_arg2) := B6_of_ne m ρ c main_arg2 (by decide)
    _ = B4 m ρ c (Proc.devRef .tc main_arg2) := StableHlo.after_of_writes_sub hostOps1_2 _ hostOps1_2_writes (by decide : main_arg2 ∉ hostOps1_2_W)
    _ = B3 m ρ c (Proc.devRef .tc main_arg2) := StableHlo.after_of_writes_sub hostOps1_1 _ hostOps1_1_writes (by decide : main_arg2 ∉ hostOps1_1_W)
    _ = B2 m ρ c (Proc.devRef .tc main_arg2) := StableHlo.after_of_writes_sub hostOps1 _ hostOps1_writes (by decide : main_arg2 ∉ hostOps1_W)
    _ = B1 m ρ c (Proc.devRef .tc main_arg2) := B2_of_ne m ρ c main_arg2 (by decide)
    _ = B0 m ρ c (Proc.devRef .tc main_arg2) := StableHlo.after_of_writes_sub hostOps0 _ hostOps0_writes (by decide : main_arg2 ∉ hostOps0_W)
    _ = m ((c : Thread nD τ).loc main_arg2) := rfl
theorem B11_main_arg3 (c : Dev nD) : B11 m ρ c (Proc.devRef .tc main_arg3) = m ((c : Thread nD τ).loc main_arg3) :=
  calc B11 m ρ c (Proc.devRef .tc main_arg3)
    _ = B10 m ρ c (Proc.devRef .tc main_arg3) := B11_of_ne m ρ c main_arg3 (by decide)
    _ = B9 m ρ c (Proc.devRef .tc main_arg3) := StableHlo.after_of_writes_sub hostOps3_2 _ hostOps3_2_writes (by decide : main_arg3 ∉ hostOps3_2_W)
    _ = B8 m ρ c (Proc.devRef .tc main_arg3) := StableHlo.after_of_writes_sub hostOps3_1 _ hostOps3_1_writes (by decide : main_arg3 ∉ hostOps3_1_W)
    _ = B7 m ρ c (Proc.devRef .tc main_arg3) := StableHlo.after_of_writes_sub hostOps3 _ hostOps3_writes (by decide : main_arg3 ∉ hostOps3_W)
    _ = B6 m ρ c (Proc.devRef .tc main_arg3) := B7_of_ne m ρ c main_arg3 (by decide)
    _ = B5 m ρ c (Proc.devRef .tc main_arg3) := B6_of_ne m ρ c main_arg3 (by decide)
    _ = B4 m ρ c (Proc.devRef .tc main_arg3) := StableHlo.after_of_writes_sub hostOps1_2 _ hostOps1_2_writes (by decide : main_arg3 ∉ hostOps1_2_W)
    _ = B3 m ρ c (Proc.devRef .tc main_arg3) := StableHlo.after_of_writes_sub hostOps1_1 _ hostOps1_1_writes (by decide : main_arg3 ∉ hostOps1_1_W)
    _ = B2 m ρ c (Proc.devRef .tc main_arg3) := StableHlo.after_of_writes_sub hostOps1 _ hostOps1_writes (by decide : main_arg3 ∉ hostOps1_W)
    _ = B1 m ρ c (Proc.devRef .tc main_arg3) := (B2_arr m ρ c 1).trans (((dat0 (V1 m ρ) c).arrAt_in 1 rfl _).trans (A_eq0 (V1 m ρ) c 1))
    _ = B0 m ρ c (Proc.devRef .tc main_arg3) := StableHlo.after_of_writes_sub hostOps0 _ hostOps0_writes (by decide : main_arg3 ∉ hostOps0_W)
    _ = m ((c : Thread nD τ).loc main_arg3) := rfl
theorem B11_main_arg4 (c : Dev nD) : B11 m ρ c (Proc.devRef .tc main_arg4) = m ((c : Thread nD τ).loc main_arg4) :=
  calc B11 m ρ c (Proc.devRef .tc main_arg4)
    _ = B10 m ρ c (Proc.devRef .tc main_arg4) := B11_of_ne m ρ c main_arg4 (by decide)
    _ = B9 m ρ c (Proc.devRef .tc main_arg4) := StableHlo.after_of_writes_sub hostOps3_2 _ hostOps3_2_writes (by decide : main_arg4 ∉ hostOps3_2_W)
    _ = B8 m ρ c (Proc.devRef .tc main_arg4) := StableHlo.after_of_writes_sub hostOps3_1 _ hostOps3_1_writes (by decide : main_arg4 ∉ hostOps3_1_W)
    _ = B7 m ρ c (Proc.devRef .tc main_arg4) := StableHlo.after_of_writes_sub hostOps3 _ hostOps3_writes (by decide : main_arg4 ∉ hostOps3_W)
    _ = B6 m ρ c (Proc.devRef .tc main_arg4) := B7_of_ne m ρ c main_arg4 (by decide)
    _ = B5 m ρ c (Proc.devRef .tc main_arg4) := B6_of_ne m ρ c main_arg4 (by decide)
    _ = B4 m ρ c (Proc.devRef .tc main_arg4) := StableHlo.after_of_writes_sub hostOps1_2 _ hostOps1_2_writes (by decide : main_arg4 ∉ hostOps1_2_W)
    _ = B3 m ρ c (Proc.devRef .tc main_arg4) := StableHlo.after_of_writes_sub hostOps1_1 _ hostOps1_1_writes (by decide : main_arg4 ∉ hostOps1_1_W)
    _ = B2 m ρ c (Proc.devRef .tc main_arg4) := StableHlo.after_of_writes_sub hostOps1 _ hostOps1_writes (by decide : main_arg4 ∉ hostOps1_W)
    _ = B1 m ρ c (Proc.devRef .tc main_arg4) := B2_of_ne m ρ c main_arg4 (by decide)
    _ = B0 m ρ c (Proc.devRef .tc main_arg4) := StableHlo.after_of_writes_sub hostOps0 _ hostOps0_writes (by decide : main_arg4 ∉ hostOps0_W)
    _ = m ((c : Thread nD τ).loc main_arg4) := rfl
theorem B11_main_arg5 (c : Dev nD) : B11 m ρ c (Proc.devRef .tc main_arg5) = m ((c : Thread nD τ).loc main_arg5) :=
  calc B11 m ρ c (Proc.devRef .tc main_arg5)
    _ = B10 m ρ c (Proc.devRef .tc main_arg5) := B11_of_ne m ρ c main_arg5 (by decide)
    _ = B9 m ρ c (Proc.devRef .tc main_arg5) := StableHlo.after_of_writes_sub hostOps3_2 _ hostOps3_2_writes (by decide : main_arg5 ∉ hostOps3_2_W)
    _ = B8 m ρ c (Proc.devRef .tc main_arg5) := StableHlo.after_of_writes_sub hostOps3_1 _ hostOps3_1_writes (by decide : main_arg5 ∉ hostOps3_1_W)
    _ = B7 m ρ c (Proc.devRef .tc main_arg5) := StableHlo.after_of_writes_sub hostOps3 _ hostOps3_writes (by decide : main_arg5 ∉ hostOps3_W)
    _ = B6 m ρ c (Proc.devRef .tc main_arg5) := (B7_arr m ρ c 1).trans (((dat2 (V6 m ρ) c).arrAt_in 1 rfl _).trans (A_eq2 (V6 m ρ) c 1))
    _ = B5 m ρ c (Proc.devRef .tc main_arg5) := B6_of_ne m ρ c main_arg5 (by decide)
    _ = B4 m ρ c (Proc.devRef .tc main_arg5) := StableHlo.after_of_writes_sub hostOps1_2 _ hostOps1_2_writes (by decide : main_arg5 ∉ hostOps1_2_W)
    _ = B3 m ρ c (Proc.devRef .tc main_arg5) := StableHlo.after_of_writes_sub hostOps1_1 _ hostOps1_1_writes (by decide : main_arg5 ∉ hostOps1_1_W)
    _ = B2 m ρ c (Proc.devRef .tc main_arg5) := StableHlo.after_of_writes_sub hostOps1 _ hostOps1_writes (by decide : main_arg5 ∉ hostOps1_W)
    _ = B1 m ρ c (Proc.devRef .tc main_arg5) := B2_of_ne m ρ c main_arg5 (by decide)
    _ = B0 m ρ c (Proc.devRef .tc main_arg5) := StableHlo.after_of_writes_sub hostOps0 _ hostOps0_writes (by decide : main_arg5 ∉ hostOps0_W)
    _ = m ((c : Thread nD τ).loc main_arg5) := rfl
theorem B11_main_arg6 (c : Dev nD) : B11 m ρ c (Proc.devRef .tc main_arg6) = m ((c : Thread nD τ).loc main_arg6) :=
  calc B11 m ρ c (Proc.devRef .tc main_arg6)
    _ = B10 m ρ c (Proc.devRef .tc main_arg6) := B11_of_ne m ρ c main_arg6 (by decide)
    _ = B9 m ρ c (Proc.devRef .tc main_arg6) := StableHlo.after_of_writes_sub hostOps3_2 _ hostOps3_2_writes (by decide : main_arg6 ∉ hostOps3_2_W)
    _ = B8 m ρ c (Proc.devRef .tc main_arg6) := StableHlo.after_of_writes_sub hostOps3_1 _ hostOps3_1_writes (by decide : main_arg6 ∉ hostOps3_1_W)
    _ = B7 m ρ c (Proc.devRef .tc main_arg6) := StableHlo.after_of_writes_sub hostOps3 _ hostOps3_writes (by decide : main_arg6 ∉ hostOps3_W)
    _ = B6 m ρ c (Proc.devRef .tc main_arg6) := B7_of_ne m ρ c main_arg6 (by decide)
    _ = B5 m ρ c (Proc.devRef .tc main_arg6) := B6_of_ne m ρ c main_arg6 (by decide)
    _ = B4 m ρ c (Proc.devRef .tc main_arg6) := StableHlo.after_of_writes_sub hostOps1_2 _ hostOps1_2_writes (by decide : main_arg6 ∉ hostOps1_2_W)
    _ = B3 m ρ c (Proc.devRef .tc main_arg6) := StableHlo.after_of_writes_sub hostOps1_1 _ hostOps1_1_writes (by decide : main_arg6 ∉ hostOps1_1_W)
    _ = B2 m ρ c (Proc.devRef .tc main_arg6) := StableHlo.after_of_writes_sub hostOps1 _ hostOps1_writes (by decide : main_arg6 ∉ hostOps1_W)
    _ = B1 m ρ c (Proc.devRef .tc main_arg6) := B2_of_ne m ρ c main_arg6 (by decide)
    _ = B0 m ρ c (Proc.devRef .tc main_arg6) := StableHlo.after_of_writes_sub hostOps0 _ hostOps0_writes (by decide : main_arg6 ∉ hostOps0_W)
    _ = m ((c : Thread nD τ).loc main_arg6) := rfl

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
  | ⟨2, _⟩ => fun c => dat2 (V6 m ρ) c
  | ⟨3, _⟩ => fun c => dat3 (V10 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as an item of the run, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the dues: every unscoped buffer at B11, the generator register at some state. -/
abbrev Tₙ (c : Dev nD) : sProp 𝕄 := iprop(StableHlo.held (c : Thread nD τ) (Pipeline.ucRefs τ sig) (B11 m ρ c) ∗ ∃ r, prngReg c r)

/-! ## The regions as items of the run -/

/-- After the last point region 3's invariant gives back the generator register and the scoped rest, the scratch forgotten. -/
theorem hout3_parts (V : (c : Dev nD) → (b : Ref sig .tc) → Buf (Elt F) ((c : Thread nD τ).loc b)) (c : Dev nD) :
    (dat3 V c).Φ (Fin.last cfg3.N) ⊢ (iprop((∃ r, prngReg c r) ∗ BI.emp ∗ Pipeline.scopedRest (Ix := Unit) (Name := ℕ) (U := UR sig nD τ) (Lvl := ℕ) (Val := Elt F) spec3 c) : sProp 𝕄) :=
  (hout3 V c).trans (by
    unfold Pipeline.ΦA
    iintro ⟨Hr, Hp⟩
    isplitl [Hp]; · iexact Hp
    isplitr; · iempintro
    iexact Hr)

set_option backward.isDefEq.respectTransparency.types false in
/-- Region 0 over the thread state: entered with every unscoped buffer at B1, left with them at B2. Its arrays
    are split out of the unscoped buffers at entry and put back at the exit contents; the generator register goes into
    the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at B5, left with them at B6. Its arrays
    are split out of the unscoped buffers at entry and put back at the exit contents; the generator register goes into
    the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at B6, left with them at B7. Its arrays
    are split out of the unscoped buffers at entry and put back at the exit contents; the generator register goes into
    the invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (B6 m ρ c) ∗ R c)
  post c := iprop(StableHlo.held (c : Thread nD τ) (Pipeline.ucRefs τ sig) (B7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at B10, left with them at B11. Its arrays
    are split out of the unscoped buffers at entry and put back at the exit contents; the generator register goes into
    the invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V10 m ρ) c).loose
  hwaits := Pipeline.hwaits_of_owed_zero _ _ _ _ L lv 3 fun _ _ => rfl
  pre c := iprop(StableHlo.held (c : Thread nD τ) (Pipeline.ucRefs τ sig) (B10 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V10 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    exact hout3_parts (V10 m ρ) c
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V10 m ρ c) (V11 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The program's eleven items in order. -/
abbrev segs : List (Pipeline.Seg (pcfgs (F := F)) adm (pdats m ρ) () defs₀ 𝒱₀ L lv) :=
  [
    .host (hseg hostOps0 hostOps0_sub hostOps0_fresh (B0 m ρ)),
    .region (reg0 m ρ),
    .host (hseg hostOps1 hostOps1_sub hostOps1_fresh (B2 m ρ)),
    .host (hseg hostOps1_1 hostOps1_1_sub hostOps1_1_fresh (B3 m ρ)),
    .host (hseg hostOps1_2 hostOps1_2_sub hostOps1_2_fresh (B4 m ρ)),
    .region (reg1 m ρ),
    .region (reg2 m ρ),
    .host (hseg hostOps3 hostOps3_sub hostOps3_fresh (B7 m ρ)),
    .host (hseg hostOps3_1 hostOps3_1_sub hostOps3_1_fresh (B8 m ρ)),
    .host (hseg hostOps3_2 hostOps3_2_sub hostOps3_2_fresh (B9 m ρ)),
    .region (reg3 m ρ) ]

theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state has every unscoped buffer of every core at B11. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = B11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B11 m ρ c b)
    (hfin := fun c s' => by
      iintro ⟨⟨Hh, -⟩, HSI⟩
      unfold StableHlo.held
      imodintro
      iapply (pointsTo_read_all (Pipeline.ucRefs τ sig) (fun b => (((c : Thread nD τ)).1, b)) (B11 m ρ c) s')
      isplitl [Hh] <;> iassumption)
    (hQ := fun s h c => h c)

end Cert.Kernel.Hand

end
-- ==== Proof.KI.Reg0.lean ====
/-
  Region 0: the first dense projection, one grid point at a time. At point t the body reads the block of
  rows 2000·t … 2000·t+1999 of the node features (window 0) and the whole 128×128 weight matrix (window 1, the
  same block at every point), multiplies them on the matrix unit into a zero accumulator and stores the
  2000×128 product over the whole of window 2's buffer. Everything is stated at a parameter V, the contents of
  the core's buffers when the region is entered, and at any float instance F.
-/
import proofs.«420483_j44942537786128_1_alg».proof.Proof.Gen.KernelIdeal.Launch
import proofs.«420483_j44942537786128_1_alg».proof.Proof.Gen.KernelIdeal.Skeleton
import proofs.«420483_j44942537786128_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Two zero offsets, as the constant function. -/
theorem off2_zero : (![0, 0] : Fin 2 → ℕ) = fun _ => 0 :=
  funext fun a => by match a with | ⟨0, _⟩ => rfl | ⟨1, _⟩ => rfl

/-! ## The windows' blocks -/

/-- Window w's block at point t, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's buffer holds its block at every point: it is fetched at every point. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The weight window's buffer holds the whole matrix at every point: fetched once, its index never moves and the
    body leaves it in place. -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## What the body leaves in the product window's buffer -/

abbrev rX0 : Rect S2000x128 := Rect.unit (s := S2000x128) ![0, 0] S2000x128.size inb_S2000x128_S2000x128_0_0
abbrev rW0 : Rect S128x128 := Rect.unit (s := S128x128) ![0, 0] S128x128.size inb_S128x128_S128x128_0_0

/-- The product block: the features' block times the weights, both rounded to bf16 first, accumulated from zero. -/
def prod0 (x : Vec F S2000x128 .f32) (w : Vec F S128x128 .f32) : Vec F S2000x128 .f32 := k0_pay1 x w

/-- The one store covers the buffer. -/
theorem cover0 (p0 : Vec F S2000x128 .f32) (y : S2000x128.Idx) :
    ∃ pc ∈ ([⟨rX0, p0⟩] : List (View.Piece (Elt F) S2000x128 .f32)), y ∈ pc.1.set :=
  View.cover_of_tiled [⟨rX0, p0⟩] S2000x128.size (by rfl) y

set_option maxHeartbeats 1000000 in
/-- The body on whole staging buffers: the two inputs at x and w, the output at anything; it ends with the inputs
    as they were and the output at the product block. -/
theorem sound_kernel0 (c : Dev nD) (E : Set ℕ) (i : grid0.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod0 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover0 _), View.canon_unit_zero off2_zero]
  unfold prod0
  simp only [View.readAt_eq_ld, View.ld_unit_zero (S := S2000x128) off2_zero, View.ld_unit_zero (S := S128x128) off2_zero]

/-! ## The proof data -/

/-- Region 0's proof data on core c: the arrays as the region finds them; after the body at point t the two
    input buffers at their blocks and the output buffer at the product of the two blocks; the class invariant
    (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = prod0 (blk0 V c 0 t) (blk0 V c 1 t) := by dsimp only [dat0]

theorem held0_0 (c : Dev nD) (t : Fin cfg0.N) (d) : (dat0 V c).before 0 t d = blk0 V c 0 t :=
  held0_0_of V (dat0 V c) (A_eq0 V c 0) (after0_0 V c) t d
theorem held0_1 (c : Dev nD) (t : Fin cfg0.N) (d) : (dat0 V c).before 1 t d = blk0 V c 1 t :=
  held0_1_of V (dat0 V c) (A_eq0 V c 1) (after0_1 V c) t d

/-! ## The body obligation -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the triple above applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1: bias and rectifier, one grid point at a time. At point t the body reads the block of rows
  2000·t … 2000·t+1999 of the aggregated features (window 0) and the 1×128 bias row (window 1, the same block at
  every point), adds the row to every row of the block, takes the maximum with zero and stores the 2000×128
  result over the whole of window 2's buffer. Stated at a parameter V, the contents of the core's buffers when the
  region is entered, and at any float instance F.
-/
import proofs.«420483_j44942537786128_1_alg».proof.Proof.Gen.KernelIdeal.Launch
import proofs.«420483_j44942537786128_1_alg».proof.Proof.Gen.KernelIdeal.Skeleton
import proofs.«420483_j44942537786128_1_alg».proof.Proof.Gen.KernelIdeal.Points
import proofs.«420483_j44942537786128_1_alg».proof.Proof.KI.Reg0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregated-feature window's buffer holds its block at every point: it is fetched at every point. -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The bias window's buffer holds the bias row at every point: fetched once, its index never moves and the
    body leaves it in place. -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## What the body leaves in the result window's buffer -/

abbrev rX1 : Rect S2000x128 := Rect.unit (s := S2000x128) ![0, 0] S2000x128.size inb_S2000x128_S2000x128_0_0
abbrev rB1 : Rect S1x128 := Rect.unit (s := S1x128) ![0, 0] S1x128.size inb_S1x128_S1x128_0_0

/-- The rectified block: the block plus the bias row on every row, then the maximum with zero. -/
def relu1 (x : Vec F S2000x128 .f32) (w : Vec F S1x128 .f32) : Vec F S2000x128 .f32 := k1_pay1 x w

/-- The one store covers the buffer. -/
theorem cover1 (p0 : Vec F S2000x128 .f32) (y : S2000x128.Idx) :
    ∃ pc ∈ ([⟨rX1, p0⟩] : List (View.Piece (Elt F) S2000x128 .f32)), y ∈ pc.1.set :=
  View.cover_of_tiled [⟨rX1, p0⟩] S2000x128.size (by rfl) y

set_option maxHeartbeats 1000000 in
/-- The body on whole staging buffers: the two inputs at x and b, the output at anything; it ends with the inputs
    as they were and the output at the rectified block. -/
theorem sound_kernel1 (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (relu1 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover1 _), View.canon_unit_zero off2_zero]
  unfold relu1
  simp only [View.readAt_eq_ld, View.ld_unit_zero (S := S2000x128) off2_zero, View.ld_unit_zero (S := S1x128) off2_zero]

/-! ## The proof data -/

/-- Region 1's proof data on core c: the arrays as the region finds them; after the body at point t the two
    input buffers at their blocks and the output buffer at the rectified block; the class invariant (the scoped
    rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => relu1 (blk1 V c 0 t) (blk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = relu1 (blk1 V c 0 t) (blk1 V c 1 t) := by dsimp only [dat1]

theorem held1_0 (c : Dev nD) (t : Fin cfg1.N) (d) : (dat1 V c).before 0 t d = blk1 V c 0 t :=
  held1_0_of V (dat1 V c) (A_eq1 V c 0) (after1_0 V c) t d
theorem held1_1 (c : Dev nD) (t : Fin cfg1.N) (d) : (dat1 V c).before 1 t d = blk1 V c 1 t :=
  held1_1_of V (dat1 V c) (A_eq1 V c 1) (after1_1 V c) t d

/-! ## The body obligation -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so the triple above applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [held1_0, held1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2: the second dense projection, one grid point at a time. At point t the body reads the block of rows
  2000·t … 2000·t+1999 of the hidden features (window 0) and the whole 128×64 weight matrix (window 1, the same
  block at every point), multiplies them on the matrix unit into a zero accumulator and stores the 2000×64
  product over the whole of window 2's buffer. Stated at a parameter V, the contents of the core's buffers when
  the region is entered, and at any float instance F.
-/
import proofs.«420483_j44942537786128_1_alg».proof.Proof.Gen.KernelIdeal.Launch
import proofs.«420483_j44942537786128_1_alg».proof.Proof.Gen.KernelIdeal.Skeleton
import proofs.«420483_j44942537786128_1_alg».proof.Proof.Gen.KernelIdeal.Points
import proofs.«420483_j44942537786128_1_alg».proof.Proof.KI.Reg0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The hidden-feature window's buffer holds its block at every point: it is fetched at every point. -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The weight window's buffer holds the whole matrix at every point: fetched once, its index never moves and the
    body leaves it in place. -/
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-! ## What the body leaves in the product window's buffer -/

abbrev rX2 : Rect S2000x128 := Rect.unit (s := S2000x128) ![0, 0] S2000x128.size inb_S2000x128_S2000x128_0_0
abbrev rO2 : Rect S2000x64 := Rect.unit (s := S2000x64) ![0, 0] S2000x64.size inb_S2000x64_S2000x64_0_0
abbrev rW2 : Rect S128x64 := Rect.unit (s := S128x64) ![0, 0] S128x64.size inb_S128x64_S128x64_0_0

/-- The product block: the features' block times the weights, both rounded to bf16 first, accumulated from zero. -/
def prod2 (x : Vec F S2000x128 .f32) (w : Vec F S128x64 .f32) : Vec F S2000x64 .f32 := k2_pay1 x w

/-- The one store covers the buffer. -/
theorem cover2 (p0 : Vec F S2000x64 .f32) (y : S2000x64.Idx) :
    ∃ pc ∈ ([⟨rO2, p0⟩] : List (View.Piece (Elt F) S2000x64 .f32)), y ∈ pc.1.set :=
  View.cover_of_tiled [⟨rO2, p0⟩] S2000x64.size (by rfl) y

set_option maxHeartbeats 1000000 in
/-- The body on whole staging buffers: the two inputs at x and w, the output at anything; it ends with the inputs
    as they were and the output at the product block. -/
theorem sound_kernel2 (c : Dev nD) (E : Set ℕ) (i : grid2.Coords) (arg1 : Memref sig .tc .vmem S2000x128 .f32) (harg1 : arg1.IsWhole) (arg2 : Memref sig .tc .vmem S128x64 .f32) (harg2 : arg2.IsWhole) (arg3 : Memref sig .tc .vmem S2000x64 .f32) (harg3 : arg3.IsWhole)
    (x0 : Vec F S2000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover2 _), View.canon_unit_zero off2_zero]
  unfold prod2
  simp only [View.readAt_eq_ld, View.ld_unit_zero (S := S2000x128) off2_zero, View.ld_unit_zero (S := S128x64) off2_zero]

/-! ## The proof data -/

/-- Region 2's proof data on core c: the arrays as the region finds them; after the body at point t the two
    input buffers at their blocks and the output buffer at the product of the two blocks; the class invariant
    (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => prod2 (blk2 V c 0 t) (blk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = prod2 (blk2 V c 0 t) (blk2 V c 1 t) := by dsimp only [dat2]

theorem held2_0 (c : Dev nD) (t : Fin cfg2.N) (d) : (dat2 V c).before 0 t d = blk2 V c 0 t :=
  held2_0_of V (dat2 V c) (A_eq2 V c 0) (after2_0 V c) t d
theorem held2_1 (c : Dev nD) (t : Fin cfg2.N) (d) : (dat2 V c).before 1 t d = blk2 V c 1 t :=
  held2_1_of V (dat2 V c) (A_eq2 V c 1) (after2_1 V c) t d

/-! ## The body obligation -/

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input buffers hold their blocks, so the triple above applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [held2_0, held2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/-
  Region 3: bias, then the mean over each of the 64 graphs, accumulated over the 50 grid points in two scratch
  buffers the kernel carries from point to point. At point t the body reads the block of rows 2000·t … 2000·t+1999 of
  the aggregated features (window 0), the 1×64 bias row (window 1) and the same rows of the graph ids (window 2). At
  the first point it clears the running sums (64×64) and the running counts (64×1). At every point it forms the
  2000×64 indicator matrix "row r belongs to graph g", adds (indicatorᵀ · (block + bias)) to the sums and
  (indicatorᵀ · ones) to the counts. At the last point it also stores sums / max(counts, 1) over the whole of the
  result window (window 3), which the pipeline writes back there and nowhere else. Stated at a parameter V, the
  contents of the core's buffers when the region is entered, and at any float instance F.
-/
import proofs.«420483_j44942537786128_1_alg».proof.Proof.KI.Reg0
import proofs.«420483_j44942537786128_1_alg».proof.Proof.Gen.KernelIdeal.Launch
import proofs.«420483_j44942537786128_1_alg».proof.Proof.Gen.KernelIdeal.Skeleton
import proofs.«420483_j44942537786128_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The two conditions of the body, decided over the grid -/

/-- "This is the first grid point", as the body computes it from the grid coordinate. -/
abbrev cnd3_first (i : grid3.Coords) : Prop := (Scalar.cmpi .ne (Scalar.extui (Scalar.cmpi .eq (BitVec.ofNat 32 (i 0).val) 0#32)) 0#32) = 1#1
theorem hcnd3_first : ∀ t : Fin cfg3.N, cnd3_first (grid3.coords t) ↔ t.val = 0 :=
  (by decide +kernel : ∀ t : Fin grid3.N, cnd3_first (grid3.coords t) ↔ t.val = 0)
/-- "This is the last grid point", as the body computes it. -/
abbrev cnd3_last (i : grid3.Coords) : Prop := k3_cond2 i = 1#1
theorem hcnd3_last : ∀ t : Fin cfg3.N, cnd3_last (grid3.coords t) ↔ t.val = 49 :=
  (by decide +kernel : ∀ t : Fin grid3.N, cnd3_last (grid3.coords t) ↔ t.val = 49)

/-- The two carried scratch buffers, whole: the running sums and the running counts. -/
abbrev scS : Memref sig .tc .vmem S64x64 .f32 := Memref.whole cc3_scratch0
abbrev scC : Memref sig .tc .vmem S64x1 .f32 := Memref.whole cc3_scratch1

/-- The class invariant with the two scratch buffers split out of the scoped rest. -/
theorem PhiA3_eq (c : Dev nD) :
    (Pipeline.ΦA spec3 c : sProp 𝕄)
      = iprop((((∃ d, owns (c : Thread nD τ) scS fullShare d) ∗ (∃ d, owns (c : Thread nD τ) scC fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA
  rw [Pipeline.scopedRest_split_of_list spec3 c [cc3_scratch0, cc3_scratch1] (by decide) (by decide)]
  simp only [scS, scC, owns_whole]
  rfl

abbrev rA : Rect S2000x64 := Rect.unit (s := S2000x64) ![0, 0] S2000x64.size inb_S2000x64_S2000x64_0_0
abbrev rS : Rect S64x64 := Rect.unit (s := S64x64) ![0, 0] S64x64.size inb_S64x64_S64x64_0_0
abbrev rC : Rect S64x1 := Rect.unit (s := S64x1) ![0, 0] S64x1.size inb_S64x1_S64x1_0_0

/-! ## The body on whole staging buffers, in its three cases -/

theorem coverS (p0 : Vec F S64x64 .f32) (y : S64x64.Idx) :
    ∃ pc ∈ ([⟨rS, p0⟩] : List (View.Piece (Elt F) S64x64 .f32)), y ∈ pc.1.set :=
  View.cover_of_tiled [⟨rS, p0⟩] S64x64.size (by rfl) y
theorem coverS_cons (p0 : Vec F S64x64 .f32) (L : List (View.Piece (Elt F) S64x64 .f32)) (y : S64x64.Idx) :
    ∃ pc ∈ ((⟨rS, p0⟩ : View.Piece (Elt F) S64x64 .f32) :: L), y ∈ pc.1.set := by
  obtain ⟨pc, hpc, hy⟩ := coverS p0 y
  rw [List.mem_singleton] at hpc; subst hpc
  exact ⟨_, List.mem_cons_self, hy⟩
theorem coverC (p0 : Vec F S64x1 .f32) (y : S64x1.Idx) :
    ∃ pc ∈ ([⟨rC, p0⟩] : List (View.Piece (Elt F) S64x1 .f32)), y ∈ pc.1.set :=
  View.cover_of_tiled [⟨rC, p0⟩] S64x1.size (by rfl) y
theorem coverC_cons (p0 : Vec F S64x1 .f32) (L : List (View.Piece (Elt F) S64x1 .f32)) (y : S64x1.Idx) :
    ∃ pc ∈ ((⟨rC, p0⟩ : View.Piece (Elt F) S64x1 .f32) :: L), y ∈ pc.1.set := by
  obtain ⟨pc, hpc, hy⟩ := coverC p0 y
  rw [List.mem_singleton] at hpc; subst hpc
  exact ⟨_, List.mem_cons_self, hy⟩

set_option maxHeartbeats 2000000 in
/-- A middle point: the sums and counts found at s5, s6 are left at s5 + indicatorᵀ·(x0 + x1) and s6 + indicatorᵀ·1;
    the result window's buffer is not touched. -/
theorem sound_kernel3_mid (c : Dev nD) (E : Set ℕ) (i : grid3.Coords) (hf : ¬cnd3_first i) (hl : ¬cnd3_last i)
    (arg1 : Memref sig .tc .vmem S2000x64 .f32) (harg1 : arg1.IsWhole) (arg2 : Memref sig .tc .vmem S1x64 .f32) (harg2 : arg2.IsWhole)
    (arg3 : Memref sig .tc .vmem S2000x1 .i32) (harg3 : arg3.IsWhole) (arg4 : Memref sig .tc .vmem S64x64 .f32) (harg4 : arg4.IsWhole)
    (arg5 : Memref sig .tc .vmem S64x64 .f32) (harg5 : arg5.IsWhole) (arg6 : Memref sig .tc .vmem S64x1 .f32) (harg6 : arg6.IsWhole)
    (x0 : Vec F S2000x64 .f32) (x1 : Vec F S1x64 .f32) (x2 : Vec F S2000x1 .i32) (xo : Vec F S64x64 .f32)
    (s5 : Vec F S64x64 .f32) (s6 : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo ∗ owns (c : Thread nD τ) arg5 fullShare s5 ∗ owns (c : Thread nD τ) arg6 fullShare s6
        ∗ (iprop(owns (c : Thread nD τ) arg1 fullShare x0 ∗ owns (c : Thread nD τ) arg2 fullShare x1 ∗ owns (c : Thread nD τ) arg3 fullShare x2
            ∗ owns (c : Thread nD τ) arg4 fullShare xo ∗ owns (c : Thread nD τ) arg5 fullShare (k3_pay4 x0 x1 x2 s5)
            ∗ owns (c : Thread nD τ) arg6 fullShare (k3_pay5 x2 s6)) -∗ K ⟨⟩))
      ⊢ wp frame (wpE (defs₀ (F := F)) Variants.none c none) E (cc3__pool_kernel i arg1 harg1 arg2 harg2 arg3 harg3 arg4 harg4 arg5 harg5 arg6 harg6) K := by
  simp only [cc3__pool_kernel_eq_skeleton]; unfold cc3__pool_kernel_skel
  unfold owns
  iintro ⟨⟨%f0, %hf0, H0⟩, ⟨%f1, %hf1, H1⟩, ⟨%f2, %hf2, H2⟩, ⟨%f4, %hf4, H4⟩, ⟨%f5, %hf5, H5⟩, ⟨%f6, %hf6, H6⟩, Hk⟩
  subst hf0 hf1 hf2 hf4 hf5 hf6
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists f4; isplitr; · ipureintro; rfl
    iexact H4
  isplitl [H5]
  · iexists _; isplitr
    swap; · iexact H5
    ipureintro
    rw [View.read_writes_eq_canon _ _ _ (coverS _), View.canon_unit_zero off2_zero]
    simp only [View.readAt_eq_ld, View.ld_unit_zero (S := S2000x64) off2_zero, View.ld_unit_zero (S := S1x64) off2_zero,
      View.ld_unit_zero (S := S2000x1) off2_zero, View.ld_unit_zero (S := S64x64) off2_zero, View.ld_unit_zero (S := S64x1) off2_zero]
  iexists _; isplitr
  swap; · iexact H6
  ipureintro
  rw [View.read_writes_eq_canon _ _ _ (coverC _), View.canon_unit_zero off2_zero]
  simp only [View.readAt_eq_ld, View.ld_unit_zero (S := S2000x64) off2_zero, View.ld_unit_zero (S := S1x64) off2_zero,
      View.ld_unit_zero (S := S2000x1) off2_zero, View.ld_unit_zero (S := S64x64) off2_zero, View.ld_unit_zero (S := S64x1) off2_zero]

set_option maxHeartbeats 2000000 in
/-- The first point: whatever the scratch buffers held, they are cleared first, so they are left at the first
    block's contribution over zero; the result window's buffer is not touched. -/
theorem sound_kernel3_first (c : Dev nD) (E : Set ℕ) (i : grid3.Coords) (hf : cnd3_first i) (hl : ¬cnd3_last i)
    (arg1 : Memref sig .tc .vmem S2000x64 .f32) (harg1 : arg1.IsWhole) (arg2 : Memref sig .tc .vmem S1x64 .f32) (harg2 : arg2.IsWhole)
    (arg3 : Memref sig .tc .vmem S2000x1 .i32) (harg3 : arg3.IsWhole) (arg4 : Memref sig .tc .vmem S64x64 .f32) (harg4 : arg4.IsWhole)
    (arg5 : Memref sig .tc .vmem S64x64 .f32) (harg5 : arg5.IsWhole) (arg6 : Memref sig .tc .vmem S64x1 .f32) (harg6 : arg6.IsWhole)
    (x0 : Vec F S2000x64 .f32) (x1 : Vec F S1x64 .f32) (x2 : Vec F S2000x1 .i32) (xo : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xo ∗ owns (c : Thread nD τ) arg5 fullShare (k3_pay4 x0 x1 x2 k3_pay1)
            ∗ owns (c : Thread nD τ) arg6 fullShare (k3_pay5 x2 k3_pay2)) -∗ K ⟨⟩))
      ⊢ wp frame (wpE (defs₀ (F := F)) Variants.none c none) E (cc3__pool_kernel i arg1 harg1 arg2 harg2 arg3 harg3 arg4 harg4 arg5 harg5 arg6 harg6) K := by
  simp only [cc3__pool_kernel_eq_skeleton]; unfold cc3__pool_kernel_skel
  unfold owns
  iintro ⟨⟨%f0, %hf0, H0⟩, ⟨%f1, %hf1, H1⟩, ⟨%f2, %hf2, H2⟩, ⟨%f4, %hf4, H4⟩, ⟨%d5, %f5, -, H5⟩, ⟨%d6, %f6, -, H6⟩, Hk⟩
  subst hf0 hf1 hf2 hf4
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists f4; isplitr; · ipureintro; rfl
    iexact H4
  isplitl [H5]
  · iexists _; isplitr
    swap; · iexact H5
    ipureintro
    sl_unfold_words
    rw [View.read_writes_eq_canon _ _ _ (coverS_cons _ _), View.canon_cons_unit_zero off2_zero]
    simp only [View.readAt_eq_ld, View.ld_unit_zero (S := S2000x64) off2_zero, View.ld_unit_zero (S := S1x64) off2_zero,
      View.ld_unit_zero (S := S2000x1) off2_zero, View.ld_unit_zero (S := S64x64) off2_zero, View.ld_unit_zero (S := S64x1) off2_zero, View.readCov_unit_zero (S := S64x64) _ off2_zero]
  iexists _; isplitr
  swap; · iexact H6
  ipureintro
  sl_unfold_words
  rw [View.read_writes_eq_canon _ _ _ (coverC_cons _ _), View.canon_cons_unit_zero off2_zero]
  simp only [View.readAt_eq_ld, View.ld_unit_zero (S := S2000x64) off2_zero, View.ld_unit_zero (S := S1x64) off2_zero,
      View.ld_unit_zero (S := S2000x1) off2_zero, View.ld_unit_zero (S := S64x64) off2_zero, View.ld_unit_zero (S := S64x1) off2_zero, View.readCov_unit_zero (S := S64x1) _ off2_zero]

set_option maxHeartbeats 2000000 in
/-- The last point: the sums and counts are updated as at a middle point, and the result window's buffer is left at
    the updated sums divided by max(updated counts, 1). -/
theorem sound_kernel3_last (c : Dev nD) (E : Set ℕ) (i : grid3.Coords) (hf : ¬cnd3_first i) (hl : cnd3_last i)
    (arg1 : Memref sig .tc .vmem S2000x64 .f32) (harg1 : arg1.IsWhole) (arg2 : Memref sig .tc .vmem S1x64 .f32) (harg2 : arg2.IsWhole)
    (arg3 : Memref sig .tc .vmem S2000x1 .i32) (harg3 : arg3.IsWhole) (arg4 : Memref sig .tc .vmem S64x64 .f32) (harg4 : arg4.IsWhole)
    (arg5 : Memref sig .tc .vmem S64x64 .f32) (harg5 : arg5.IsWhole) (arg6 : Memref sig .tc .vmem S64x1 .f32) (harg6 : arg6.IsWhole)
    (x0 : Vec F S2000x64 .f32) (x1 : Vec F S1x64 .f32) (x2 : Vec F S2000x1 .i32)
    (s5 : Vec F S64x64 .f32) (s6 : Vec F S64x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare s5 ∗ owns (c : Thread nD τ) arg6 fullShare s6
        ∗ (iprop(owns (c : Thread nD τ) arg1 fullShare x0 ∗ owns (c : Thread nD τ) arg2 fullShare x1 ∗ owns (c : Thread nD τ) arg3 fullShare x2
            ∗ owns (c : Thread nD τ) arg4 fullShare (k3_pay6 (k3_pay4 x0 x1 x2 s5) (k3_pay5 x2 s6))
            ∗ owns (c : Thread nD τ) arg5 fullShare (k3_pay4 x0 x1 x2 s5)
            ∗ owns (c : Thread nD τ) arg6 fullShare (k3_pay5 x2 s6)) -∗ K ⟨⟩))
      ⊢ wp frame (wpE (defs₀ (F := F)) Variants.none c none) E (cc3__pool_kernel i arg1 harg1 arg2 harg2 arg3 harg3 arg4 harg4 arg5 harg5 arg6 harg6) K := by
  simp only [cc3__pool_kernel_eq_skeleton]; unfold cc3__pool_kernel_skel
  unfold owns
  iintro ⟨⟨%f0, %hf0, H0⟩, ⟨%f1, %hf1, H1⟩, ⟨%f2, %hf2, H2⟩, ⟨%d4, %f4, -, H4⟩, ⟨%f5, %hf5, H5⟩, ⟨%f6, %hf6, H6⟩, Hk⟩
  subst hf0 hf1 hf2 hf5 hf6
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    sl_unfold_words
    rw [View.read_writes_eq_canon _ _ _ (coverS _), View.canon_unit_zero off2_zero]
    simp only [View.readAt_eq_ld, View.ld_unit_zero (S := S2000x64) off2_zero, View.ld_unit_zero (S := S1x64) off2_zero,
      View.ld_unit_zero (S := S2000x1) off2_zero, View.ld_unit_zero (S := S64x64) off2_zero, View.ld_unit_zero (S := S64x1) off2_zero, View.readCov_unit_zero (S := S64x64) _ off2_zero, View.readCov_unit_zero (S := S64x1) _ off2_zero]
  isplitl [H5]
  · iexists _; isplitr
    swap; · iexact H5
    ipureintro
    sl_unfold_words
    rw [View.read_writes_eq_canon _ _ _ (coverS _), View.canon_unit_zero off2_zero]
    simp only [View.readAt_eq_ld, View.ld_unit_zero (S := S2000x64) off2_zero, View.ld_unit_zero (S := S1x64) off2_zero,
      View.ld_unit_zero (S := S2000x1) off2_zero, View.ld_unit_zero (S := S64x64) off2_zero, View.ld_unit_zero (S := S64x1) off2_zero]
  iexists _; isplitr
  swap; · iexact H6
  ipureintro
  sl_unfold_words
  rw [View.read_writes_eq_canon _ _ _ (coverC _), View.canon_unit_zero off2_zero]
  simp only [View.readAt_eq_ld, View.ld_unit_zero (S := S2000x64) off2_zero, View.ld_unit_zero (S := S1x64) off2_zero,
      View.ld_unit_zero (S := S2000x1) off2_zero, View.ld_unit_zero (S := S64x64) off2_zero, View.ld_unit_zero (S := S64x1) off2_zero]

variable (V : (c : Dev nD) → (b : Ref sig .tc) → Buf (Elt F) ((c : Thread nD τ).loc b))

/-! ## The windows' blocks -/

/-- Window w's block at point t, read off its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's buffer holds its block at every point (fetched there, or fetched once and left in place). -/
theorem held3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)
theorem held3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)
theorem held3_2_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-! ## The running sums and counts after each point -/

/-- The running sums after point n: the first point's contribution over zero, then one block's contribution more per point. -/
def accS (c : Dev nD) : (n : ℕ) → n < cfg3.N → Vec F S64x64 .f32
  | 0, h => k3_pay4 (blk3 V c 0 ⟨0, h⟩) (blk3 V c 1 ⟨0, h⟩) (blk3 V c 2 ⟨0, h⟩) k3_pay1
  | n + 1, h => k3_pay4 (blk3 V c 0 ⟨n + 1, h⟩) (blk3 V c 1 ⟨n + 1, h⟩) (blk3 V c 2 ⟨n + 1, h⟩) (accS c n (Nat.lt_of_succ_lt h))

/-- The running counts after point n. -/
def accC (c : Dev nD) : (n : ℕ) → n < cfg3.N → Vec F S64x1 .f32
  | 0, h => k3_pay5 (blk3 V c 2 ⟨0, h⟩) k3_pay2
  | n + 1, h => k3_pay5 (blk3 V c 2 ⟨n + 1, h⟩) (accC c n (Nat.lt_of_succ_lt h))

theorem accS_first (c : Dev nD) (t : Fin cfg3.N) (h : t.val = 0) :
    accS V c t.val t.isLt = k3_pay4 (blk3 V c 0 t) (blk3 V c 1 t) (blk3 V c 2 t) k3_pay1 := by
  obtain ⟨n, hn⟩ := t
  cases n with
  | zero => rfl
  | succ n => exact absurd h (Nat.succ_ne_zero n)
theorem accS_later (c : Dev nD) (t : Fin cfg3.N) (h : t.val ≠ 0) :
    accS V c t.val t.isLt = k3_pay4 (blk3 V c 0 t) (blk3 V c 1 t) (blk3 V c 2 t) (accS V c (t.val - 1) (Nat.lt_of_le_of_lt (Nat.sub_le _ _) t.isLt)) := by
  obtain ⟨n, hn⟩ := t
  cases n with
  | zero => exact absurd rfl h
  | succ n => rfl
theorem accC_first (c : Dev nD) (t : Fin cfg3.N) (h : t.val = 0) :
    accC V c t.val t.isLt = k3_pay5 (blk3 V c 2 t) k3_pay2 := by
  obtain ⟨n, hn⟩ := t
  cases n with
  | zero => rfl
  | succ n => exact absurd h (Nat.succ_ne_zero n)
theorem accC_later (c : Dev nD) (t : Fin cfg3.N) (h : t.val ≠ 0) :
    accC V c t.val t.isLt = k3_pay5 (blk3 V c 2 t) (accC V c (t.val - 1) (Nat.lt_of_le_of_lt (Nat.sub_le _ _) t.isLt)) := by
  obtain ⟨n, hn⟩ := t
  cases n with
  | zero => exact absurd rfl h
  | succ n => rfl

/-! ## The invariant and the proof data -/

/-- The region's invariant before position n: before the first point the class invariant (the scratch at anything);
    afterwards the two scratch buffers at the running sums and counts the point before left, the rest of the scoped
    buffers at anything and the generator register at some state. -/
def Phi3 (c : Dev nD) : (n : ℕ) → n ≤ cfg3.N → sProp 𝕄
  | 0, _ => Pipeline.ΦA spec3 c
  | n + 1, hn => iprop(((owns (c : Thread nD τ) scS fullShare (accS V c n hn) ∗ owns (c : Thread nD τ) scC fullShare (accC V c n hn))
      ∗ Pipeline.scopedRestBut (Ix := Unit) (Name := ℕ) (U := UR sig nD τ) (Lvl := ℕ) (Val := Elt F) spec3 c [cc3_scratch0, cc3_scratch1]) ∗ (∃ r, prngReg c r))

theorem Phi3_zero (c : Dev nD) (n : ℕ) (h : n ≤ cfg3.N) (hz : n = 0) : Phi3 V c n h = Pipeline.ΦA spec3 c := by
  subst hz; rfl
theorem Phi3_succ (c : Dev nD) (n : ℕ) (hn : n < cfg3.N) :
    Phi3 V c (n + 1) hn = iprop(((owns (c : Thread nD τ) scS fullShare (accS V c n hn) ∗ owns (c : Thread nD τ) scC fullShare (accC V c n hn))
      ∗ Pipeline.scopedRestBut (Ix := Unit) (Name := ℕ) (U := UR sig nD τ) (Lvl := ℕ) (Val := Elt F) spec3 c [cc3_scratch0, cc3_scratch1]) ∗ (∃ r, prngReg c r)) := rfl
theorem Phi3_pos (c : Dev nD) (n : ℕ) (h : n ≤ cfg3.N) (hz : n ≠ 0) :
    Phi3 V c n h = iprop(((owns (c : Thread nD τ) scS fullShare (accS V c (n - 1) (by omega)) ∗ owns (c : Thread nD τ) scC fullShare (accC V c (n - 1) (by omega)))
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-- Region 3's proof data on core c: the arrays as the region finds them; after the body at point t the three input
    buffers at their blocks and the result buffer at (running sums after t) / max(running counts after t, 1) — read
    only at the last point, the one point that stores into it and writes it back; the invariant above; nothing owed;
    full shares. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => k3_pay6 (accS V c t.val t.isLt) (accC V c t.val t.isLt)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem Phi3_castSucc (c : Dev nD) (t : Fin cfg3.N) :
    (dat3 V c).Φ t.castSucc = Phi3 V c t.val (Nat.le_of_lt t.isLt) := by
  dsimp only [dat3]; simp only [Fin.coe_castSucc]
theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]
theorem after3_3 (c : Dev nD) (t : Fin cfg3.N) : (dat3 V c).after 3 t = k3_pay6 (accS V c t.val t.isLt) (accC V c t.val t.isLt) := by dsimp only [dat3]

theorem held3_0 (c : Dev nD) (t : Fin cfg3.N) (d) : (dat3 V c).before 0 t d = blk3 V c 0 t :=
  held3_0_of V (dat3 V c) (A_eq3 V c 0) (after3_0 V c) t d
theorem held3_1 (c : Dev nD) (t : Fin cfg3.N) (d) : (dat3 V c).before 1 t d = blk3 V c 1 t :=
  held3_1_of V (dat3 V c) (A_eq3 V c 1) (after3_1 V c) t d
theorem held3_2 (c : Dev nD) (t : Fin cfg3.N) (d) : (dat3 V c).before 2 t d = blk3 V c 2 t :=
  held3_2_of V (dat3 V c) (A_eq3 V c 2) (after3_2 V c) t d

/-! ## Where the windows are idle -/

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
/-- Away from the last point the result window is idle and not written back. -/
theorem idle3_3 : ∀ t : Fin cfg3.N, ¬cnd3_last (grid3.coords t) → cfg3.idle 3 (grid3.coords t) = true := by decide +kernel
theorem noFlush3_3 : ∀ t : Fin cfg3.N, ¬cnd3_last (grid3.coords t) → (cfg3.win 3).flush t = false := by decide +kernel
/-- At the last point it is live. -/
theorem live3_3 : ∀ t : Fin cfg3.N, cnd3_last (grid3.coords t) → cfg3.idle 3 (grid3.coords t) = false := by decide +kernel

/-! ## The body obligation -/

/-- What the body is called with at point t, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4000000 in
/-- The body at any point, by the three cases: the input buffers hold their blocks; the invariant hands the body the
    scratch at what the point before left (at anything at the first point) and takes it back at this point's running
    sums and counts; the result window's buffer is handed back untouched except at the last point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [held3_0, held3_1, held3_2]
  rw [show (dat3 V c).owesAt () t.succ = (dat3 V c).owesAt () t.castSucc from rfl]
  rw [show (dat3 V c).Φ t.succ = Phi3 V c (t.val + 1) t.isLt from rfl, Phi3_succ]
  rw [show (dat3 V c).leavesExact 0 t = owns (c : Thread nD τ) (st3_0 t) fullShare ((dat3 V c).after 0 t) from by
    unfold Dat.leavesExact; rw [live3_0 t], after3_0]
  rw [show (dat3 V c).leavesExact 1 t = owns (c : Thread nD τ) (st3_1 t) fullShare ((dat3 V c).after 1 t) from by
    unfold Dat.leavesExact; rw [live3_1 t], after3_1]
  rw [show (dat3 V c).leavesExact 2 t = owns (c : Thread nD τ) (st3_2 t) fullShare ((dat3 V c).after 2 t) from by
    unfold Dat.leavesExact; rw [live3_2 t], after3_2]
  have hN : t.val < 50 := lt_of_lt_of_eq t.isLt (show cfg3.N = 50 from N_3)
  by_cases hz : t.val = 0
  · have hf : cnd3_first (grid3.coords t) := (hcnd3_first t).mpr hz
    have hl : ¬cnd3_last (grid3.coords t) := fun h => by have := (hcnd3_last t).mp h; omega
    rw [Dat.leavesExact_idle (dat3 V c) 3 t (idle3_3 t hl) (noFlush3_3 t hl)]
    rw [Phi3_castSucc V c t, Phi3_zero V c _ _ hz, PhiA3_eq, accS_first V c t hz, accC_first V c t hz]
    iintro ⟨⟨⟨⟨HS, HC⟩, HR⟩, Hg⟩, Ho, ⟨%d0, H0⟩, ⟨%d1, H1⟩, ⟨%d2, H2⟩, ⟨%d3, H3⟩⟩
    iapply (sound_kernel3_first c Set.univ (grid3.coords t) hf hl _ _ _ _ _ _ _ _ _ _ _ _ (blk3 V c 0 t) (blk3 V c 1 t) (blk3 V c 2 t) ((dat3 V c).before 3 t d3) _)
    isplitl [H0]; · iexact H0
    isplitl [H1]; · iexact H1
    isplitl [H2]; · iexact H2
    isplitl [H3]; · iexact H3
    isplitl [HS]; · iexact HS
    isplitl [HC]; · iexact HC
    iintro ⟨H0, H1, H2, H3, HS, HC⟩
    isplitl [HS HC HR Hg]
    · isplitl [HS HC HR]
      · isplitl [HS HC]
        · isplitl [HS]; · iexact HS
          iexact HC
        iexact HR
      iexact Hg
    isplitl [Ho]; · iexact Ho
    isplitl [H0]; · iexact H0
    isplitl [H1]; · iexact H1
    isplitl [H2]; · iexact H2
    iexists _; iexact H3
  · have hf : ¬cnd3_first (grid3.coords t) := fun h => hz ((hcnd3_first t).mp h)
    rw [Phi3_castSucc V c t, Phi3_pos V c _ _ hz, accS_later V c t hz, accC_later V c t hz]
    by_cases hl49 : t.val = 49
    · have hl : cnd3_last (grid3.coords t) := (hcnd3_last t).mpr hl49
      rw [show (dat3 V c).leavesExact 3 t = owns (c : Thread nD τ) (st3_3 t) fullShare ((dat3 V c).after 3 t) from by
        unfold Dat.leavesExact; rw [live3_3 t hl], after3_3, accS_later V c t hz, accC_later V c t hz]
      iintro ⟨⟨⟨⟨HS, HC⟩, HR⟩, Hg⟩, Ho, ⟨%d0, H0⟩, ⟨%d1, H1⟩, ⟨%d2, H2⟩, ⟨%d3, H3⟩⟩
      iapply (sound_kernel3_last c Set.univ (grid3.coords t) hf hl _ _ _ _ _ _ _ _ _ _ _ _ (blk3 V c 0 t) (blk3 V c 1 t) (blk3 V c 2 t) _ _ _)
      isplitl [H0]; · iexact H0
      isplitl [H1]; · iexact H1
      isplitl [H2]; · iexact H2
      isplitl [H3]; · iexists _; iexact H3
      isplitl [HS]; · iexact HS
      isplitl [HC]; · iexact HC
      iintro ⟨H0, H1, H2, H3, HS, HC⟩
      isplitl [HS HC HR Hg]
      · isplitl [HS HC HR]
        · isplitl [HS HC]
          · isplitl [HS]; · iexact HS
            iexact HC
          iexact HR
        iexact Hg
      isplitl [Ho]; · iexact Ho
      isplitl [H0]; · iexact H0
      isplitl [H1]; · iexact H1
      isplitl [H2]; · iexact H2
      iexact H3
    · have hl : ¬cnd3_last (grid3.coords t) := fun h => hl49 ((hcnd3_last t).mp h)
      rw [Dat.leavesExact_idle (dat3 V c) 3 t (idle3_3 t hl) (noFlush3_3 t hl)]
      iintro ⟨⟨⟨⟨HS, HC⟩, HR⟩, Hg⟩, Ho, ⟨%d0, H0⟩, ⟨%d1, H1⟩, ⟨%d2, H2⟩, ⟨%d3, H3⟩⟩
      iapply (sound_kernel3_mid c Set.univ (grid3.coords t) hf hl _ _ _ _ _ _ _ _ _ _ _ _ (blk3 V c 0 t) (blk3 V c 1 t) (blk3 V c 2 t) ((dat3 V c).before 3 t d3) _ _ _)
      isplitl [H0]; · iexact H0
      isplitl [H1]; · iexact H1
      isplitl [H2]; · iexact H2
      isplitl [H3]; · iexact H3
      isplitl [HS]; · iexact HS
      isplitl [HC]; · iexact HC
      iintro ⟨H0, H1, H2, H3, HS, HC⟩
      isplitl [HS HC HR Hg]
      · isplitl [HS HC HR]
        · isplitl [HS HC]
          · isplitl [HS]; · iexact HS
            iexact HC
          iexact HR
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : Pipeline.ΦA spec3 c ⊢ (dat3 V c).Φ 0 := by
  rw [show (dat3 V c).Φ 0 = Phi3 V c 0 (Nat.zero_le _) from rfl, Phi3_zero V c 0 _ rfl]
  try exact Idealize.SL.BI.Entails.refl _

/-- After the last point the invariant gives the class invariant back: the scratch contents are forgotten. -/
theorem hout3 (c : Dev nD) : (dat3 V c).Φ (Fin.last cfg3.N) ⊢ Pipeline.ΦA spec3 c := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 50 := N_3; omega), PhiA3_eq]
  iintro ⟨⟨⟨HS, HC⟩, HR⟩, Hg⟩
  isplitl [HS HC HR]
  · isplitl [HS HC]
    · isplitl [HS]
      · iexists _; iexact HS
      iexists _; iexact HC
    iexact HR
  iexact Hg

end Cert.KernelIdeal.Hand

end
-- ==== Proof.KI.Run.lean ====
/-
  The whole run of the program: eleven items in order — a stretch of host operations, the first projection, three
  stretches (the first aggregation), the rectifier, the second projection, three stretches (the second aggregation),
  the pooling — each entered from what the item before left. B0 … B11 name the contents of the core's unscoped buffers
  at the twelve boundaries: a host stretch applies its operations; a region leaves its arrays at what its write-backs
  fold to and every other buffer as entered. The run ends with every unscoped buffer at B11; the seven arguments are
  then read back to their launch contents, and the result array is what the last region's write-back left.
-/
import proofs.«420483_j44942537786128_1_alg».proof.Proof.KI.Reg0
import proofs.«420483_j44942537786128_1_alg».proof.Proof.KI.Reg1
import proofs.«420483_j44942537786128_1_alg».proof.Proof.KI.Reg2
import proofs.«420483_j44942537786128_1_alg».proof.Proof.KI.Reg3
import proofs.«420483_j44942537786128_1_alg».proof.Proof.Gen.KernelIdeal.Regions
import proofs.«420483_j44942537786128_1_alg».proof.Proof.Gen.KernelIdeal.Launch
import proofs.«420483_j44942537786128_1_alg».proof.Proof.Gen.KernelIdeal.Skeleton
import proofs.«420483_j44942537786128_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev B0 : Dev nD → Valuation τ sig (Elt F) := fun c b => (s₀ m ρ).mem ((c : Dev nD), b)
/-- After the host stretch `hostOps0`. -/
abbrev B1 : Dev nD → Valuation τ sig (Elt F) := fun c => StableHlo.after hostOps0 (B0 m ρ c)
abbrev V1 : (c : Dev nD) → (b : Ref sig .tc) → Buf (Elt F) ((c : Thread nD τ).loc b) := fun c b => B1 m ρ c b
/-- At region 0's exit: its arrays at what its write-backs leave, every other buffer as entered. -/
def B2 (c : Dev nD) : Valuation τ sig (Elt F) :=
  Pipeline.withArrays spec0 c (B1 m ρ c) fun w => (dat0 (V1 m ρ) c).arrAt w cfg0.N
theorem B2_arr (c : Dev nD) (w : Fin cfg0.W) :
    B2 m ρ c (Proc.devRef .tc (Pipeline.arrRef spec0 w)) = (dat0 (V1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev V2 : (c : Dev nD) → (b : Ref sig .tc) → Buf (Elt F) ((c : Thread nD τ).loc b) := fun c b => B2 m ρ c b
theorem hF0 (c : Dev nD) (w : Fin cfg0.W) : (dat0 (V1 m ρ) c).arrAt w cfg0.N = V2 m ρ c (Pipeline.arrRef spec0 w) :=
  (B2_arr m ρ c w).symm
theorem hrest0 (c : Dev nD) : ∀ b, b ∉ Finset.univ.image (Pipeline.arrRef spec0) → V2 m ρ c b = V1 m ρ c b :=
  fun b hb => B2_of_ne m ρ c b fun w e => hb (Finset.mem_image.mpr ⟨w, Finset.mem_univ _, e⟩)
/-- After the host stretch `hostOps1`. -/
abbrev B3 : Dev nD → Valuation τ sig (Elt F) := fun c => StableHlo.after hostOps1 (B2 m ρ c)
abbrev V3 : (c : Dev nD) → (b : Ref sig .tc) → Buf (Elt F) ((c : Thread nD τ).loc b) := fun c b => B3 m ρ c b
/-- After the host stretch `hostOps1_1`. -/
abbrev B4 : Dev nD → Valuation τ sig (Elt F) := fun c => StableHlo.after hostOps1_1 (B3 m ρ c)
abbrev V4 : (c : Dev nD) → (b : Ref sig .tc) → Buf (Elt F) ((c : Thread nD τ).loc b) := fun c b => B4 m ρ c b
/-- After the host stretch `hostOps1_2`. -/
abbrev B5 : Dev nD → Valuation τ sig (Elt F) := fun c => StableHlo.after hostOps1_2 (B4 m ρ c)
abbrev V5 : (c : Dev nD) → (b : Ref sig .tc) → Buf (Elt F) ((c : Thread nD τ).loc b) := fun c b => B5 m ρ c b
/-- At region 1's exit: its arrays at what its write-backs leave, every other buffer as entered. -/
def B6 (c : Dev nD) : Valuation τ sig (Elt F) :=
  Pipeline.withArrays spec1 c (B5 m ρ c) fun w => (dat1 (V5 m ρ) c).arrAt w cfg1.N
theorem B6_arr (c : Dev nD) (w : Fin cfg1.W) :
    B6 m ρ c (Proc.devRef .tc (Pipeline.arrRef spec1 w)) = (dat1 (V5 m ρ) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m ρ c (Proc.devRef .tc b) = B5 m ρ c (Proc.devRef .tc b) := by
  unfold B6; exact Pipeline.withArrays_of_ne spec1 c _ _ b hb
abbrev V6 : (c : Dev nD) → (b : Ref sig .tc) → Buf (Elt F) ((c : Thread nD τ).loc b) := fun c b => B6 m ρ c b
theorem hF1 (c : Dev nD) (w : Fin cfg1.W) : (dat1 (V5 m ρ) c).arrAt w cfg1.N = V6 m ρ c (Pipeline.arrRef spec1 w) :=
  (B6_arr m ρ c w).symm
theorem hrest1 (c : Dev nD) : ∀ b, b ∉ Finset.univ.image (Pipeline.arrRef spec1) → V6 m ρ c b = V5 m ρ c b :=
  fun b hb => B6_of_ne m ρ c b fun w e => hb (Finset.mem_image.mpr ⟨w, Finset.mem_univ _, e⟩)
/-- At region 2's exit: its arrays at what its write-backs leave, every other buffer as entered. -/
def B7 (c : Dev nD) : Valuation τ sig (Elt F) :=
  Pipeline.withArrays spec2 c (B6 m ρ c) fun w => (dat2 (V6 m ρ) c).arrAt w cfg2.N
theorem B7_arr (c : Dev nD) (w : Fin cfg2.W) :
    B7 m ρ c (Proc.devRef .tc (Pipeline.arrRef spec2 w)) = (dat2 (V6 m ρ) c).arrAt w cfg2.N := by
  unfold B7; exact Pipeline.withArrays_arr spec2 launch2.win.arr_inj c _ _ w
theorem B7_of_ne (c : Dev nD) (b : Ref sig .tc) (hb : ∀ w, Pipeline.arrRef spec2 w ≠ b) :
    B7 m ρ c (Proc.devRef .tc b) = B6 m ρ c (Proc.devRef .tc b) := by
  unfold B7; exact Pipeline.withArrays_of_ne spec2 c _ _ b hb
abbrev V7 : (c : Dev nD) → (b : Ref sig .tc) → Buf (Elt F) ((c : Thread nD τ).loc b) := fun c b => B7 m ρ c b
theorem hF2 (c : Dev nD) (w : Fin cfg2.W) : (dat2 (V6 m ρ) c).arrAt w cfg2.N = V7 m ρ c (Pipeline.arrRef spec2 w) :=
  (B7_arr m ρ c w).symm
theorem hrest2 (c : Dev nD) : ∀ b, b ∉ Finset.univ.image (Pipeline.arrRef spec2) → V7 m ρ c b = V6 m ρ c b :=
  fun b hb => B7_of_ne m ρ c b fun w e => hb (Finset.mem_image.mpr ⟨w, Finset.mem_univ _, e⟩)
/-- After the host stretch `hostOps3`. -/
abbrev B8 : Dev nD → Valuation τ sig (Elt F) := fun c => StableHlo.after hostOps3 (B7 m ρ c)
abbrev V8 : (c : Dev nD) → (b : Ref sig .tc) → Buf (Elt F) ((c : Thread nD τ).loc b) := fun c b => B8 m ρ c b
/-- After the host stretch `hostOps3_1`. -/
abbrev B9 : Dev nD → Valuation τ sig (Elt F) := fun c => StableHlo.after hostOps3_1 (B8 m ρ c)
abbrev V9 : (c : Dev nD) → (b : Ref sig .tc) → Buf (Elt F) ((c : Thread nD τ).loc b) := fun c b => B9 m ρ c b
/-- After the host stretch `hostOps3_2`. -/
abbrev B10 : Dev nD → Valuation τ sig (Elt F) := fun c => StableHlo.after hostOps3_2 (B9 m ρ c)
abbrev V10 : (c : Dev nD) → (b : Ref sig .tc) → Buf (Elt F) ((c : Thread nD τ).loc b) := fun c b => B10 m ρ c b
/-- At region 3's exit: its arrays at what its write-backs leave, every other buffer as entered. -/
def B11 (c : Dev nD) : Valuation τ sig (Elt F) :=
  Pipeline.withArrays spec3 c (B10 m ρ c) fun w => (dat3 (V10 m ρ) c).arrAt w cfg3.N
theorem B11_arr (c : Dev nD) (w : Fin cfg3.W) :
    B11 m ρ c (Proc.devRef .tc (Pipeline.arrRef spec3 w)) = (dat3 (V10 m ρ) c).arrAt w cfg3.N := by
  unfold B11; exact Pipeline.withArrays_arr spec3 launch3.win.arr_inj c _ _ w
theorem B11_of_ne (c : Dev nD) (b : Ref sig .tc) (hb : ∀ w, Pipeline.arrRef spec3 w ≠ b) :
    B11 m ρ c (Proc.devRef .tc b) = B10 m ρ c (Proc.devRef .tc b) := by
  unfold B11; exact Pipeline.withArrays_of_ne spec3 c _ _ b hb
abbrev V11 : (c : Dev nD) → (b : Ref sig .tc) → Buf (Elt F) ((c : Thread nD τ).loc b) := fun c b => B11 m ρ c b
theorem hF3 (c : Dev nD) (w : Fin cfg3.W) : (dat3 (V10 m ρ) c).arrAt w cfg3.N = V11 m ρ c (Pipeline.arrRef spec3 w) :=
  (B11_arr m ρ c w).symm
theorem hrest3 (c : Dev nD) : ∀ b, b ∉ Finset.univ.image (Pipeline.arrRef spec3) → V11 m ρ c b = V10 m ρ c b :=
  fun b hb => B11_of_ne m ρ c b fun w e => hb (Finset.mem_image.mpr ⟨w, Finset.mem_univ _, e⟩)

/-! ## The arguments end as launched -/

theorem B11_main_arg0 (c : Dev nD) : B11 m ρ c (Proc.devRef .tc main_arg0) = m ((c : Thread nD τ).loc main_arg0) :=
  calc B11 m ρ c (Proc.devRef .tc main_arg0)
    _ = B10 m ρ c (Proc.devRef .tc main_arg0) := B11_of_ne m ρ c main_arg0 (by decide)
    _ = B9 m ρ c (Proc.devRef .tc main_arg0) := StableHlo.after_of_writes_sub hostOps3_2 _ hostOps3_2_writes (by decide : main_arg0 ∉ hostOps3_2_W)
    _ = B8 m ρ c (Proc.devRef .tc main_arg0) := StableHlo.after_of_writes_sub hostOps3_1 _ hostOps3_1_writes (by decide : main_arg0 ∉ hostOps3_1_W)
    _ = B7 m ρ c (Proc.devRef .tc main_arg0) := StableHlo.after_of_writes_sub hostOps3 _ hostOps3_writes (by decide : main_arg0 ∉ hostOps3_W)
    _ = B6 m ρ c (Proc.devRef .tc main_arg0) := B7_of_ne m ρ c main_arg0 (by decide)
    _ = B5 m ρ c (Proc.devRef .tc main_arg0) := B6_of_ne m ρ c main_arg0 (by decide)
    _ = B4 m ρ c (Proc.devRef .tc main_arg0) := StableHlo.after_of_writes_sub hostOps1_2 _ hostOps1_2_writes (by decide : main_arg0 ∉ hostOps1_2_W)
    _ = B3 m ρ c (Proc.devRef .tc main_arg0) := StableHlo.after_of_writes_sub hostOps1_1 _ hostOps1_1_writes (by decide : main_arg0 ∉ hostOps1_1_W)
    _ = B2 m ρ c (Proc.devRef .tc main_arg0) := StableHlo.after_of_writes_sub hostOps1 _ hostOps1_writes (by decide : main_arg0 ∉ hostOps1_W)
    _ = B1 m ρ c (Proc.devRef .tc main_arg0) := (B2_arr m ρ c 0).trans (((dat0 (V1 m ρ) c).arrAt_in 0 rfl _).trans (A_eq0 (V1 m ρ) c 0))
    _ = B0 m ρ c (Proc.devRef .tc main_arg0) := StableHlo.after_of_writes_sub hostOps0 _ hostOps0_writes (by decide : main_arg0 ∉ hostOps0_W)
    _ = m ((c : Thread nD τ).loc main_arg0) := rfl
theorem B11_main_arg1 (c : Dev nD) : B11 m ρ c (Proc.devRef .tc main_arg1) = m ((c : Thread nD τ).loc main_arg1) :=
  calc B11 m ρ c (Proc.devRef .tc main_arg1)
    _ = B10 m ρ c (Proc.devRef .tc main_arg1) := B11_of_ne m ρ c main_arg1 (by decide)
    _ = B9 m ρ c (Proc.devRef .tc main_arg1) := StableHlo.after_of_writes_sub hostOps3_2 _ hostOps3_2_writes (by decide : main_arg1 ∉ hostOps3_2_W)
    _ = B8 m ρ c (Proc.devRef .tc main_arg1) := StableHlo.after_of_writes_sub hostOps3_1 _ hostOps3_1_writes (by decide : main_arg1 ∉ hostOps3_1_W)
    _ = B7 m ρ c (Proc.devRef .tc main_arg1) := StableHlo.after_of_writes_sub hostOps3 _ hostOps3_writes (by decide : main_arg1 ∉ hostOps3_W)
    _ = B6 m ρ c (Proc.devRef .tc main_arg1) := B7_of_ne m ρ c main_arg1 (by decide)
    _ = B5 m ρ c (Proc.devRef .tc main_arg1) := B6_of_ne m ρ c main_arg1 (by decide)
    _ = B4 m ρ c (Proc.devRef .tc main_arg1) := StableHlo.after_of_writes_sub hostOps1_2 _ hostOps1_2_writes (by decide : main_arg1 ∉ hostOps1_2_W)
    _ = B3 m ρ c (Proc.devRef .tc main_arg1) := StableHlo.after_of_writes_sub hostOps1_1 _ hostOps1_1_writes (by decide : main_arg1 ∉ hostOps1_1_W)
    _ = B2 m ρ c (Proc.devRef .tc main_arg1) := StableHlo.after_of_writes_sub hostOps1 _ hostOps1_writes (by decide : main_arg1 ∉ hostOps1_W)
    _ = B1 m ρ c (Proc.devRef .tc main_arg1) := B2_of_ne m ρ c main_arg1 (by decide)
    _ = B0 m ρ c (Proc.devRef .tc main_arg1) := StableHlo.after_of_writes_sub hostOps0 _ hostOps0_writes (by decide : main_arg1 ∉ hostOps0_W)
    _ = m ((c : Thread nD τ).loc main_arg1) := rfl
theorem B11_main_arg2 (c : Dev nD) : B11 m ρ c (Proc.devRef .tc main_arg2) = m ((c : Thread nD τ).loc main_arg2) :=
  calc B11 m ρ c (Proc.devRef .tc main_arg2)
    _ = B10 m ρ c (Proc.devRef .tc main_arg2) := B11_of_ne m ρ c main_arg2 (by decide)
    _ = B9 m ρ c (Proc.devRef .tc main_arg2) := StableHlo.after_of_writes_sub hostOps3_2 _ hostOps3_2_writes (by decide : main_arg2 ∉ hostOps3_2_W)
    _ = B8 m ρ c (Proc.devRef .tc main_arg2) := StableHlo.after_of_writes_sub hostOps3_1 _ hostOps3_1_writes (by decide : main_arg2 ∉ hostOps3_1_W)
    _ = B7 m ρ c (Proc.devRef .tc main_arg2) := StableHlo.after_of_writes_sub hostOps3 _ hostOps3_writes (by decide : main_arg2 ∉ hostOps3_W)
    _ = B6 m ρ c (Proc.devRef .tc main_arg2) := B7_of_ne m ρ c main_arg2 (by decide)
    _ = B5 m ρ c (Proc.devRef .tc main_arg2) := B6_of_ne m ρ c main_arg2 (by decide)
    _ = B4 m ρ c (Proc.devRef .tc main_arg2) := StableHlo.after_of_writes_sub hostOps1_2 _ hostOps1_2_writes (by decide : main_arg2 ∉ hostOps1_2_W)
    _ = B3 m ρ c (Proc.devRef .tc main_arg2) := StableHlo.after_of_writes_sub hostOps1_1 _ hostOps1_1_writes (by decide : main_arg2 ∉ hostOps1_1_W)
    _ = B2 m ρ c (Proc.devRef .tc main_arg2) := StableHlo.after_of_writes_sub hostOps1 _ hostOps1_writes (by decide : main_arg2 ∉ hostOps1_W)
    _ = B1 m ρ c (Proc.devRef .tc main_arg2) := B2_of_ne m ρ c main_arg2 (by decide)
    _ = B0 m ρ c (Proc.devRef .tc main_arg2) := StableHlo.after_of_writes_sub hostOps0 _ hostOps0_writes (by decide : main_arg2 ∉ hostOps0_W)
    _ = m ((c : Thread nD τ).loc main_arg2) := rfl
theorem B11_main_arg3 (c : Dev nD) : B11 m ρ c (Proc.devRef .tc main_arg3) = m ((c : Thread nD τ).loc main_arg3) :=
  calc B11 m ρ c (Proc.devRef .tc main_arg3)
    _ = B10 m ρ c (Proc.devRef .tc main_arg3) := B11_of_ne m ρ c main_arg3 (by decide)
    _ = B9 m ρ c (Proc.devRef .tc main_arg3) := StableHlo.after_of_writes_sub hostOps3_2 _ hostOps3_2_writes (by decide : main_arg3 ∉ hostOps3_2_W)
    _ = B8 m ρ c (Proc.devRef .tc main_arg3) := StableHlo.after_of_writes_sub hostOps3_1 _ hostOps3_1_writes (by decide : main_arg3 ∉ hostOps3_1_W)
    _ = B7 m ρ c (Proc.devRef .tc main_arg3) := StableHlo.after_of_writes_sub hostOps3 _ hostOps3_writes (by decide : main_arg3 ∉ hostOps3_W)
    _ = B6 m ρ c (Proc.devRef .tc main_arg3) := B7_of_ne m ρ c main_arg3 (by decide)
    _ = B5 m ρ c (Proc.devRef .tc main_arg3) := B6_of_ne m ρ c main_arg3 (by decide)
    _ = B4 m ρ c (Proc.devRef .tc main_arg3) := StableHlo.after_of_writes_sub hostOps1_2 _ hostOps1_2_writes (by decide : main_arg3 ∉ hostOps1_2_W)
    _ = B3 m ρ c (Proc.devRef .tc main_arg3) := StableHlo.after_of_writes_sub hostOps1_1 _ hostOps1_1_writes (by decide : main_arg3 ∉ hostOps1_1_W)
    _ = B2 m ρ c (Proc.devRef .tc main_arg3) := StableHlo.after_of_writes_sub hostOps1 _ hostOps1_writes (by decide : main_arg3 ∉ hostOps1_W)
    _ = B1 m ρ c (Proc.devRef .tc main_arg3) := (B2_arr m ρ c 1).trans (((dat0 (V1 m ρ) c).arrAt_in 1 rfl _).trans (A_eq0 (V1 m ρ) c 1))
    _ = B0 m ρ c (Proc.devRef .tc main_arg3) := StableHlo.after_of_writes_sub hostOps0 _ hostOps0_writes (by decide : main_arg3 ∉ hostOps0_W)
    _ = m ((c : Thread nD τ).loc main_arg3) := rfl
theorem B11_main_arg4 (c : Dev nD) : B11 m ρ c (Proc.devRef .tc main_arg4) = m ((c : Thread nD τ).loc main_arg4) :=
  calc B11 m ρ c (Proc.devRef .tc main_arg4)
    _ = B10 m ρ c (Proc.devRef .tc main_arg4) := B11_of_ne m ρ c main_arg4 (by decide)
    _ = B9 m ρ c (Proc.devRef .tc main_arg4) := StableHlo.after_of_writes_sub hostOps3_2 _ hostOps3_2_writes (by decide : main_arg4 ∉ hostOps3_2_W)
    _ = B8 m ρ c (Proc.devRef .tc main_arg4) := StableHlo.after_of_writes_sub hostOps3_1 _ hostOps3_1_writes (by decide : main_arg4 ∉ hostOps3_1_W)
    _ = B7 m ρ c (Proc.devRef .tc main_arg4) := StableHlo.after_of_writes_sub hostOps3 _ hostOps3_writes (by decide : main_arg4 ∉ hostOps3_W)
    _ = B6 m ρ c (Proc.devRef .tc main_arg4) := B7_of_ne m ρ c main_arg4 (by decide)
    _ = B5 m ρ c (Proc.devRef .tc main_arg4) := B6_of_ne m ρ c main_arg4 (by decide)
    _ = B4 m ρ c (Proc.devRef .tc main_arg4) := StableHlo.after_of_writes_sub hostOps1_2 _ hostOps1_2_writes (by decide : main_arg4 ∉ hostOps1_2_W)
    _ = B3 m ρ c (Proc.devRef .tc main_arg4) := StableHlo.after_of_writes_sub hostOps1_1 _ hostOps1_1_writes (by decide : main_arg4 ∉ hostOps1_1_W)
    _ = B2 m ρ c (Proc.devRef .tc main_arg4) := StableHlo.after_of_writes_sub hostOps1 _ hostOps1_writes (by decide : main_arg4 ∉ hostOps1_W)
    _ = B1 m ρ c (Proc.devRef .tc main_arg4) := B2_of_ne m ρ c main_arg4 (by decide)
    _ = B0 m ρ c (Proc.devRef .tc main_arg4) := StableHlo.after_of_writes_sub hostOps0 _ hostOps0_writes (by decide : main_arg4 ∉ hostOps0_W)
    _ = m ((c : Thread nD τ).loc main_arg4) := rfl
theorem B11_main_arg5 (c : Dev nD) : B11 m ρ c (Proc.devRef .tc main_arg5) = m ((c : Thread nD τ).loc main_arg5) :=
  calc B11 m ρ c (Proc.devRef .tc main_arg5)
    _ = B10 m ρ c (Proc.devRef .tc main_arg5) := B11_of_ne m ρ c main_arg5 (by decide)
    _ = B9 m ρ c (Proc.devRef .tc main_arg5) := StableHlo.after_of_writes_sub hostOps3_2 _ hostOps3_2_writes (by decide : main_arg5 ∉ hostOps3_2_W)
    _ = B8 m ρ c (Proc.devRef .tc main_arg5) := StableHlo.after_of_writes_sub hostOps3_1 _ hostOps3_1_writes (by decide : main_arg5 ∉ hostOps3_1_W)
    _ = B7 m ρ c (Proc.devRef .tc main_arg5) := StableHlo.after_of_writes_sub hostOps3 _ hostOps3_writes (by decide : main_arg5 ∉ hostOps3_W)
    _ = B6 m ρ c (Proc.devRef .tc main_arg5) := (B7_arr m ρ c 1).trans (((dat2 (V6 m ρ) c).arrAt_in 1 rfl _).trans (A_eq2 (V6 m ρ) c 1))
    _ = B5 m ρ c (Proc.devRef .tc main_arg5) := B6_of_ne m ρ c main_arg5 (by decide)
    _ = B4 m ρ c (Proc.devRef .tc main_arg5) := StableHlo.after_of_writes_sub hostOps1_2 _ hostOps1_2_writes (by decide : main_arg5 ∉ hostOps1_2_W)
    _ = B3 m ρ c (Proc.devRef .tc main_arg5) := StableHlo.after_of_writes_sub hostOps1_1 _ hostOps1_1_writes (by decide : main_arg5 ∉ hostOps1_1_W)
    _ = B2 m ρ c (Proc.devRef .tc main_arg5) := StableHlo.after_of_writes_sub hostOps1 _ hostOps1_writes (by decide : main_arg5 ∉ hostOps1_W)
    _ = B1 m ρ c (Proc.devRef .tc main_arg5) := B2_of_ne m ρ c main_arg5 (by decide)
    _ = B0 m ρ c (Proc.devRef .tc main_arg5) := StableHlo.after_of_writes_sub hostOps0 _ hostOps0_writes (by decide : main_arg5 ∉ hostOps0_W)
    _ = m ((c : Thread nD τ).loc main_arg5) := rfl
theorem B11_main_arg6 (c : Dev nD) : B11 m ρ c (Proc.devRef .tc main_arg6) = m ((c : Thread nD τ).loc main_arg6) :=
  calc B11 m ρ c (Proc.devRef .tc main_arg6)
    _ = B10 m ρ c (Proc.devRef .tc main_arg6) := B11_of_ne m ρ c main_arg6 (by decide)
    _ = B9 m ρ c (Proc.devRef .tc main_arg6) := StableHlo.after_of_writes_sub hostOps3_2 _ hostOps3_2_writes (by decide : main_arg6 ∉ hostOps3_2_W)
    _ = B8 m ρ c (Proc.devRef .tc main_arg6) := StableHlo.after_of_writes_sub hostOps3_1 _ hostOps3_1_writes (by decide : main_arg6 ∉ hostOps3_1_W)
    _ = B7 m ρ c (Proc.devRef .tc main_arg6) := StableHlo.after_of_writes_sub hostOps3 _ hostOps3_writes (by decide : main_arg6 ∉ hostOps3_W)
    _ = B6 m ρ c (Proc.devRef .tc main_arg6) := B7_of_ne m ρ c main_arg6 (by decide)
    _ = B5 m ρ c (Proc.devRef .tc main_arg6) := B6_of_ne m ρ c main_arg6 (by decide)
    _ = B4 m ρ c (Proc.devRef .tc main_arg6) := StableHlo.after_of_writes_sub hostOps1_2 _ hostOps1_2_writes (by decide : main_arg6 ∉ hostOps1_2_W)
    _ = B3 m ρ c (Proc.devRef .tc main_arg6) := StableHlo.after_of_writes_sub hostOps1_1 _ hostOps1_1_writes (by decide : main_arg6 ∉ hostOps1_1_W)
    _ = B2 m ρ c (Proc.devRef .tc main_arg6) := StableHlo.after_of_writes_sub hostOps1 _ hostOps1_writes (by decide : main_arg6 ∉ hostOps1_W)
    _ = B1 m ρ c (Proc.devRef .tc main_arg6) := B2_of_ne m ρ c main_arg6 (by decide)
    _ = B0 m ρ c (Proc.devRef .tc main_arg6) := StableHlo.after_of_writes_sub hostOps0 _ hostOps0_writes (by decide : main_arg6 ∉ hostOps0_W)
    _ = m ((c : Thread nD τ).loc main_arg6) := rfl

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
  | ⟨2, _⟩ => fun c => dat2 (V6 m ρ) c
  | ⟨3, _⟩ => fun c => dat3 (V10 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as an item of the run, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the dues: every unscoped buffer at B11, the generator register at some state. -/
abbrev Tₙ (c : Dev nD) : sProp 𝕄 := iprop(StableHlo.held (c : Thread nD τ) (Pipeline.ucRefs τ sig) (B11 m ρ c) ∗ ∃ r, prngReg c r)

/-! ## The regions as items of the run -/

/-- After the last point region 3's invariant gives back the generator register and the scoped rest, the scratch forgotten. -/
theorem hout3_parts (V : (c : Dev nD) → (b : Ref sig .tc) → Buf (Elt F) ((c : Thread nD τ).loc b)) (c : Dev nD) :
    (dat3 V c).Φ (Fin.last cfg3.N) ⊢ (iprop((∃ r, prngReg c r) ∗ BI.emp ∗ Pipeline.scopedRest (Ix := Unit) (Name := ℕ) (U := UR sig nD τ) (Lvl := ℕ) (Val := Elt F) spec3 c) : sProp 𝕄) :=
  (hout3 V c).trans (by
    unfold Pipeline.ΦA
    iintro ⟨Hr, Hp⟩
    isplitl [Hp]; · iexact Hp
    isplitr; · iempintro
    iexact Hr)

set_option backward.isDefEq.respectTransparency.types false in
/-- Region 0 over the thread state: entered with every unscoped buffer at B1, left with them at B2. Its arrays
    are split out of the unscoped buffers at entry and put back at the exit contents; the generator register goes into
    the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at B5, left with them at B6. Its arrays
    are split out of the unscoped buffers at entry and put back at the exit contents; the generator register goes into
    the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at B6, left with them at B7. Its arrays
    are split out of the unscoped buffers at entry and put back at the exit contents; the generator register goes into
    the invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (B6 m ρ c) ∗ R c)
  post c := iprop(StableHlo.held (c : Thread nD τ) (Pipeline.ucRefs τ sig) (B7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at B10, left with them at B11. Its arrays
    are split out of the unscoped buffers at entry and put back at the exit contents; the generator register goes into
    the invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V10 m ρ) c).loose
  hwaits := Pipeline.hwaits_of_owed_zero _ _ _ _ L lv 3 fun _ _ => rfl
  pre c := iprop(StableHlo.held (c : Thread nD τ) (Pipeline.ucRefs τ sig) (B10 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V10 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    exact hout3_parts (V10 m ρ) c
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V10 m ρ c) (V11 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The program's eleven items in order. -/
abbrev segs : List (Pipeline.Seg (pcfgs (F := F)) adm (pdats m ρ) () defs₀ 𝒱₀ L lv) :=
  [
    .host (hseg hostOps0 hostOps0_sub hostOps0_fresh (B0 m ρ)),
    .region (reg0 m ρ),
    .host (hseg hostOps1 hostOps1_sub hostOps1_fresh (B2 m ρ)),
    .host (hseg hostOps1_1 hostOps1_1_sub hostOps1_1_fresh (B3 m ρ)),
    .host (hseg hostOps1_2 hostOps1_2_sub hostOps1_2_fresh (B4 m ρ)),
    .region (reg1 m ρ),
    .region (reg2 m ρ),
    .host (hseg hostOps3 hostOps3_sub hostOps3_fresh (B7 m ρ)),
    .host (hseg hostOps3_1 hostOps3_1_sub hostOps3_1_fresh (B8 m ρ)),
    .host (hseg hostOps3_2 hostOps3_2_sub hostOps3_2_fresh (B9 m ρ)),
    .region (reg3 m ρ) ]

theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state has every unscoped buffer of every core at B11. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = B11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B11 m ρ c b)
    (hfin := fun c s' => by
      iintro ⟨⟨Hh, -⟩, HSI⟩
      unfold StableHlo.held
      imodintro
      iapply (pointsTo_read_all (Pipeline.ucRefs τ sig) (fun b => (((c : Thread nD τ)).1, b)) (B11 m ρ c) s')
      isplitl [Hh] <;> iassumption)
    (hQ := fun s h c => h c)

end Cert.KernelIdeal.Hand

end
-- ==== Proof.RefStages.lean ====
/-
  Three of the reference's stages as functions of their operands (the generated stage functions are functions of
  the program's arguments): the bias-and-rectifier after the first aggregation, the second matrix product, and the
  pooling at the end.
-/
import proofs.«420483_j44942537786128_1_alg».proof.Proof.RefRead

noncomputable section

namespace Cert.ReferenceIdeal.Stages

open Idealize.ShloMosaic Idealize.ShloMosaic.TcCoe
open Cert.ReferenceIdeal Cert.ReferenceIdeal.Gen Cert.ReferenceIdeal.ReadP

variable {F : FTy → Type} [FloatOps F]

/-- max(a + (the 1×128 row b broadcast over the rows), 0). -/
def biasRelu (a : (⟨S100000x128, .f32⟩ : BufTy).Contents (Elt F)) (b : (⟨S1x128, .f32⟩ : BufTy).Contents (Elt F)) :
    (⟨S100000x128, .f32⟩ : BufTy).Contents (Elt F) :=
  maximumf (addf a (broadcastInDim S100000x128 ![0, 1] bcast_S1x128_S100000x128_0_1 b)) (val_main_call1_v0 (F := F))

/-- The second matrix product, h · w. -/
def dot2 (h : (⟨S100000x128, .f32⟩ : BufTy).Contents (Elt F)) (w : (⟨S128x64, .f32⟩ : BufTy).Contents (Elt F)) :
    (⟨S100000x64, .f32⟩ : BufTy).Contents (Elt F) :=
  Host.dotGeneral dot_S100000x128_S128x64_S100000x64_1_0_0_1_n_n none h w

/-- The pooling: the rows of X plus the bias, summed per graph id, over max(the graphs' row counts, 1). -/
def pooled (X : (⟨S100000x64, .f32⟩ : BufTy).Contents (Elt F)) (x2 : (⟨S100000, .i32⟩ : BufTy).Contents (Elt F))
    (x6 : (⟨S64, .f32⟩ : BufTy).Contents (Elt F)) : (⟨S64x64, .f32⟩ : BufTy).Contents (Elt F) :=
  Host.divf
    (Host.scatterAdd scatter_S64x64_S100000x1_S100000x64_1_0_0_1 (val_main_v111 (F := F)) (val_main_v112 (F := F) x2)
      (addf X (val_main_v109 (F := F) x6)))
    (val_main_v121 (F := F) x2)

/-- The reference's rectified hidden features are `biasRelu` of its first aggregation and its bias row. -/
theorem val_main_v57_eq (x0 : (⟨S100000x128, .f32⟩ : BufTy).Contents (Elt F)) (x1 : (⟨S2x1600000, .i32⟩ : BufTy).Contents (Elt F))
    (x3 : (⟨S128x128, .f32⟩ : BufTy).Contents (Elt F)) (x4 : (⟨S128, .f32⟩ : BufTy).Contents (Elt F)) :
    val_main_v57 (F := F) x0 x1 x3 x4 = biasRelu (val_main_v53 (F := F) x0 x1 x3) (val_main_v54 (F := F) x4) := rfl

/-- The reference's second product is `dot2` of its rectified hidden features and the second weights. -/
theorem val_main_v58_eq (x0 : (⟨S100000x128, .f32⟩ : BufTy).Contents (Elt F)) (x1 : (⟨S2x1600000, .i32⟩ : BufTy).Contents (Elt F))
    (x3 : (⟨S128x128, .f32⟩ : BufTy).Contents (Elt F)) (x4 : (⟨S128, .f32⟩ : BufTy).Contents (Elt F)) (x5 : (⟨S128x64, .f32⟩ : BufTy).Contents (Elt F)) :
    val_main_v58 (F := F) x0 x1 x3 x4 x5 = dot2 (val_main_v57 (F := F) x0 x1 x3 x4) x5 := rfl

/-- The reference's result is `pooled` of its second aggregation, the graph ids and the second bias. -/
theorem val_main_v122_eq_pooled (x0 : (⟨S100000x128, .f32⟩ : BufTy).Contents (Elt F)) (x1 : (⟨S2x1600000, .i32⟩ : BufTy).Contents (Elt F))
    (x2 : (⟨S100000, .i32⟩ : BufTy).Contents (Elt F)) (x3 : (⟨S128x128, .f32⟩ : BufTy).Contents (Elt F)) (x4 : (⟨S128, .f32⟩ : BufTy).Contents (Elt F))
    (x5 : (⟨S128x64, .f32⟩ : BufTy).Contents (Elt F)) (x6 : (⟨S64, .f32⟩ : BufTy).Contents (Elt F)) :
    val_main_v122 (F := F) x0 x1 x2 x3 x4 x5 x6 = pooled (val_main_v107 (F := F) x0 x1 x3 x4 x5) x2 x6 := rfl

end Cert.ReferenceIdeal.Stages

end
-- ==== Proof.KI.Host.lean ====
/-
  The host stretches between the regions, read against the reference's stages. The program's aggregation code is
  the reference's own, operation for operation: the edge lists with the self-loops appended, the degrees by a
  scatter-add of ones, their inverse square roots where positive, the normalized gather, the scatter-add of the
  messages. So, given that a region's result array holds the reference's value going in, every buffer a later item
  reads holds the reference's stage coming out — an equality of the same operations applied to equal operands,
  at any float instance F.
-/
import proofs.«420483_j44942537786128_1_alg».proof.Proof.KI.Run
import proofs.«420483_j44942537786128_1_alg».proof.Proof.RefStages
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.StableHlo Idealize.ShloMosaic.ValueIdx
open Idealize.SL Idealize.SL.Sem
open Cert.KernelIdeal.Gen

variable {F : FTy → Type} [FloatOps F]
variable (m : (ℓ : Loc nD τ sig) → Buf (Elt F) ℓ) (ρ : Dev nD → PrngReg)

open Cert.ReferenceIdeal.ReadP Cert.ReferenceIdeal.Stages

/-! ## Buffers carried unchanged across items -/

theorem B2_v1 (c : Dev nD) : B2 m ρ c (Proc.devRef .tc main_v1) = B1 m ρ c (Proc.devRef .tc main_v1) := (B2_of_ne m ρ c main_v1 (by decide))
theorem B2_v3 (c : Dev nD) : B2 m ρ c (Proc.devRef .tc main_v3) = B1 m ρ c (Proc.devRef .tc main_v3) := (B2_of_ne m ρ c main_v3 (by decide))
theorem B7_v1 (c : Dev nD) : B7 m ρ c (Proc.devRef .tc main_v1) = B1 m ρ c (Proc.devRef .tc main_v1) := (Eq.trans (B7_of_ne m ρ c main_v1 (by decide)) (Eq.trans (B6_of_ne m ρ c main_v1 (by decide)) (Eq.trans (StableHlo.after_of_writes_sub hostOps1_2 (B4 m ρ c) hostOps1_2_writes (by decide : main_v1 ∉ hostOps1_2_W)) (Eq.trans (StableHlo.after_of_writes_sub hostOps1_1 (B3 m ρ c) hostOps1_1_writes (by decide : main_v1 ∉ hostOps1_1_W)) (Eq.trans (StableHlo.after_of_writes_sub hostOps1 (B2 m ρ c) hostOps1_writes (by decide : main_v1 ∉ hostOps1_W)) (B2_of_ne m ρ c main_v1 (by decide)))))))
theorem B7_v3 (c : Dev nD) : B7 m ρ c (Proc.devRef .tc main_v3) = B1 m ρ c (Proc.devRef .tc main_v3) := (Eq.trans (B7_of_ne m ρ c main_v3 (by decide)) (Eq.trans (B6_of_ne m ρ c main_v3 (by decide)) (Eq.trans (StableHlo.after_of_writes_sub hostOps1_2 (B4 m ρ c) hostOps1_2_writes (by decide : main_v3 ∉ hostOps1_2_W)) (Eq.trans (StableHlo.after_of_writes_sub hostOps1_1 (B3 m ρ c) hostOps1_1_writes (by decide : main_v3 ∉ hostOps1_1_W)) (Eq.trans (StableHlo.after_of_writes_sub hostOps1 (B2 m ρ c) hostOps1_writes (by decide : main_v3 ∉ hostOps1_W)) (B2_of_ne m ρ c main_v3 (by decide)))))))
theorem B4_v4 (c : Dev nD) : B4 m ρ c (Proc.devRef .tc main_v4) = B2 m ρ c (Proc.devRef .tc main_v4) := (Eq.trans (StableHlo.after_of_writes_sub hostOps1_1 (B3 m ρ c) hostOps1_1_writes (by decide : main_v4 ∉ hostOps1_1_W)) (StableHlo.after_of_writes_sub hostOps1 (B2 m ρ c) hostOps1_writes (by decide : main_v4 ∉ hostOps1_W)))
theorem B4_v6 (c : Dev nD) : B4 m ρ c (Proc.devRef .tc main_v6) = B3 m ρ c (Proc.devRef .tc main_v6) := (StableHlo.after_of_writes_sub hostOps1_1 (B3 m ρ c) hostOps1_1_writes (by decide : main_v6 ∉ hostOps1_1_W))
theorem B4_v7 (c : Dev nD) : B4 m ρ c (Proc.devRef .tc main_v7) = B3 m ρ c (Proc.devRef .tc main_v7) := (StableHlo.after_of_writes_sub hostOps1_1 (B3 m ρ c) hostOps1_1_writes (by decide : main_v7 ∉ hostOps1_1_W))
theorem B4_arg4 (c : Dev nD) : B4 m ρ c (Proc.devRef .tc main_arg4) = (m ((c : Thread nD τ).loc main_arg4)) := (Eq.trans (StableHlo.after_of_writes_sub hostOps1_1 (B3 m ρ c) hostOps1_1_writes (by decide : main_arg4 ∉ hostOps1_1_W)) (Eq.trans (StableHlo.after_of_writes_sub hostOps1 (B2 m ρ c) hostOps1_writes (by decide : main_arg4 ∉ hostOps1_W)) (Eq.trans (B2_of_ne m ρ c main_arg4 (by decide)) (StableHlo.after_of_writes_sub hostOps0 (B0 m ρ c) hostOps0_writes (by decide : main_arg4 ∉ hostOps0_W)))))
theorem B6_arg5 (c : Dev nD) : B6 m ρ c (Proc.devRef .tc main_arg5) = (m ((c : Thread nD τ).loc main_arg5)) := (Eq.trans (B6_of_ne m ρ c main_arg5 (by decide)) (Eq.trans (StableHlo.after_of_writes_sub hostOps1_2 (B4 m ρ c) hostOps1_2_writes (by decide : main_arg5 ∉ hostOps1_2_W)) (Eq.trans (StableHlo.after_of_writes_sub hostOps1_1 (B3 m ρ c) hostOps1_1_writes (by decide : main_arg5 ∉ hostOps1_1_W)) (Eq.trans (StableHlo.after_of_writes_sub hostOps1 (B2 m ρ c) hostOps1_writes (by decide : main_arg5 ∉ hostOps1_W)) (Eq.trans (B2_of_ne m ρ c main_arg5 (by decide)) (StableHlo.after_of_writes_sub hostOps0 (B0 m ρ c) hostOps0_writes (by decide : main_arg5 ∉ hostOps0_W)))))))
theorem B1_arg0 (c : Dev nD) : B1 m ρ c (Proc.devRef .tc main_arg0) = (m ((c : Thread nD τ).loc main_arg0)) := (StableHlo.after_of_writes_sub hostOps0 (B0 m ρ c) hostOps0_writes (by decide : main_arg0 ∉ hostOps0_W))
theorem B1_arg3 (c : Dev nD) : B1 m ρ c (Proc.devRef .tc main_arg3) = (m ((c : Thread nD τ).loc main_arg3)) := (StableHlo.after_of_writes_sub hostOps0 (B0 m ρ c) hostOps0_writes (by decide : main_arg3 ∉ hostOps0_W))
theorem B9_v56 (c : Dev nD) : B9 m ρ c (Proc.devRef .tc main_v56) = B7 m ρ c (Proc.devRef .tc main_v56) := (Eq.trans (StableHlo.after_of_writes_sub hostOps3_1 (B8 m ρ c) hostOps3_1_writes (by decide : main_v56 ∉ hostOps3_1_W)) (StableHlo.after_of_writes_sub hostOps3 (B7 m ρ c) hostOps3_writes (by decide : main_v56 ∉ hostOps3_W)))
theorem B9_v58 (c : Dev nD) : B9 m ρ c (Proc.devRef .tc main_v58) = B8 m ρ c (Proc.devRef .tc main_v58) := (StableHlo.after_of_writes_sub hostOps3_1 (B8 m ρ c) hostOps3_1_writes (by decide : main_v58 ∉ hostOps3_1_W))
theorem B9_v59 (c : Dev nD) : B9 m ρ c (Proc.devRef .tc main_v59) = B8 m ρ c (Proc.devRef .tc main_v59) := (StableHlo.after_of_writes_sub hostOps3_1 (B8 m ρ c) hostOps3_1_writes (by decide : main_v59 ∉ hostOps3_1_W))
theorem B9_arg6 (c : Dev nD) : B9 m ρ c (Proc.devRef .tc main_arg6) = (m ((c : Thread nD τ).loc main_arg6)) := (Eq.trans (StableHlo.after_of_writes_sub hostOps3_1 (B8 m ρ c) hostOps3_1_writes (by decide : main_arg6 ∉ hostOps3_1_W)) (Eq.trans (StableHlo.after_of_writes_sub hostOps3 (B7 m ρ c) hostOps3_writes (by decide : main_arg6 ∉ hostOps3_W)) (Eq.trans (B7_of_ne m ρ c main_arg6 (by decide)) (Eq.trans (B6_of_ne m ρ c main_arg6 (by decide)) (Eq.trans (StableHlo.after_of_writes_sub hostOps1_2 (B4 m ρ c) hostOps1_2_writes (by decide : main_arg6 ∉ hostOps1_2_W)) (Eq.trans (StableHlo.after_of_writes_sub hostOps1_1 (B3 m ρ c) hostOps1_1_writes (by decide : main_arg6 ∉ hostOps1_1_W)) (Eq.trans (StableHlo.after_of_writes_sub hostOps1 (B2 m ρ c) hostOps1_writes (by decide : main_arg6 ∉ hostOps1_W)) (Eq.trans (B2_of_ne m ρ c main_arg6 (by decide)) (StableHlo.after_of_writes_sub hostOps0 (B0 m ρ c) hostOps0_writes (by decide : main_arg6 ∉ hostOps0_W))))))))))
theorem B9_arg2 (c : Dev nD) : B9 m ρ c (Proc.devRef .tc main_arg2) = (m ((c : Thread nD τ).loc main_arg2)) := (Eq.trans (StableHlo.after_of_writes_sub hostOps3_1 (B8 m ρ c) hostOps3_1_writes (by decide : main_arg2 ∉ hostOps3_1_W)) (Eq.trans (StableHlo.after_of_writes_sub hostOps3 (B7 m ρ c) hostOps3_writes (by decide : main_arg2 ∉ hostOps3_W)) (Eq.trans (B7_of_ne m ρ c main_arg2 (by decide)) (Eq.trans (B6_of_ne m ρ c main_arg2 (by decide)) (Eq.trans (StableHlo.after_of_writes_sub hostOps1_2 (B4 m ρ c) hostOps1_2_writes (by decide : main_arg2 ∉ hostOps1_2_W)) (Eq.trans (StableHlo.after_of_writes_sub hostOps1_1 (B3 m ρ c) hostOps1_1_writes (by decide : main_arg2 ∉ hostOps1_1_W)) (Eq.trans (StableHlo.after_of_writes_sub hostOps1 (B2 m ρ c) hostOps1_writes (by decide : main_arg2 ∉ hostOps1_W)) (Eq.trans (B2_of_ne m ρ c main_arg2 (by decide)) (StableHlo.after_of_writes_sub hostOps0 (B0 m ρ c) hostOps0_writes (by decide : main_arg2 ∉ hostOps0_W))))))))))

/-! ## The first host stretch: the two rows of the edge list -/

theorem B1_v1 (c : Dev nD) :
    B1 m ρ c (Proc.devRef .tc main_v1) = val_main_v1 (F := F) (m ((c : Thread nD τ).loc main_arg1)) := by
  show StableHlo.after hostOps0 (B0 m ρ c) (Proc.devRef .tc main_v1) = _
  generalize hW : B0 m ρ c = W
  after_results
  subst hW

  rfl

theorem B1_v3 (c : Dev nD) :
    B1 m ρ c (Proc.devRef .tc main_v3) = val_main_v3 (F := F) (m ((c : Thread nD τ).loc main_arg1)) := by
  show StableHlo.after hostOps0 (B0 m ρ c) (Proc.devRef .tc main_v3) = _
  generalize hW : B0 m ρ c = W
  after_results
  subst hW

  rfl

/-! ## The first aggregation -/

theorem B3_v6 (c : Dev nD) :
    B3 m ρ c (Proc.devRef .tc main_v6) = val_main_v6 (F := F) (m ((c : Thread nD τ).loc main_arg1)) := by
  show StableHlo.after hostOps1 (B2 m ρ c) (Proc.devRef .tc main_v6) = _
  generalize hW : B2 m ρ c = W
  after_results
  subst hW
  rw [B2_v1 m ρ c, B1_v1 m ρ c]
  rfl

theorem B3_v7 (c : Dev nD) :
    B3 m ρ c (Proc.devRef .tc main_v7) = val_main_v7 (F := F) (m ((c : Thread nD τ).loc main_arg1)) := by
  show StableHlo.after hostOps1 (B2 m ρ c) (Proc.devRef .tc main_v7) = _
  generalize hW : B2 m ρ c = W
  after_results
  subst hW
  rw [B2_v3 m ρ c, B1_v3 m ρ c]
  rfl

theorem B3_v18 (c : Dev nD) :
    B3 m ρ c (Proc.devRef .tc main_v18) = val_main_v18 (F := F) (m ((c : Thread nD τ).loc main_arg1)) := by
  show StableHlo.after hostOps1 (B2 m ρ c) (Proc.devRef .tc main_v18) = _
  generalize hW : B2 m ρ c = W
  after_results
  subst hW
  rw [B2_v3 m ρ c, B1_v3 m ρ c]
  rfl

theorem B3_v19 (c : Dev nD) :
    B3 m ρ c (Proc.devRef .tc main_v19) = val_main_v19 (F := F) (m ((c : Thread nD τ).loc main_arg1)) := by
  show StableHlo.after hostOps1 (B2 m ρ c) (Proc.devRef .tc main_v19) = _
  generalize hW : B2 m ρ c = W
  after_results
  subst hW
  rw [B2_v3 m ρ c, B1_v3 m ρ c]
  rfl

theorem B3_cst_3 (c : Dev nD) :
    B3 m ρ c (Proc.devRef .tc main_cst_3) = val_main_cst_3 (F := F) := by
  show StableHlo.after hostOps1 (B2 m ρ c) (Proc.devRef .tc main_cst_3) = _
  generalize hW : B2 m ρ c = W
  after_results
  subst hW

  rfl

theorem B4_v20 (c : Dev nD) :
    B4 m ρ c (Proc.devRef .tc main_v20) = val_main_v20 (F := F) (m ((c : Thread nD τ).loc main_arg1)) := by
  show StableHlo.after hostOps1_1 (B3 m ρ c) (Proc.devRef .tc main_v20) = _
  generalize hW : B3 m ρ c = W
  after_results
  subst hW
  rw [B3_v18 m ρ c, B3_v19 m ρ c, B3_cst_3 m ρ c]
  rfl

theorem B5_v53 (c : Dev nD)
    (h4 : B2 m ρ c (Proc.devRef .tc main_v4) = val_main_v4 (F := F) (m ((c : Thread nD τ).loc main_arg0)) (m ((c : Thread nD τ).loc main_arg3))) :
    B5 m ρ c (Proc.devRef .tc main_v53) = val_main_v53 (F := F) (m ((c : Thread nD τ).loc main_arg0)) (m ((c : Thread nD τ).loc main_arg1)) (m ((c : Thread nD τ).loc main_arg3)) := by
  show StableHlo.after hostOps1_2 (B4 m ρ c) (Proc.devRef .tc main_v53) = _
  generalize hW : B4 m ρ c = W
  after_results_simp
  subst hW
  rw [B4_v4 m ρ c, h4, B4_v6 m ρ c, B3_v6 m ρ c, B4_v7 m ρ c, B3_v7 m ρ c, B4_v20 m ρ c]
  rfl

/-! ## The second aggregation -/

theorem B8_v58 (c : Dev nD) :
    B8 m ρ c (Proc.devRef .tc main_v58) = val_main_v60 (F := F) (m ((c : Thread nD τ).loc main_arg1)) := by
  show StableHlo.after hostOps3 (B7 m ρ c) (Proc.devRef .tc main_v58) = _
  generalize hW : B7 m ρ c = W
  after_results
  subst hW
  rw [B7_v1 m ρ c, B1_v1 m ρ c]
  rfl

theorem B8_v59 (c : Dev nD) :
    B8 m ρ c (Proc.devRef .tc main_v59) = val_main_v61 (F := F) (m ((c : Thread nD τ).loc main_arg1)) := by
  show StableHlo.after hostOps3 (B7 m ρ c) (Proc.devRef .tc main_v59) = _
  generalize hW : B7 m ρ c = W
  after_results
  subst hW
  rw [B7_v3 m ρ c, B1_v3 m ρ c]
  rfl

set_option maxHeartbeats 1000000 in
theorem B8_v70 (c : Dev nD) :
    B8 m ρ c (Proc.devRef .tc main_v70) = val_main_v72 (F := F) (m ((c : Thread nD τ).loc main_arg1)) := by
  show StableHlo.after hostOps3 (B7 m ρ c) (Proc.devRef .tc main_v70) = _
  generalize hW : B7 m ρ c = W
  after_results
  subst hW
  rw [B7_v3 m ρ c, B1_v3 m ρ c]
  rfl

set_option maxHeartbeats 1000000 in
theorem B8_v71 (c : Dev nD) :
    B8 m ρ c (Proc.devRef .tc main_v71) = val_main_v73 (F := F) (m ((c : Thread nD τ).loc main_arg1)) := by
  show StableHlo.after hostOps3 (B7 m ρ c) (Proc.devRef .tc main_v71) = _
  generalize hW : B7 m ρ c = W
  after_results
  subst hW
  rw [B7_v3 m ρ c, B1_v3 m ρ c]
  rfl

theorem B8_cst_18 (c : Dev nD) :
    B8 m ρ c (Proc.devRef .tc main_cst_18) = val_main_cst_18 (F := F) := by
  show StableHlo.after hostOps3 (B7 m ρ c) (Proc.devRef .tc main_cst_18) = _
  generalize hW : B7 m ρ c = W
  after_results
  subst hW

  rfl

theorem B9_v72 (c : Dev nD) :
    B9 m ρ c (Proc.devRef .tc main_v72) = val_main_v74 (F := F) (m ((c : Thread nD τ).loc main_arg1)) := by
  show StableHlo.after hostOps3_1 (B8 m ρ c) (Proc.devRef .tc main_v72) = _
  generalize hW : B8 m ρ c = W
  after_results
  subst hW
  rw [B8_v70 m ρ c, B8_v71 m ρ c, B8_cst_18 m ρ c]
  rfl

theorem B10_v105 (c : Dev nD)
    (h56 : B7 m ρ c (Proc.devRef .tc main_v56) = val_main_v58 (F := F) (m ((c : Thread nD τ).loc main_arg0)) (m ((c : Thread nD τ).loc main_arg1)) (m ((c : Thread nD τ).loc main_arg3)) (m ((c : Thread nD τ).loc main_arg4)) (m ((c : Thread nD τ).loc main_arg5))) :
    B10 m ρ c (Proc.devRef .tc main_v105) = val_main_v107 (F := F) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps3_2 (B9 m ρ c) (Proc.devRef .tc main_v105) = _
  generalize hW : B9 m ρ c = W
  after_results_simp
  subst hW
  rw [B9_v56 m ρ c, h56, B9_v58 m ρ c, B8_v58 m ρ c, B9_v59 m ρ c, B8_v59 m ρ c, B9_v72 m ρ c]
  rfl

/-! ## The three reshapes that feed the regions: a vector as a one-row or a one-column array -/

/-- A vector read as a one-row array: the reshape of n words to 1×n and the broadcast that puts them on axis 1 agree. -/
theorem row_of_vec {α : Type} {n : Nat} (x : (⟨1, ![n]⟩ : Shape).Idx → α) (hn : n ≠ 1)
    (h : (⟨1, ![n]⟩ : Shape).ShapeCasts ⟨2, ![1, n]⟩) (hb : (⟨1, ![n]⟩ : Shape).BroadcastsInDim ⟨2, ![1, n]⟩ (![1] : Fin 1 → Fin 2)) :
    shapeCast ⟨2, ![1, n]⟩ x h = broadcastInDim ⟨2, ![1, n]⟩ ![1] hb x := by
  funext i
  refine (shapeCast_addUnit_apply ![n] x h i).trans ?_
  refine (broadcastInDim_apply ![1] hb x i (fun a => i a.succ) (fun a => ?_)).symm
  have ha : a = 0 := Subsingleton.elim _ _
  subst ha
  rw [if_neg (show ¬ ((⟨1, ![n]⟩ : Shape).size (0 : Fin 1) = 1) from hn)]
  rfl

/-- A vector read as a one-column array: the reshape of n words to n×1 and the broadcast that puts them on axis 0 agree. -/
theorem col_of_vec {α : Type} {n : Nat} (x : (⟨1, ![n]⟩ : Shape).Idx → α) (hn : n ≠ 1)
    (h : (⟨1, ![n]⟩ : Shape).ShapeCasts ⟨2, ![n, 1]⟩) (hb : (⟨1, ![n]⟩ : Shape).BroadcastsInDim ⟨2, ![n, 1]⟩ (![0] : Fin 1 → Fin 2)) :
    shapeCast ⟨2, ![n, 1]⟩ x h = broadcastInDim ⟨2, ![n, 1]⟩ ![0] hb x := by
  funext i
  have h1 : (i 1).val = 0 := by have := idx2_lt1 i; omega
  have hk : ((⟨1, ![n]⟩ : Shape).rowMajor (ix1 (n := n) (i 0))).val = ((⟨2, ![n, 1]⟩ : Shape).rowMajor i).val := by
    rw [Shape.rowMajor_val_one, Shape.rowMajor_val_two, h1]
    show (i 0).val = (i 0).val * 1 + 0
    omega
  refine (shapeCast_apply x h i (ix1 (n := n) (i 0)) hk).trans ?_
  refine (broadcastInDim_apply ![0] hb x i (ix1 (n := n) (i 0)) (fun a => ?_)).symm
  have ha : a = 0 := Subsingleton.elim _ _
  subst ha
  rw [if_neg (show ¬ ((⟨1, ![n]⟩ : Shape).size (0 : Fin 1) = 1) from hn)]
  rfl

theorem B5_v54 (c : Dev nD) :
    B5 m ρ c (Proc.devRef .tc main_v54) = val_main_v54 (F := F) (m ((c : Thread nD τ).loc main_arg4)) := by
  show StableHlo.after hostOps1_2 (B4 m ρ c) (Proc.devRef .tc main_v54) = _
  generalize hW : B4 m ρ c = W
  after_results_simp
  subst hW
  rw [B4_arg4 m ρ c]
  exact row_of_vec _ (by decide) _ _

theorem B10_v106 (c : Dev nD) :
    B10 m ρ c (Proc.devRef .tc main_v106) = val_main_v108 (F := F) (m ((c : Thread nD τ).loc main_arg6)) := by
  show StableHlo.after hostOps3_2 (B9 m ρ c) (Proc.devRef .tc main_v106) = _
  generalize hW : B9 m ρ c = W
  after_results_simp
  subst hW
  rw [B9_arg6 m ρ c]
  exact row_of_vec _ (by decide) _ _

theorem B10_v107 (c : Dev nD) :
    B10 m ρ c (Proc.devRef .tc main_v107) = val_main_v112 (F := F) (m ((c : Thread nD τ).loc main_arg2)) := by
  show StableHlo.after hostOps3_2 (B9 m ρ c) (Proc.devRef .tc main_v107) = _
  generalize hW : B9 m ρ c = W
  after_results_simp
  subst hW
  rw [B9_arg2 m ρ c]
  exact col_of_vec _ (by decide) _ _

end Cert.KernelIdeal.Hand

end
-- ==== Proof.KI.Val0.lean ====
/-
  What region 0 leaves in its result array, over the extended reals: the fifty product blocks tile the 100000×128
  array, and row i, column j of it is Σ_k x[i, k] · w[k, j] — the reference's whole matrix product of the node
  features and the first weight matrix.
-/
import proofs.«420483_j44942537786128_1_alg».proof.Proof.KI.Reg0
import proofs.«420483_j44942537786128_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal.Gen

/-! ## The block product at an index -/

/-- The product's row coordinate is the left operand's row, -/
theorem lhs_k0_0 (i : S2000x128.Idx) (q : Cert.KernelIdeal.dot_S2000x128_S128x128_S2000x128_1_0_0_1_n_n.contr.Idx) :
    (Cert.KernelIdeal.dot_S2000x128_S128x128_S2000x128_1_0_0_1_n_n.lhsIdx i q 0).val = (i 0).val := by
  unfold DotDims.lhsIdx
  rw [dif_neg (show ¬(0 : Fin S2000x128.rank) ∈ Cert.KernelIdeal.dot_S2000x128_S128x128_S2000x128_1_0_0_1_n_n.lhsBatch by decide), dif_pos (show (0 : Fin S2000x128.rank) ∈ Cert.KernelIdeal.dot_S2000x128_S128x128_S2000x128_1_0_0_1_n_n.lhsNonContracting by decide)]
  rfl
/-- the contraction index is the left operand's column -/
theorem lhs_k0_1 (i : S2000x128.Idx) (q : Cert.KernelIdeal.dot_S2000x128_S128x128_S2000x128_1_0_0_1_n_n.contr.Idx) :
    (Cert.KernelIdeal.dot_S2000x128_S128x128_S2000x128_1_0_0_1_n_n.lhsIdx i q 1).val = (q ⟨0, by decide⟩).val :=
  Cert.KernelIdeal.dot_S2000x128_S128x128_S2000x128_1_0_0_1_n_n.lhsIdx_val_of_single rfl i q
/-- and the right operand's row, -/
theorem rhs_k0_0 (i : S2000x128.Idx) (q : Cert.KernelIdeal.dot_S2000x128_S128x128_S2000x128_1_0_0_1_n_n.contr.Idx) :
    (Cert.KernelIdeal.dot_S2000x128_S128x128_S2000x128_1_0_0_1_n_n.rhsIdx i q 0).val = (q ⟨0, by decide⟩).val :=
  Cert.KernelIdeal.dot_S2000x128_S128x128_S2000x128_1_0_0_1_n_n.rhsIdx_val_of_single rfl i q
/-- and the product's column coordinate is the right operand's column. -/
theorem rhs_k0_1 (i : S2000x128.Idx) (q : Cert.KernelIdeal.dot_S2000x128_S128x128_S2000x128_1_0_0_1_n_n.contr.Idx) :
    (Cert.KernelIdeal.dot_S2000x128_S128x128_S2000x128_1_0_0_1_n_n.rhsIdx i q 1).val = (i 1).val := by
  unfold DotDims.rhsIdx
  rw [dif_neg (show ¬(1 : Fin S128x128.rank) ∈ Cert.KernelIdeal.dot_S2000x128_S128x128_S2000x128_1_0_0_1_n_n.rhsBatch by decide), dif_pos (show (1 : Fin S128x128.rank) ∈ Cert.KernelIdeal.dot_S2000x128_S128x128_S2000x128_1_0_0_1_n_n.rhsNonContracting by decide)]
  rfl

/-- Over the extended reals the block product at row p, column q is Σ_k x[p, k] · w[k, q]: the roundings to bf16 are
    the identity there and the accumulator starts at zero. -/
theorem prod0_apply (x : Vec Ideal S2000x128 .f32) (w : Vec Ideal S128x128 .f32) (p : Fin 2000) (q : Fin 128) :
    prod0 (F := Ideal) x w (ix2 p q) = ∑ k : Fin 128, x (ix2 p k) * w (ix2 k q) := by
  unfold prod0 k0_pay1
  refine (Ideal.matmul_constant_zero_apply Cert.KernelIdeal.dot_S2000x128_S128x128_S2000x128_1_0_0_1_n_n none _ _ (ix2 p q)).trans ?_
  rw [← Equiv.sum_comp (ValueIdx.contrEquiv1 Cert.KernelIdeal.dot_S2000x128_S128x128_S2000x128_1_0_0_1_n_n 128 rfl rfl).symm]
  refine Finset.sum_congr rfl fun k _ => ?_
  have hk := ValueIdx.contrEquiv1_symm_val Cert.KernelIdeal.dot_S2000x128_S128x128_S2000x128_1_0_0_1_n_n 128 rfl rfl k
  have el : Cert.KernelIdeal.dot_S2000x128_S128x128_S2000x128_1_0_0_1_n_n.lhsIdx (ix2 p q) ((ValueIdx.contrEquiv1 Cert.KernelIdeal.dot_S2000x128_S128x128_S2000x128_1_0_0_1_n_n 128 rfl rfl).symm k) = ix2 p k := funext fun a => Fin.ext (by
    match a with
    | ⟨0, _⟩ => exact lhs_k0_0 _ _
    | ⟨1, _⟩ => exact (lhs_k0_1 _ _).trans hk)
  have er : Cert.KernelIdeal.dot_S2000x128_S128x128_S2000x128_1_0_0_1_n_n.rhsIdx (ix2 p q) ((ValueIdx.contrEquiv1 Cert.KernelIdeal.dot_S2000x128_S128x128_S2000x128_1_0_0_1_n_n 128 rfl rfl).symm k) = ix2 k q := funext fun a => Fin.ext (by
    match a with
    | ⟨0, _⟩ => exact (rhs_k0_0 _ _).trans hk
    | ⟨1, _⟩ => exact rhs_k0_1 _ _)
  rw [el, er]
  rfl

variable (V : (c : Dev nD) → (b : Ref sig .tc) → Buf (Elt Ideal) ((c : Thread nD τ).loc b))

/-! ## The blocks in their arrays -/

/-- The printed index maps over the grid: the feature window and the result window sit at block (t, 0), the weight
    window at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p, column q of the feature block at point t is row 2000·t + p, column q of the feature array. -/
theorem blk0_0_apply (c : Dev nD) (t : Fin cfg0.N) (p : Fin 2000) (q : Fin 128) :
    blk0 V c 0 t (ix2 p q) = V c main_arg0 (ix2 (n0 := 100000) ⟨2000 * t.val + p.val, by have ht : t.val < 50 := t.isLt; omega⟩ q) := by
  obtain ⟨e0, e1, -, -, -, -⟩ := idx_facts0 t
  unfold blk0
  show V c main_arg0 (((cfg0.win 0).blk t).view.emb (ix2 p q)) = _
  refine congrArg (V c main_arg0) (funext fun a => Fin.ext ?_)
  match a with
  | ⟨0, _⟩ => show win0_0.index t (0 : Fin 2) * 2000 + 1 * p.val = 2000 * t.val + p.val; omega
  | ⟨1, _⟩ => show win0_0.index t (1 : Fin 2) * 128 + 1 * q.val = q.val; omega

/-- The weight block at every point is the weight array. -/
theorem blk0_1_apply (c : Dev nD) (t : Fin cfg0.N) (p : Fin 128) (q : Fin 128) :
    blk0 V c 1 t (ix2 p q) = V c main_arg3 (ix2 p q) := by
  obtain ⟨-, -, e2, e3, -, -⟩ := idx_facts0 t
  unfold blk0
  show V c main_arg3 (((cfg0.win 1).blk t).view.emb (ix2 p q)) = _
  refine congrArg (V c main_arg3) (funext fun a => Fin.ext ?_)
  match a with
  | ⟨0, _⟩ => show win0_1.index t (0 : Fin 2) * 128 + 1 * p.val = p.val; omega
  | ⟨1, _⟩ => show win0_1.index t (1 : Fin 2) * 128 + 1 * q.val = q.val; omega

/-! ## What a point writes back, and where -/

/-- Row p, column q of the result block at point t sits at row 2000·t + p, column q of the result array. -/
theorem emb0_2 (t : Fin cfg0.N) (p : Fin 2000) (q : Fin 128) :
    ((cfg0.win 2).blk t).view.emb (ix2 p q) = ix2 (n0 := 100000) ⟨2000 * t.val + p.val, by have ht : t.val < 50 := t.isLt; omega⟩ q := by
  obtain ⟨-, -, -, -, e4, e5⟩ := idx_facts0 t
  refine funext fun a => Fin.ext ?_
  match a with
  | ⟨0, _⟩ => show win0_2.index t (0 : Fin 2) * 2000 + 1 * p.val = 2000 * t.val + p.val; omega
  | ⟨1, _⟩ => show win0_2.index t (1 : Fin 2) * 128 + 1 * q.val = q.val; omega

/-- What point t writes back is block t of the reference's matrix product: at row p, column q both are
    Σ_k x[2000·t + p, k] · w[k, q]. -/
theorem flushed0_eq (c : Dev nD) (t : Fin cfg0.N) :
    (dat0 (F := Ideal) V c).flushed 2 t
      = ((cfg0.win 2).blk t).view.read (Elt Ideal) (Cert.ReferenceIdeal.ReadP.val_main_v4 (F := Ideal) (V c main_arg0) (V c main_arg3)) := by
  show (cfg0.win 2).cut (grid0.coords t) ((dat0 (F := Ideal) V c).after 2 t) = _
  rw [after0_2]
  funext y
  obtain ⟨p, q, rfl⟩ : ∃ (p : Fin 2000) (q : Fin 128), y = ix2 p q := ⟨y 0, y 1, eq_ix2 y⟩
  show prod0 (F := Ideal) (blk0 V c 0 t) (blk0 V c 1 t) (ix2 p q)
    = Cert.ReferenceIdeal.ReadP.val_main_v4 (F := Ideal) (V c main_arg0) (V c main_arg3) (((cfg0.win 2).blk t).view.emb (ix2 p q))
  refine (prod0_apply _ _ p q).trans ?_
  refine Eq.trans ?_ (congrArg (Cert.ReferenceIdeal.ReadP.val_main_v4 (F := Ideal) (V c main_arg0) (V c main_arg3)) (emb0_2 t p q)).symm
  refine Eq.trans ?_ (Cert.ReferenceIdeal.ReadP.val_main_v4_apply _ _ _).symm
  refine Finset.sum_congr rfl fun k _ => ?_
  rw [blk0_0_apply, blk0_1_apply]
  have hl : Cert.ReferenceIdeal.ReadP.lidx_main_v4 (ix2 (n0 := 100000) (n1 := 128) ⟨2000 * t.val + p.val, by have ht : t.val < 50 := t.isLt; omega⟩ q) k
      = ix2 (n0 := 100000) ⟨2000 * t.val + p.val, by have ht : t.val < 50 := t.isLt; omega⟩ k :=
    funext fun a => by match a with | ⟨0, _⟩ => rfl | ⟨1, _⟩ => rfl
  have hr : Cert.ReferenceIdeal.ReadP.ridx_main_v4 (ix2 (n0 := 100000) (n1 := 128) ⟨2000 * t.val + p.val, by have ht : t.val < 50 := t.isLt; omega⟩ q) k
      = ix2 k q :=
    funext fun a => by match a with | ⟨0, _⟩ => rfl | ⟨1, _⟩ => rfl
  rw [hl, hr]

/-- An index of the result array is in point t's block iff each coordinate is in the block's range on its axis. -/
theorem mem_blk0_2 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v4).slice (win0_2.rect t)).set ↔ _
  rw [View.set_slice_whole, Rect.mem_set_unit]
  exact Iff.rfl

/-- The fifty blocks tile the result array: row r is in the block of point r / 2000. -/
theorem cover0_2 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 2000, by show (i 0).val / 2000 < 50; omega⟩, flush0_2 _, ?_⟩
  obtain ⟨-, -, -, -, e4, e5⟩ := idx_facts0 ⟨(i 0).val / 2000, by show (i 0).val / 2000 < 50; omega⟩
  rw [mem_blk0_2]
  intro a
  match a with
  | ⟨0, _⟩ => show win0_2.index _ (0 : Fin 2) * 2000 ≤ (i 0).val ∧ (i 0).val < win0_2.index _ (0 : Fin 2) * 2000 + 2000; rw [e4]; show (i 0).val / 2000 * 2000 ≤ (i 0).val ∧ (i 0).val < (i 0).val / 2000 * 2000 + 2000; omega
  | ⟨1, _⟩ => show win0_2.index _ (1 : Fin 2) * 128 ≤ (i 1).val ∧ (i 1).val < win0_2.index _ (1 : Fin 2) * 128 + 128; rw [e5]; omega

/-- Region 0's result array after the region is the reference's first matrix product of the region's two input arrays. -/
theorem arr0 (c : Dev nD) :
    (dat0 (F := Ideal) V c).arrAt 2 cfg0.N
      = Cert.ReferenceIdeal.ReadP.val_main_v4 (F := Ideal) (V c main_arg0) (V c main_arg3) :=
  (dat0 (F := Ideal) V c).arrAt_eq_of_cover 2 _ (fun t _ => flushed0_eq V c t) cover0_2

end Cert.KernelIdeal.Hand

end
-- ==== Proof.KI.Val1.lean ====
/-
  What region 1 leaves in its result array, over the extended reals: the fifty rectified blocks tile the
  100000×128 array, and row i, column j of it is max(a[i, j] + b[0, j], 0) — the reference's bias addition
  (the bias row broadcast over the rows) followed by its rectifier.

  Point t reads rows 2000·t … 2000·t + 1999 of a and the one row of b, and writes the same rows of the result;
  row r of the result is therefore written by point r / 2000, and every row by exactly one point.
-/
import proofs.«420483_j44942537786128_1_alg».proof.Proof.KI.Reg1
import proofs.«420483_j44942537786128_1_alg».proof.Proof.RefStages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal.Gen

variable (V : (c : Dev nD) → (b : Ref sig .tc) → Buf (Elt Ideal) ((c : Thread nD τ).loc b))

/-! ## The block indices -/

/-- The three index maps at point t: the feature window and the result window are at block (t, 0), the bias
    window at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of block t is row 2000·t + p of the array, below 100000 since t < 50 and p < 2000. -/
theorem row_lt (t : Fin cfg1.N) (p : Fin 2000) : 2000 * t.val + p.val < 100000 := by
  have ht : t.val < 50 := t.isLt
  have := p.isLt; omega

/-! ## The blocks, read at an index -/

/-- The feature block at point t, at (p, q): the feature array at (2000·t + p, q). -/
theorem blk1_0_read (c : Dev nD) (t : Fin cfg1.N) (p : Fin 2000) (q : Fin 128) :
    blk1 V c 0 t (ix2 p q) = V c main_v53 (ix2 (⟨2000 * t.val + p.val, row_lt t p⟩ : Fin 100000) q) := by
  obtain ⟨e0, e1, -, -, -, -⟩ := idx_facts1 t
  show V c main_v53 (((cfg1.win 0).blk t).view.emb (ix2 p q)) = _
  refine congrArg (V c main_v53) (funext fun a => Fin.ext ?_)
  match a with
  | ⟨0, _⟩ => show win1_0.index t (0 : Fin 2) * 2000 + 1 * p.val = 2000 * t.val + p.val; omega
  | ⟨1, _⟩ => show win1_0.index t (1 : Fin 2) * 128 + 1 * q.val = q.val; omega

/-- The bias block at any point, at (0, q): the bias row at (0, q). -/
theorem blk1_1_read (c : Dev nD) (t : Fin cfg1.N) (q : Fin 128) :
    blk1 V c 1 t (ix2 (0 : Fin 1) q) = V c main_v54 (ix2 (0 : Fin 1) q) := by
  obtain ⟨-, -, e2, e3, -, -⟩ := idx_facts1 t
  show V c main_v54 (((cfg1.win 1).blk t).view.emb (ix2 (0 : Fin 1) q)) = _
  refine congrArg (V c main_v54) (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

/-- Where the result block at point t puts its entry (p, q): at (2000·t + p, q) of the result array. -/
theorem blk1_2_emb (t : Fin cfg1.N) (p : Fin 2000) (q : Fin 128) :
    ((cfg1.win 2).blk t).view.emb (ix2 p q) = ix2 (⟨2000 * t.val + p.val, row_lt t p⟩ : Fin 100000) q := by
  obtain ⟨-, -, -, -, e4, e5⟩ := idx_facts1 t
  refine funext fun a => Fin.ext ?_
  match a with
  | ⟨0, _⟩ => show win1_2.index t (0 : Fin 2) * 2000 + 1 * p.val = 2000 * t.val + p.val; omega
  | ⟨1, _⟩ => show win1_2.index t (1 : Fin 2) * 128 + 1 * q.val = q.val; omega

/-! ## The two sides at an index -/

/-- The rectified block at (p, q): max(x[p, q] + b[0, q], 0). The two shape casts are identities and the one
    row is read at column q on every row. -/
theorem relu1_apply (x : Vec Ideal S2000x128 .f32) (b : Vec Ideal S1x128 .f32) (p : Fin 2000) (q : Fin 128) :
    relu1 x b (ix2 p q) = max (x (ix2 p q) + b (ix2 (0 : Fin 1) q)) (Ideal.ofBits .f32 0x00000000#32) := by
  unfold relu1 k1_pay1
  refine (maximumf_apply _ _ _).trans ?_
  refine congrArg₂ max ?_ rfl
  refine (addf_apply _ _ _).trans ?_
  refine congrArg₂ (· + ·) ?_ ?_
  · exact congrFun (shapeCast_self x _) _
  · exact (broadcastTo_1b_ab_apply _ _ p q).trans (congrFun (shapeCast_self b _) _)

open Cert.ReferenceIdeal Cert.ReferenceIdeal.ReadP Cert.ReferenceIdeal.Stages in
/-- The reference's stage at (r, q): max(a[r, q] + b[0, q], 0), with the same zero. The bias row broadcast over
    the rows reads row 0 at column q, and the rank-0 zero broadcast over the array reads its one entry. -/
theorem biasRelu_apply (a : (⟨S100000x128, .f32⟩ : BufTy).Contents (Elt Ideal)) (b : (⟨S1x128, .f32⟩ : BufTy).Contents (Elt Ideal))
    (r : Fin 100000) (q : Fin 128) :
    biasRelu (F := Ideal) a b (ix2 r q) = max (a (ix2 r q) + b (ix2 (0 : Fin 1) q)) (Ideal.ofBits .f32 0x00000000#32) := by
  unfold biasRelu
  refine (maximumf_apply _ _ _).trans ?_
  refine congrArg₂ max ?_ ?_
  · refine (addf_apply _ _ _).trans ?_
    refine congrArg₂ (· + ·) rfl ?_
    exact broadcastInDim_apply _ _ b (ix2 r q) (ix2 (0 : Fin 1) q) (fun ax => match ax with
      | ⟨0, _⟩ => by show 0 = if (1 : Nat) = 1 then 0 else r.val; rw [if_pos rfl]
      | ⟨1, _⟩ => by show q.val = if (128 : Nat) = 1 then 0 else q.val; rw [if_neg (by decide)])
  · exact (val_main_call1_v0_apply (F := Ideal) _).trans (val_main_call1_cst_apply (F := Ideal) _)

/-! ## What each point writes back, and that the blocks cover the array -/

/-- What point t writes back is block t of the reference's stage of the two input arrays: at (p, q) both are
    max(a[2000·t + p, q] + b[0, q], 0). -/
theorem flushed1_eq (c : Dev nD) (t : Fin cfg1.N) :
    (dat1 (F := Ideal) V c).flushed 2 t
      = ((cfg1.win 2).blk t).view.read (Elt Ideal) (Cert.ReferenceIdeal.Stages.biasRelu (F := Ideal) (V c main_v53) (V c main_v54)) := by
  show (cfg1.win 2).cut (grid1.coords t) ((dat1 V c).after 2 t) = _
  rw [after1_2]
  funext y
  obtain ⟨p, q, rfl⟩ : ∃ (p : Fin 2000) (q : Fin 128), y = ix2 p q := ⟨y 0, y 1, eq_ix2 y⟩
  show relu1 (blk1 V c 0 t) (blk1 V c 1 t) (ix2 p q)
    = Cert.ReferenceIdeal.Stages.biasRelu (F := Ideal) (V c main_v53) (V c main_v54) (((cfg1.win 2).blk t).view.emb (ix2 p q))
  rw [blk1_2_emb, relu1_apply, blk1_0_read, blk1_1_read]
  exact (biasRelu_apply _ _ _ _).symm

/-- An index of the result array is in point t's block iff each coordinate is in the block's range on its axis. -/
theorem mem_blk1_2 (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v55).slice (win1_2.rect t)).set ↔ _
  rw [View.set_slice_whole, Rect.mem_set_unit]
  exact Iff.rfl

/-- Every index (r, q) of the result array is in the block of the point r / 2000, which writes its block back. -/
theorem covered1_2 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hlt : (i 0).val / 2000 < 50 := by omega
  obtain ⟨t, ht⟩ : ∃ t : Fin cfg1.N, t.val = (i 0).val / 2000 := ⟨⟨(i 0).val / 2000, hlt⟩, rfl⟩
  obtain ⟨-, -, -, -, e4, e5⟩ := idx_facts1 t
  refine ⟨t, flush1_2 t, ?_⟩
  rw [mem_blk1_2]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-! ## The array -/

/-- Region 1's result array after the region: the reference's bias-and-rectifier stage of the region's two input
    arrays (max(a + the 1×128 row broadcast over the rows, 0): `Cert.ReferenceIdeal.Stages.biasRelu`). -/
theorem arr1 (c : Dev nD) :
    (dat1 (F := Ideal) V c).arrAt 2 cfg1.N
      = Cert.ReferenceIdeal.Stages.biasRelu (F := Ideal) (V c main_v53) (V c main_v54) :=
  (dat1 (F := Ideal) V c).arrAt_eq_of_cover 2 _ (fun t _ => flushed1_eq V c t) (fun i => covered1_2 i)

end Cert.KernelIdeal.Hand

end
-- ==== Proof.KI.Val2.lean ====
/-
  What region 2 leaves in its result array, over the extended reals: the fifty product blocks tile the 100000×64
  array, and row i, column j of it is Σ_k h[i, k] · w[k, j] — the reference's whole matrix product of the hidden
  features and the second weight matrix.
-/
import proofs.«420483_j44942537786128_1_alg».proof.Proof.KI.Reg2
import proofs.«420483_j44942537786128_1_alg».proof.Proof.RefStages
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal.Gen

/-! ## The block product at an index -/

/-- The product's row coordinate is the left operand's row, -/
theorem lhs_k2_0 (i : S2000x64.Idx) (q : Cert.KernelIdeal.dot_S2000x128_S128x64_S2000x64_1_0_0_1_n_n.contr.Idx) :
    (Cert.KernelIdeal.dot_S2000x128_S128x64_S2000x64_1_0_0_1_n_n.lhsIdx i q 0).val = (i 0).val := by
  unfold DotDims.lhsIdx
  rw [dif_neg (show ¬(0 : Fin S2000x128.rank) ∈ Cert.KernelIdeal.dot_S2000x128_S128x64_S2000x64_1_0_0_1_n_n.lhsBatch by decide), dif_pos (show (0 : Fin S2000x128.rank) ∈ Cert.KernelIdeal.dot_S2000x128_S128x64_S2000x64_1_0_0_1_n_n.lhsNonContracting by decide)]
  rfl
/-- the contraction index is the left operand's column -/
theorem lhs_k2_1 (i : S2000x64.Idx) (q : Cert.KernelIdeal.dot_S2000x128_S128x64_S2000x64_1_0_0_1_n_n.contr.Idx) :
    (Cert.KernelIdeal.dot_S2000x128_S128x64_S2000x64_1_0_0_1_n_n.lhsIdx i q 1).val = (q ⟨0, by decide⟩).val :=
  Cert.KernelIdeal.dot_S2000x128_S128x64_S2000x64_1_0_0_1_n_n.lhsIdx_val_of_single rfl i q
/-- and the right operand's row, -/
theorem rhs_k2_0 (i : S2000x64.Idx) (q : Cert.KernelIdeal.dot_S2000x128_S128x64_S2000x64_1_0_0_1_n_n.contr.Idx) :
    (Cert.KernelIdeal.dot_S2000x128_S128x64_S2000x64_1_0_0_1_n_n.rhsIdx i q 0).val = (q ⟨0, by decide⟩).val :=
  Cert.KernelIdeal.dot_S2000x128_S128x64_S2000x64_1_0_0_1_n_n.rhsIdx_val_of_single rfl i q
/-- and the product's column coordinate is the right operand's column. -/
theorem rhs_k2_1 (i : S2000x64.Idx) (q : Cert.KernelIdeal.dot_S2000x128_S128x64_S2000x64_1_0_0_1_n_n.contr.Idx) :
    (Cert.KernelIdeal.dot_S2000x128_S128x64_S2000x64_1_0_0_1_n_n.rhsIdx i q 1).val = (i 1).val := by
  unfold DotDims.rhsIdx
  rw [dif_neg (show ¬(1 : Fin S128x64.rank) ∈ Cert.KernelIdeal.dot_S2000x128_S128x64_S2000x64_1_0_0_1_n_n.rhsBatch by decide), dif_pos (show (1 : Fin S128x64.rank) ∈ Cert.KernelIdeal.dot_S2000x128_S128x64_S2000x64_1_0_0_1_n_n.rhsNonContracting by decide)]
  rfl

/-- Over the extended reals the block product at row p, column q is Σ_k x[p, k] · w[k, q]: the cast to the same shape
    and the roundings to bf16 are the identity there and the accumulator starts at zero. -/
theorem prod2_apply (x : Vec Ideal S2000x128 .f32) (w : Vec Ideal S128x64 .f32) (p : Fin 2000) (q : Fin 64) :
    prod2 (F := Ideal) x w (ix2 p q) = ∑ k : Fin 128, x (ix2 p k) * w (ix2 k q) := by
  unfold prod2 k2_pay1
  rw [shapeCast_self]
  refine (Ideal.matmul_constant_zero_apply Cert.KernelIdeal.dot_S2000x128_S128x64_S2000x64_1_0_0_1_n_n none _ _ (ix2 p q)).trans ?_
  rw [← Equiv.sum_comp (ValueIdx.contrEquiv1 Cert.KernelIdeal.dot_S2000x128_S128x64_S2000x64_1_0_0_1_n_n 128 rfl rfl).symm]
  refine Finset.sum_congr rfl fun k _ => ?_
  have hk := ValueIdx.contrEquiv1_symm_val Cert.KernelIdeal.dot_S2000x128_S128x64_S2000x64_1_0_0_1_n_n 128 rfl rfl k
  have el : Cert.KernelIdeal.dot_S2000x128_S128x64_S2000x64_1_0_0_1_n_n.lhsIdx (ix2 p q) ((ValueIdx.contrEquiv1 Cert.KernelIdeal.dot_S2000x128_S128x64_S2000x64_1_0_0_1_n_n 128 rfl rfl).symm k) = ix2 p k := funext fun a => Fin.ext (by
    match a with
    | ⟨0, _⟩ => exact lhs_k2_0 _ _
    | ⟨1, _⟩ => exact (lhs_k2_1 _ _).trans hk)
  have er : Cert.KernelIdeal.dot_S2000x128_S128x64_S2000x64_1_0_0_1_n_n.rhsIdx (ix2 p q) ((ValueIdx.contrEquiv1 Cert.KernelIdeal.dot_S2000x128_S128x64_S2000x64_1_0_0_1_n_n 128 rfl rfl).symm k) = ix2 k q := funext fun a => Fin.ext (by
    match a with
    | ⟨0, _⟩ => exact (rhs_k2_0 _ _).trans hk
    | ⟨1, _⟩ => exact rhs_k2_1 _ _)
  rw [el, er]
  rfl

/-! ## The reference's product at an index -/

/-- Over the extended reals the reference's second product at row r, column q is Σ_k h[r, k] · w[k, q]. -/
theorem dot2_apply (h : (⟨Cert.ReferenceIdeal.S100000x128, .f32⟩ : BufTy).Contents (Elt Ideal)) (w : (⟨Cert.ReferenceIdeal.S128x64, .f32⟩ : BufTy).Contents (Elt Ideal))
    (r : Fin 100000) (q : Fin 64) :
    Cert.ReferenceIdeal.Stages.dot2 (F := Ideal) h w (ix2 r q) = ∑ k : Fin 128, h (ix2 r k) * w (ix2 k q) := by
  unfold Cert.ReferenceIdeal.Stages.dot2
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ix2 r q) ((ValueIdx.contrEquiv1 Cert.ReferenceIdeal.dot_S100000x128_S128x64_S100000x64_1_0_0_1_n_n 128 rfl rfl).symm k) = ix2 r k := funext fun a => Fin.ext (by
    match a with
    | ⟨0, _⟩ => exact Cert.ReferenceIdeal.ReadP.lhs_main_v58_0 _ _
    | ⟨1, _⟩ => exact (Cert.ReferenceIdeal.ReadP.lhs_main_v58_1 _ _).trans hk)
  have er : Cert.ReferenceIdeal.dot_S100000x128_S128x64_S100000x64_1_0_0_1_n_n.rhsIdx (ix2 r q) ((ValueIdx.contrEquiv1 Cert.ReferenceIdeal.dot_S100000x128_S128x64_S100000x64_1_0_0_1_n_n 128 rfl rfl).symm k) = ix2 k q := funext fun a => Fin.ext (by
    match a with
    | ⟨0, _⟩ => exact (Cert.ReferenceIdeal.ReadP.rhs_main_v58_0 _ _).trans hk
    | ⟨1, _⟩ => exact Cert.ReferenceIdeal.ReadP.rhs_main_v58_1 _ _)
  rw [el, er]

variable (V : (c : Dev nD) → (b : Ref sig .tc) → Buf (Elt Ideal) ((c : Thread nD τ).loc b))

/-! ## The blocks in their arrays -/

/-- The printed index maps over the grid: the hidden-feature window and the result window sit at block (t, 0), the
    weight window at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p, column q of the hidden-feature block at point t is row 2000·t + p, column q of the hidden-feature array. -/
theorem blk2_0_apply (c : Dev nD) (t : Fin cfg2.N) (p : Fin 2000) (q : Fin 128) :
    blk2 V c 0 t (ix2 p q) = V c main_v55 (ix2 (n0 := 100000) ⟨2000 * t.val + p.val, by have ht : t.val < 50 := t.isLt; omega⟩ q) := by
  obtain ⟨e0, e1, -, -, -, -⟩ := idx_facts2 t
  unfold blk2
  show V c main_v55 (((cfg2.win 0).blk t).view.emb (ix2 p q)) = _
  refine congrArg (V c main_v55) (funext fun a => Fin.ext ?_)
  match a with
  | ⟨0, _⟩ => show win2_0.index t (0 : Fin 2) * 2000 + 1 * p.val = 2000 * t.val + p.val; omega
  | ⟨1, _⟩ => show win2_0.index t (1 : Fin 2) * 128 + 1 * q.val = q.val; omega

/-- The weight block at every point is the weight array. -/
theorem blk2_1_apply (c : Dev nD) (t : Fin cfg2.N) (p : Fin 128) (q : Fin 64) :
    blk2 V c 1 t (ix2 p q) = V c main_arg5 (ix2 p q) := by
  obtain ⟨-, -, e2, e3, -, -⟩ := idx_facts2 t
  unfold blk2
  show V c main_arg5 (((cfg2.win 1).blk t).view.emb (ix2 p q)) = _
  refine congrArg (V c main_arg5) (funext fun a => Fin.ext ?_)
  match a with
  | ⟨0, _⟩ => show win2_1.index t (0 : Fin 2) * 128 + 1 * p.val = p.val; omega
  | ⟨1, _⟩ => show win2_1.index t (1 : Fin 2) * 64 + 1 * q.val = q.val; omega

/-! ## What a point writes back, and where -/

/-- Row p, column q of the result block at point t sits at row 2000·t + p, column q of the result array. -/
theorem emb2_2 (t : Fin cfg2.N) (p : Fin 2000) (q : Fin 64) :
    ((cfg2.win 2).blk t).view.emb (ix2 p q) = ix2 (n0 := 100000) ⟨2000 * t.val + p.val, by have ht : t.val < 50 := t.isLt; omega⟩ q := by
  obtain ⟨-, -, -, -, e4, e5⟩ := idx_facts2 t
  refine funext fun a => Fin.ext ?_
  match a with
  | ⟨0, _⟩ => show win2_2.index t (0 : Fin 2) * 2000 + 1 * p.val = 2000 * t.val + p.val; omega
  | ⟨1, _⟩ => show win2_2.index t (1 : Fin 2) * 64 + 1 * q.val = q.val; omega

/-- What point t writes back is block t of the reference's matrix product: at row p, column q both are
    Σ_k h[2000·t + p, k] · w[k, q]. -/
theorem flushed2_eq (c : Dev nD) (t : Fin cfg2.N) :
    (dat2 (F := Ideal) V c).flushed 2 t
      = ((cfg2.win 2).blk t).view.read (Elt Ideal) (Cert.ReferenceIdeal.Stages.dot2 (F := Ideal) (V c main_v55) (V c main_arg5)) := by
  show (cfg2.win 2).cut (grid2.coords t) ((dat2 (F := Ideal) V c).after 2 t) = _
  rw [after2_2]
  funext y
  obtain ⟨p, q, rfl⟩ : ∃ (p : Fin 2000) (q : Fin 64), y = ix2 p q := ⟨y 0, y 1, eq_ix2 y⟩
  show prod2 (F := Ideal) (blk2 V c 0 t) (blk2 V c 1 t) (ix2 p q)
    = Cert.ReferenceIdeal.Stages.dot2 (F := Ideal) (V c main_v55) (V c main_arg5) (((cfg2.win 2).blk t).view.emb (ix2 p q))
  refine (prod2_apply _ _ p q).trans ?_
  refine Eq.trans ?_ (congrArg (Cert.ReferenceIdeal.Stages.dot2 (F := Ideal) (V c main_v55) (V c main_arg5)) (emb2_2 t p q)).symm
  refine Eq.trans ?_ (dot2_apply _ _ _ _).symm
  refine Finset.sum_congr rfl fun k _ => ?_
  rw [blk2_0_apply, blk2_1_apply]

/-- An index of the result array is in point t's block iff each coordinate is in the block's range on its axis. -/
theorem mem_blk2_2 (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v56).slice (win2_2.rect t)).set ↔ _
  rw [View.set_slice_whole, Rect.mem_set_unit]
  exact Iff.rfl

/-- The fifty blocks tile the result array: row r is in the block of point r / 2000. -/
theorem cover2_2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  refine ⟨⟨(i 0).val / 2000, by show (i 0).val / 2000 < 50; omega⟩, flush2_2 _, ?_⟩
  obtain ⟨-, -, -, -, e4, e5⟩ := idx_facts2 ⟨(i 0).val / 2000, by show (i 0).val / 2000 < 50; omega⟩
  rw [mem_blk2_2]
  intro a
  match a with
  | ⟨0, _⟩ => show win2_2.index _ (0 : Fin 2) * 2000 ≤ (i 0).val ∧ (i 0).val < win2_2.index _ (0 : Fin 2) * 2000 + 2000; rw [e4]; show (i 0).val / 2000 * 2000 ≤ (i 0).val ∧ (i 0).val < (i 0).val / 2000 * 2000 + 2000; omega
  | ⟨1, _⟩ => show win2_2.index _ (1 : Fin 2) * 64 ≤ (i 1).val ∧ (i 1).val < win2_2.index _ (1 : Fin 2) * 64 + 64; rw [e5]; omega

/-- Region 2's result array after the region is the reference's second matrix product of the region's two input arrays. -/
theorem arr2 (c : Dev nD) :
    (dat2 (F := Ideal) V c).arrAt 2 cfg2.N
      = Cert.ReferenceIdeal.Stages.dot2 (F := Ideal) (V c main_v55) (V c main_arg5) :=
  (dat2 (F := Ideal) V c).arrAt_eq_of_cover 2 _ (fun t _ => flushed2_eq V c t) cover2_2

end Cert.KernelIdeal.Hand

end
-- ==== Proof.KI.Val3a.lean ====
/-
  What region 3 leaves in its result array, at any float instance: the result window has ONE block, the whole
  64×64 array, written back once, after the last of the fifty points; so the array ends at what the last point
  stored: (running sums after point 49) / max(running counts after point 49, 1).
-/
import proofs.«420483_j44942537786128_1_alg».proof.Proof.KI.Reg3
import proofs.«420483_j44942537786128_1_alg».proof.Proof.Gen.KernelIdeal.Launch
import proofs.«420483_j44942537786128_1_alg».proof.Proof.Gen.KernelIdeal.Skeleton
import proofs.«420483_j44942537786128_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The result window's block index is (0, 0) at every point. -/
theorem idx3_3 : ∀ t : Fin cfg3.N, win3_3.index t (0 : Fin 2) = 0 ∧ win3_3.index t (1 : Fin 2) = 0 :=
  (by decide +kernel : ∀ t : Fin grid3.N, _)

/-- The result window's block at any point is the whole 64×64 array: an index of the block sits at itself. -/
theorem emb3_3 (t : Fin cfg3.N) (j : S64x64.Idx) : ((cfg3.win 3).blk t).view.emb j = j := by
  obtain ⟨e0, e1⟩ := idx3_3 t
  funext a; apply Fin.ext
  match a with
  | ⟨0, _⟩ => show win3_3.index t (0 : Fin 2) * 64 + 1 * (j 0).val = (j 0).val; omega
  | ⟨1, _⟩ => show win3_3.index t (1 : Fin 2) * 64 + 1 * (j 1).val = (j 1).val; omega

/-- So reading a 64×64 array through the block reads the array. -/
theorem read3_3 (t : Fin cfg3.N) (G : Vec F S64x64 .f32) : ((cfg3.win 3).blk t).view.read (Elt F) G = G := by
  funext j
  show G (((cfg3.win 3).blk t).view.emb j) = G j
  rw [emb3_3]

/-- Every index of the array lies in the block. -/
theorem mem3_3 (t : Fin cfg3.N) (i : S64x64.Idx) : i ∈ ((cfg3.win 3).blk t).view.set := by
  obtain ⟨e0, e1⟩ := idx3_3 t
  show i ∈ ((View.whole main_v108).slice (win3_3.rect t)).set
  rw [View.set_slice_whole, Rect.mem_set_unit]
  intro a
  match a with
  | ⟨0, _⟩ =>
    show win3_3.index t (0 : Fin 2) * 64 ≤ (i 0).val ∧ (i 0).val < win3_3.index t (0 : Fin 2) * 64 + 64
    have hi : (i 0).val < 64 := (i 0).isLt; omega
  | ⟨1, _⟩ =>
    show win3_3.index t (1 : Fin 2) * 64 ≤ (i 1).val ∧ (i 1).val < win3_3.index t (1 : Fin 2) * 64 + 64
    have hi : (i 1).val < 64 := (i 1).isLt; omega

/-- Region 3's result array after the region. -/
theorem arr3_last (c : Dev nD) :
    (dat3 V c).arrAt 3 cfg3.N = k3_pay6 (accS V c 49 (by decide)) (accC V c 49 (by decide)) := by
  refine (dat3 V c).arrAt_eq_of_cover 3 _ ?_ ?_
  · intro t hf
    have h49 : t.val = 49 := by
      have h := (flush3_3 t).mp hf
      have hN : t.val < 50 := lt_of_lt_of_eq t.isLt (show cfg3.N = 50 from N_3)
      omega
    obtain ⟨n, hn⟩ := t
    have e : n = 49 := h49
    subst e
    rw [read3_3]
    show (dat3 V c).after 3 ⟨49, hn⟩ = _
    rw [after3_3]
  · intro i
    exact ⟨⟨49, by decide⟩, (flush3_3 _).mpr (by decide), mem3_3 _ i⟩

end Cert.KernelIdeal.Hand

end
-- ==== Proof.PoolSpec.lean ====
/-
  The pooled mean, as one formula. Row r of the 100000 rows belongs to graph g when its graph id, a 32-bit word,
  is the word g. For graph g and feature f the result is
      ( Σ_r [row r belongs to g] · (X[r, f] + b[0, f]) ) / max( Σ_r [row r belongs to g] · 1 , 1 )
  over the extended reals, the sums over all 100000 rows.
-/
import Idealize.ShloMosaic.PureOps.Ideal
import Idealize.ShloMosaic.Lib.ValueIdx

noncomputable section

namespace Cert.PoolSpec

open Idealize.ShloMosaic Idealize.ShloMosaic.ValueIdx

/-- The indicator "the word b is the graph number g", as an extended real. -/
def hot (b : BitVec 32) (g : Fin 64) : EReal := if b = BitVec.ofNat 32 g.val then 1 else 0

/-- The sum of the biased features of graph g's rows, feature f. -/
def poolSum (X : (⟨2, ![100000, 64]⟩ : Shape).Idx → EReal) (b : (⟨2, ![1, 64]⟩ : Shape).Idx → EReal)
    (t : (⟨2, ![100000, 1]⟩ : Shape).Idx → BitVec 32) (g f : Fin 64) : EReal :=
  ∑ r : Fin 100000, hot (t (ix2 r (0 : Fin 1))) g * (X (ix2 r f) + b (ix2 (0 : Fin 1) f))

/-- The number of graph g's rows. -/
def poolCnt (t : (⟨2, ![100000, 1]⟩ : Shape).Idx → BitVec 32) (g : Fin 64) : EReal :=
  ∑ r : Fin 100000, hot (t (ix2 r (0 : Fin 1))) g * 1

/-- The pooled mean. -/
def pool (X : (⟨2, ![100000, 64]⟩ : Shape).Idx → EReal) (b : (⟨2, ![1, 64]⟩ : Shape).Idx → EReal)
    (t : (⟨2, ![100000, 1]⟩ : Shape).Idx → BitVec 32) : (⟨2, ![64, 64]⟩ : Shape).Idx → EReal :=
  fun i => Ideal.div (poolSum X b t (i 0) (i 1)) (max (poolCnt t (i 0)) 1)

end Cert.PoolSpec

end
-- ==== Proof.KI.Val3b.lean ====
/-
  The running sums and counts of region 3 over the extended reals. After point n the sums hold, for graph g and
  feature f, Σ over the first 2000·(n+1) rows r of [row r belongs to g] · (X[r, f] + b[0, f]), and the counts the same
  sum of [row r belongs to g] · 1: at each point the indicator matrix's transpose times the biased block adds the
  block's 2000 rows (0 · x = 0 and 1 · x = x for every extended real x, infinite ones included). After the last
  point the sums run over all 100000 rows, and the stored quotient is the pooled mean of PoolSpec.
-/
import proofs.«420483_j44942537786128_1_alg».proof.Proof.KI.Val3a
import proofs.«420483_j44942537786128_1_alg».proof.Proof.PoolSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import Idealize.ShloMosaic.Lib.KernelVsHost

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal.Gen

variable (V : (c : Dev nD) → (b : Ref sig .tc) → Buf (Elt Ideal) ((c : Thread nD τ).loc b))

namespace Pool3

/-- The one-bit word 1, widened to 32 bits and converted, is the extended real 1; the word 0 gives 0. -/
theorem sitofp_bit_one : FloatOps.sitofp (F := Ideal) .f32 ((1#1 : BitVec 1).setWidth 32) = (1 : EReal) := by
  show ((((1#1 : BitVec 1).setWidth 32).toInt : ℝ) : EReal) = 1
  rw [toInt_setWidth_bit]; norm_num
theorem sitofp_bit_zero : FloatOps.sitofp (F := Ideal) .f32 ((0#1 : BitVec 1).setWidth 32) = (0 : EReal) := by
  show ((((0#1 : BitVec 1).setWidth 32).toInt : ℝ) : EReal) = 0
  rw [toInt_setWidth_bit]; norm_num

/-- The indicator matrix at row p, graph g: 1 when row p's graph id is the word g, else 0 (the id, copied along the
    row, is compared with the column number). -/
theorem pay3_apply (x2 : Vec Ideal S2000x1 .i32) (p : Fin 2000) (g : Fin 64) :
    k3_pay3 (F := Ideal) x2 (ix2 p g) = Cert.PoolSpec.hot (x2 (ix2 p (0 : Fin 1))) g := by
  unfold k3_pay3
  rw [shapeCast_self]
  rw [sitofp_apply, extui_apply]
  show FloatOps.sitofp .f32 ((IntOp.cmpi .eq (broadcastTo S2000x64 x2 broadcasts_S2000x1_S2000x64 (ix2 p g)) (iota .tc S2000x64 32 [1] iota_S2000x64_d1_w32 (ix2 p g))).setWidth 32) = _
  rw [broadcastTo_apply x2 broadcasts_S2000x1_S2000x64 (ix2 p g) (ix2 p (0 : Fin 1)) (fun a => by
    match a with
    | ⟨0, _⟩ => rfl
    | ⟨1, _⟩ => rfl), iota_single_apply]
  show FloatOps.sitofp .f32 ((IntOp.cmpi .eq (x2 (ix2 p (0 : Fin 1))) (BitVec.ofNat 32 g.val)).setWidth 32) = _
  unfold Cert.PoolSpec.hot
  by_cases h : x2 (ix2 p (0 : Fin 1)) = BitVec.ofNat 32 g.val
  · rw [if_pos h, IntOp.cmpi_eq.mpr h, sitofp_bit_one]
  · rw [if_neg h, eq_zero_of_ne_one (mt IntOp.cmpi_eq.mp h), sitofp_bit_zero]

/-! The product (indicator)ᵀ · (block + bias) contracts the ROW axis of both operands: at result index (g, f) and
    row k the left operand is read at (k, g) and the right at (k, f). -/
theorem lhs4_0 (j : S64x64.Idx) (q : dot_S2000x64_S2000x64_S64x64_0_0_1_1_n_n.contr.Idx) :
    (dot_S2000x64_S2000x64_S64x64_0_0_1_1_n_n.lhsIdx j q 0).val = (q ⟨0, by decide⟩).val :=
  dot_S2000x64_S2000x64_S64x64_0_0_1_1_n_n.lhsIdx_val_of_single rfl j q
theorem lhs4_1 (j : S64x64.Idx) (q : dot_S2000x64_S2000x64_S64x64_0_0_1_1_n_n.contr.Idx) :
    (dot_S2000x64_S2000x64_S64x64_0_0_1_1_n_n.lhsIdx j q 1).val = (j 0).val := by
  unfold DotDims.lhsIdx
  rw [dif_neg (show ¬(1 : Fin S2000x64.rank) ∈ dot_S2000x64_S2000x64_S64x64_0_0_1_1_n_n.lhsBatch by decide), dif_pos (show (1 : Fin S2000x64.rank) ∈ dot_S2000x64_S2000x64_S64x64_0_0_1_1_n_n.lhsNonContracting by decide)]
  rfl
theorem rhs4_0 (j : S64x64.Idx) (q : dot_S2000x64_S2000x64_S64x64_0_0_1_1_n_n.contr.Idx) :
    (dot_S2000x64_S2000x64_S64x64_0_0_1_1_n_n.rhsIdx j q 0).val = (q ⟨0, by decide⟩).val :=
  dot_S2000x64_S2000x64_S64x64_0_0_1_1_n_n.rhsIdx_val_of_single rfl j q
theorem rhs4_1 (j : S64x64.Idx) (q : dot_S2000x64_S2000x64_S64x64_0_0_1_1_n_n.contr.Idx) :
    (dot_S2000x64_S2000x64_S64x64_0_0_1_1_n_n.rhsIdx j q 1).val = (j 1).val := by
  unfold DotDims.rhsIdx
  rw [dif_neg (show ¬(1 : Fin S2000x64.rank) ∈ dot_S2000x64_S2000x64_S64x64_0_0_1_1_n_n.rhsBatch by decide), dif_pos (show (1 : Fin S2000x64.rank) ∈ dot_S2000x64_S2000x64_S64x64_0_0_1_1_n_n.rhsNonContracting by decide)]
  rfl

/-- The sums' step at graph g, feature f: what was there plus Σ over the block's rows p of
    [row p belongs to g] · (x0[p, f] + x1[0, f]). -/
theorem pay4_apply (x0 : Vec Ideal S2000x64 .f32) (x1 : Vec Ideal S1x64 .f32) (x2 : Vec Ideal S2000x1 .i32)
    (s : Vec Ideal S64x64 .f32) (g f : Fin 64) :
    k3_pay4 (F := Ideal) x0 x1 x2 s (ix2 g f)
      = s (ix2 g f) + ∑ p : Fin 2000, Cert.PoolSpec.hot (x2 (ix2 p (0 : Fin 1))) g * (x0 (ix2 p f) + x1 (ix2 (0 : Fin 1) f)) := by
  unfold k3_pay4
  simp only [shapeCast_self]
  rw [addf_apply]
  refine congrArg (s (ix2 g f) + ·) ?_
  simp only [matmul]
  rw [Ideal.matmul_constant_zero_apply, ← Equiv.sum_comp (contrEquiv1 dot_S2000x64_S2000x64_S64x64_0_0_1_1_n_n 2000 rfl rfl).symm]
  refine Finset.sum_congr rfl fun k _ => ?_
  have hk := contrEquiv1_symm_val dot_S2000x64_S2000x64_S64x64_0_0_1_1_n_n 2000 rfl rfl k
  have el : dot_S2000x64_S2000x64_S64x64_0_0_1_1_n_n.lhsIdx (ix2 g f) ((contrEquiv1 dot_S2000x64_S2000x64_S64x64_0_0_1_1_n_n 2000 rfl rfl).symm k) = ix2 k g := funext fun a => Fin.ext (by
    match a with
    | ⟨0, _⟩ => exact (lhs4_0 _ _).trans hk
    | ⟨1, _⟩ => exact lhs4_1 _ _)
  have er : dot_S2000x64_S2000x64_S64x64_0_0_1_1_n_n.rhsIdx (ix2 g f) ((contrEquiv1 dot_S2000x64_S2000x64_S64x64_0_0_1_1_n_n 2000 rfl rfl).symm k) = ix2 k f := funext fun a => Fin.ext (by
    match a with
    | ⟨0, _⟩ => exact (rhs4_0 _ _).trans hk
    | ⟨1, _⟩ => exact rhs4_1 _ _)
  rw [el, er, pay3_apply, addf_apply, broadcastTo_apply x1 broadcasts_S1x64_S2000x64 (ix2 k f) (ix2 (0 : Fin 1) f) (fun a => by
    match a with
    | ⟨0, _⟩ => rfl
    | ⟨1, _⟩ => rfl)]

/-! The same for the product (indicator)ᵀ · ones, whose right operand has one column. -/
theorem lhs5_0 (j : S64x1.Idx) (q : dot_S2000x64_S2000x1_S64x1_0_0_1_1_n_n.contr.Idx) :
    (dot_S2000x64_S2000x1_S64x1_0_0_1_1_n_n.lhsIdx j q 0).val = (q ⟨0, by decide⟩).val :=
  dot_S2000x64_S2000x1_S64x1_0_0_1_1_n_n.lhsIdx_val_of_single rfl j q
theorem lhs5_1 (j : S64x1.Idx) (q : dot_S2000x64_S2000x1_S64x1_0_0_1_1_n_n.contr.Idx) :
    (dot_S2000x64_S2000x1_S64x1_0_0_1_1_n_n.lhsIdx j q 1).val = (j 0).val := by
  unfold DotDims.lhsIdx
  rw [dif_neg (show ¬(1 : Fin S2000x64.rank) ∈ dot_S2000x64_S2000x1_S64x1_0_0_1_1_n_n.lhsBatch by decide), dif_pos (show (1 : Fin S2000x64.rank) ∈ dot_S2000x64_S2000x1_S64x1_0_0_1_1_n_n.lhsNonContracting by decide)]
  rfl
theorem rhs5_0 (j : S64x1.Idx) (q : dot_S2000x64_S2000x1_S64x1_0_0_1_1_n_n.contr.Idx) :
    (dot_S2000x64_S2000x1_S64x1_0_0_1_1_n_n.rhsIdx j q 0).val = (q ⟨0, by decide⟩).val :=
  dot_S2000x64_S2000x1_S64x1_0_0_1_1_n_n.rhsIdx_val_of_single rfl j q

/-- The counts' step at graph g: what was there plus Σ over the block's rows p of [row p belongs to g] · 1. -/
theorem pay5_apply (x2 : Vec Ideal S2000x1 .i32) (s : Vec Ideal S64x1 .f32) (g : Fin 64) :
    k3_pay5 (F := Ideal) x2 s (ix2 g (0 : Fin 1))
      = s (ix2 g (0 : Fin 1)) + ∑ p : Fin 2000, Cert.PoolSpec.hot (x2 (ix2 p (0 : Fin 1))) g * 1 := by
  unfold k3_pay5
  simp only [shapeCast_self]
  rw [addf_apply]
  refine congrArg (s (ix2 g (0 : Fin 1)) + ·) ?_
  simp only [matmul]
  rw [Ideal.matmul_constant_zero_apply, ← Equiv.sum_comp (contrEquiv1 dot_S2000x64_S2000x1_S64x1_0_0_1_1_n_n 2000 rfl rfl).symm]
  refine Finset.sum_congr rfl fun k _ => ?_
  have hk := contrEquiv1_symm_val dot_S2000x64_S2000x1_S64x1_0_0_1_1_n_n 2000 rfl rfl k
  have el : dot_S2000x64_S2000x1_S64x1_0_0_1_1_n_n.lhsIdx (ix2 g (0 : Fin 1)) ((contrEquiv1 dot_S2000x64_S2000x1_S64x1_0_0_1_1_n_n 2000 rfl rfl).symm k) = ix2 k g := funext fun a => Fin.ext (by
    match a with
    | ⟨0, _⟩ => exact (lhs5_0 _ _).trans hk
    | ⟨1, _⟩ => exact lhs5_1 _ _)
  rw [el, pay3_apply, broadcast_apply]
  show _ * Ideal.ofBits .f32 0x3F800000#32 = _
  rw [Ideal.ofBits_one_f32]

/-- The cleared running sums and counts are zero everywhere. -/
theorem pay1_apply (i : S64x64.Idx) : k3_pay1 (F := Ideal) i = 0 := by
  unfold k3_pay1
  rw [shapeCast_self, broadcast_apply]
  exact Ideal.ofBits_zero_f32
theorem pay2_apply (i : S64x1.Idx) : k3_pay2 (F := Ideal) i = 0 := by
  unfold k3_pay2
  rw [shapeCast_self, broadcast_apply]
  exact Ideal.ofBits_zero_f32

/-- The stored quotient at graph g, feature f: the sum there over max(the count of g, 1). -/
theorem pay6_apply (S : Vec Ideal S64x64 .f32) (C : Vec Ideal S64x1 .f32) (g f : Fin 64) :
    k3_pay6 (F := Ideal) S C (ix2 g f) = Ideal.div (S (ix2 g f)) (max (C (ix2 g (0 : Fin 1))) 1) := by
  unfold k3_pay6
  rw [divf_apply, broadcastTo_apply _ broadcasts_S64x1_S64x64 (ix2 g f) (ix2 g (0 : Fin 1)) (fun a => by
    match a with
    | ⟨0, _⟩ => rfl
    | ⟨1, _⟩ => rfl), maximumf_apply, broadcast_apply]
  show Ideal.div _ (max _ (Ideal.ofBits .f32 0x3F800000#32)) = _
  rw [Ideal.ofBits_one_f32]

/-- Row number k of the 100000 rows (k < 100000 wherever it is used). -/
def row (k : ℕ) : Fin 100000 := ⟨k % 100000, Nat.mod_lt _ (by norm_num)⟩

/-- The printed index maps of the three input windows, decided over the fifty points: the feature and graph-id
    windows take block (t, 0) at point t, the bias window block (0, 0). -/
theorem idx3_in : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p, feature f of the feature block at point t is row 2000·t + p of the feature array. -/
theorem blk3_0_apply (c : Dev nD) (t : Fin cfg3.N) (p : Fin 2000) (f : Fin 64) :
    blk3 V c 0 t (ix2 p f) = V c main_v105 (ix2 (row (2000 * t.val + p.val)) f) := by
  obtain ⟨e0, e1, -, -, -, -⟩ := idx3_in t
  have hN : t.val < 50 := lt_of_lt_of_eq t.isLt (show cfg3.N = 50 from N_3)
  show V c main_v105 (((cfg3.win 0).blk t).view.emb (ix2 p f)) = _
  refine congrArg (V c main_v105) (funext fun a => Fin.ext ?_)
  match a with
  | ⟨0, _⟩ => show win3_0.index t (0 : Fin 2) * 2000 + 1 * p.val = (2000 * t.val + p.val) % 100000; omega
  | ⟨1, _⟩ => show win3_0.index t (1 : Fin 2) * 64 + 1 * f.val = f.val; omega

/-- The bias block at any point is the bias row. -/
theorem blk3_1_apply (c : Dev nD) (t : Fin cfg3.N) (f : Fin 64) :
    blk3 V c 1 t (ix2 (0 : Fin 1) f) = V c main_v106 (ix2 (0 : Fin 1) f) := by
  obtain ⟨-, -, e0, e1, -, -⟩ := idx3_in t
  show V c main_v106 (((cfg3.win 1).blk t).view.emb (ix2 (0 : Fin 1) f)) = _
  refine congrArg (V c main_v106) (funext fun a => Fin.ext ?_)
  match a with
  | ⟨0, _⟩ => show win3_1.index t (0 : Fin 2) * 1 + 1 * 0 = 0; omega
  | ⟨1, _⟩ => show win3_1.index t (1 : Fin 2) * 64 + 1 * f.val = f.val; omega

/-- Row p of the graph-id block at point t is row 2000·t + p of the graph-id array. -/
theorem blk3_2_apply (c : Dev nD) (t : Fin cfg3.N) (p : Fin 2000) :
    blk3 V c 2 t (ix2 p (0 : Fin 1)) = V c main_v107 (ix2 (row (2000 * t.val + p.val)) (0 : Fin 1)) := by
  obtain ⟨-, -, -, -, e0, e1⟩ := idx3_in t
  have hN : t.val < 50 := lt_of_lt_of_eq t.isLt (show cfg3.N = 50 from N_3)
  show V c main_v107 (((cfg3.win 2).blk t).view.emb (ix2 p (0 : Fin 1))) = _
  refine congrArg (V c main_v107) (funext fun a => Fin.ext ?_)
  match a with
  | ⟨0, _⟩ => show win3_2.index t (0 : Fin 2) * 2000 + 1 * p.val = (2000 * t.val + p.val) % 100000; omega
  | ⟨1, _⟩ => show win3_2.index t (1 : Fin 2) * 1 + 1 * 0 = 0; omega

/-- Row r's contribution to graph g's sum at feature f, -/
def termS (X : (⟨2, ![100000, 64]⟩ : Shape).Idx → EReal) (b : (⟨2, ![1, 64]⟩ : Shape).Idx → EReal)
    (B : (⟨2, ![100000, 1]⟩ : Shape).Idx → BitVec 32) (g f : Fin 64) (r : Fin 100000) : EReal :=
  Cert.PoolSpec.hot (B (ix2 r (0 : Fin 1))) g * (X (ix2 r f) + b (ix2 (0 : Fin 1) f))
/-- and to its count. -/
def termC (B : (⟨2, ![100000, 1]⟩ : Shape).Idx → BitVec 32) (g : Fin 64) (r : Fin 100000) : EReal :=
  Cert.PoolSpec.hot (B (ix2 r (0 : Fin 1))) g * 1

/-- The fifty blocks of 2000 rows are the 100000 rows: a sum over the rows is the sum over the points of the sums
    over each point's block. -/
theorem sum_rows (F : Fin 100000 → EReal) :
    ∑ t ∈ Finset.range 50, ∑ p : Fin 2000, F (row (2000 * t + p.val)) = ∑ r : Fin 100000, F r := by
  rw [← Fin.sum_univ_eq_sum_range (fun t => ∑ p : Fin 2000, F (row (2000 * t + p.val))) 50]
  rw [← Equiv.sum_comp (finProdFinEquiv (m := 50) (n := 2000)) F, Fintype.sum_prod_type]
  refine Finset.sum_congr rfl fun t _ => Finset.sum_congr rfl fun p _ => congrArg F (Fin.ext ?_)
  show (2000 * t.val + p.val) % 100000 = p.val + 2000 * t.val
  omega

/-! The running sums and counts, one point at a time. -/
theorem accS_zero (c : Dev nD) (h : 0 < cfg3.N) :
    accS V c 0 h = k3_pay4 (blk3 V c 0 ⟨0, h⟩) (blk3 V c 1 ⟨0, h⟩) (blk3 V c 2 ⟨0, h⟩) (k3_pay1 (F := Ideal)) := rfl
theorem accS_succ (c : Dev nD) (n : ℕ) (h : n + 1 < cfg3.N) :
    accS V c (n + 1) h = k3_pay4 (blk3 V c 0 ⟨n + 1, h⟩) (blk3 V c 1 ⟨n + 1, h⟩) (blk3 V c 2 ⟨n + 1, h⟩) (accS V c n (Nat.lt_of_succ_lt h)) := rfl
theorem accC_zero (c : Dev nD) (h : 0 < cfg3.N) :
    accC V c 0 h = k3_pay5 (blk3 V c 2 ⟨0, h⟩) (k3_pay2 (F := Ideal)) := rfl
theorem accC_succ (c : Dev nD) (n : ℕ) (h : n + 1 < cfg3.N) :
    accC V c (n + 1) h = k3_pay5 (blk3 V c 2 ⟨n + 1, h⟩) (accC V c n (Nat.lt_of_succ_lt h)) := rfl

/-- One point's step on the running sums: what was there plus the contributions of the point's 2000 rows. -/
theorem stepS (c : Dev nD) (t : Fin cfg3.N) (s : Vec Ideal S64x64 .f32) (g f : Fin 64) :
    k3_pay4 (F := Ideal) (blk3 V c 0 t) (blk3 V c 1 t) (blk3 V c 2 t) s (ix2 g f)
      = s (ix2 g f) + ∑ p : Fin 2000, termS (V c main_v105) (V c main_v106) (V c main_v107) g f (row (2000 * t.val + p.val)) := by
  rw [pay4_apply]
  refine congrArg (s (ix2 g f) + ·) (Finset.sum_congr rfl fun p _ => ?_)
  rw [blk3_2_apply, blk3_0_apply, blk3_1_apply]
  rfl
/-- One point's step on the running counts. -/
theorem stepC (c : Dev nD) (t : Fin cfg3.N) (s : Vec Ideal S64x1 .f32) (g : Fin 64) :
    k3_pay5 (F := Ideal) (blk3 V c 2 t) s (ix2 g (0 : Fin 1))
      = s (ix2 g (0 : Fin 1)) + ∑ p : Fin 2000, termC (V c main_v107) g (row (2000 * t.val + p.val)) := by
  rw [pay5_apply]
  refine congrArg (s (ix2 g (0 : Fin 1)) + ·) (Finset.sum_congr rfl fun p _ => ?_)
  rw [blk3_2_apply]
  rfl

/-- The running sums after point n: graph g's biased features over the first 2000·(n+1) rows. -/
theorem accS_apply (c : Dev nD) (g f : Fin 64) : ∀ (n : ℕ) (h : n < cfg3.N),
    accS V c n h (ix2 g f) = ∑ t ∈ Finset.range (n + 1), ∑ p : Fin 2000,
      termS (V c main_v105) (V c main_v106) (V c main_v107) g f (row (2000 * t + p.val))
  | 0, h => by
    rw [accS_zero, stepS, pay1_apply, zero_add, Finset.sum_range_one]
  | n + 1, h => by
    rw [accS_succ, stepS, accS_apply c g f n (Nat.lt_of_succ_lt h), Finset.sum_range_succ _ (n + 1)]

/-- The running counts after point n: the number of graph g's rows among the first 2000·(n+1). -/
theorem accC_apply (c : Dev nD) (g : Fin 64) : ∀ (n : ℕ) (h : n < cfg3.N),
    accC V c n h (ix2 g (0 : Fin 1)) = ∑ t ∈ Finset.range (n + 1), ∑ p : Fin 2000,
      termC (V c main_v107) g (row (2000 * t + p.val))
  | 0, h => by
    rw [accC_zero, stepC, pay2_apply, zero_add, Finset.sum_range_one]
  | n + 1, h => by
    rw [accC_succ, stepC, accC_apply c g n (Nat.lt_of_succ_lt h), Finset.sum_range_succ _ (n + 1)]

end Pool3

open Pool3

/-- Region 3's result array after the region is the pooled mean of its three input arrays: the aggregated features,
    the 1×64 bias row, the 100000×1 graph ids. -/
theorem arr3 (c : Dev nD) :
    (dat3 (F := Ideal) V c).arrAt 3 cfg3.N
      = Cert.PoolSpec.pool (V c main_v105) (V c main_v106) (V c main_v107) := by
  rw [arr3_last]
  funext i
  obtain ⟨g, f, rfl⟩ : ∃ (g : Fin 64) (f : Fin 64), i = ix2 g f := ⟨i 0, i 1, eq_ix2 i⟩
  rw [pay6_apply, accS_apply, accC_apply, sum_rows, sum_rows]
  rfl

end Cert.KernelIdeal.Hand

end
-- ==== Proof.RefPool.lean ====
/-
  The reference's pooling is the pooled mean of PoolSpec. The reference scatters the biased rows into a 64×64 zero
  array by graph id, adding (each element of the result is zero plus the sum of the update elements that land on
  it; an id outside 0 … 63 lands nowhere), scatters ones into 64 zero counts the same way, and divides the sums by
  max(counts, 1) broadcast over the features. Update element (r, f') lands on (g, f) exactly when f' = f and row r's
  id, read as a signed integer, is g — that is, when the id is the word g.
-/
import proofs.«420483_j44942537786128_1_alg».proof.Proof.RefStages
import proofs.«420483_j44942537786128_1_alg».proof.Proof.PoolSpec
import Idealize.ShloMosaic.Lib.Pipeline.Value
import Idealize.ShloMosaic.Lib.ValueIdx
import Idealize.ShloMosaic.Lib.ValueIdxRank1
import Idealize.ShloMosaic.Lib.ValueLayout
import Idealize.ShloMosaic.PureOps.Ideal.Laws

set_option maxRecDepth 16384

noncomputable section

namespace Cert.ReferenceIdeal.Pool

open Idealize.ShloMosaic Idealize.ShloMosaic.TcCoe Idealize.ShloMosaic.ValueIdx
open Cert.ReferenceIdeal Cert.ReferenceIdeal.Gen Cert.ReferenceIdeal.ReadP

/-- An update element lands on operand element i exactly when, on every operand axis, its window start plus its
    window coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    by_cases hb : ∀ a, 0 ≤ d.start j idx a + d.window j a ∧ d.start j idx a + d.window j a < s.size a
    · rw [dif_pos hb] at h
      have ha := congrArg Fin.val (congrFun (Option.some.inj h) a)
      have hba := hb a
      have hv : (d.start j idx a + d.window j a).toNat = (i a).val := ha
      omega
    · rw [dif_neg hb] at h
      exact absurd h (by simp)
  · intro h
    have hb : ∀ a, 0 ≤ d.start j idx a + d.window j a ∧ d.start j idx a + d.window j a < s.size a := by
      intro a
      rw [h a]
      exact ⟨by omega, by exact_mod_cast (i a).isLt⟩
    rw [dif_pos hb]
    congr 1
    funext a
    apply Fin.ext
    show (d.start j idx a + d.window j a).toNat = (i a).val
    rw [h a]
    simp only [Int.toNat_natCast]

/-- A 32-bit word read as a signed integer is g (below 64) exactly when it is the word g. -/
theorem toInt_eq_iff (w : BitVec 32) (g : Fin 64) : w.toInt = (g.val : Int) ↔ w = BitVec.ofNat 32 g.val := by
  have hw := w.isLt
  have hg := g.isLt
  constructor
  · intro h
    apply BitVec.eq_of_toNat_eq
    rw [BitVec.toNat_ofNat]
    rw [BitVec.toInt_eq_toNat_cond] at h
    split at h <;> omega
  · intro h
    subst h
    rw [BitVec.toInt_eq_toNat_cond, BitVec.toNat_ofNat]
    split <;> omega

/-! The 64×64 scatter's axes: the start on axis 0 is row r's id read signed, the window on axis 1 is the update's
    feature; the start on axis 1 and the window on axis 0 are zero. -/

theorem d1_start0 (j : S100000x64.Idx) (idx : IVec S100000x1 32) :
    scatter_S64x64_S100000x1_S100000x64_1_0_0_1.start j idx 0 = (idx (ix2 (j 0) (0 : Fin 1))).toInt := by
  unfold ScatterDims.start
  rw [dif_pos (show (0 : Fin S64x64.rank) ∈ scatter_S64x64_S100000x1_S100000x64_1_0_0_1.scatterDimsToOperandDims by decide)]
  congr 2
  funext b
  match b with
  | ⟨0, _⟩ => rfl
  | ⟨1, _⟩ => rfl

theorem d1_start1 (j : S100000x64.Idx) (idx : IVec S100000x1 32) :
    scatter_S64x64_S100000x1_S100000x64_1_0_0_1.start j idx 1 = 0 := by
  unfold ScatterDims.start
  rw [dif_neg (show ¬(1 : Fin S64x64.rank) ∈ scatter_S64x64_S100000x1_S100000x64_1_0_0_1.scatterDimsToOperandDims by decide)]

theorem d1_window0 (j : S100000x64.Idx) :
    scatter_S64x64_S100000x1_S100000x64_1_0_0_1.window j 0 = 0 := by
  unfold ScatterDims.window
  rw [dif_neg (show ¬(0 : Fin S64x64.rank) ∈ scatter_S64x64_S100000x1_S100000x64_1_0_0_1.sKept by decide)]

theorem d1_window1 (j : S100000x64.Idx) :
    scatter_S64x64_S100000x1_S100000x64_1_0_0_1.window j 1 = (j 1).val := by
  unfold ScatterDims.window
  rw [dif_pos (show (1 : Fin S64x64.rank) ∈ scatter_S64x64_S100000x1_S100000x64_1_0_0_1.sKept by decide)]
  rfl

/-- Update element (r, f') of the 64×64 scatter lands on (g, f) exactly when row r's id is the word g and f' = f. -/
theorem d1_lands (idx : IVec S100000x1 32) (r : Fin 100000) (f' g f : Fin 64) :
    scatter_S64x64_S100000x1_S100000x64_1_0_0_1.resultIdx? (ix2 r f') idx = some (ix2 g f)
      ↔ idx (ix2 r (0 : Fin 1)) = BitVec.ofNat 32 g.val ∧ f' = f := by
  rw [resultIdx?_eq_some_iff]
  constructor
  · intro h
    have h0 := h 0
    have h1 := h 1
    rw [d1_start0, d1_window0] at h0
    rw [d1_start1, d1_window1] at h1
    have h0' : (idx (ix2 r (0 : Fin 1))).toInt + ((0 : Nat) : Int) = (g.val : Int) := h0
    have h1' : (0 : Int) + ((f'.val : Nat) : Int) = (f.val : Int) := h1
    refine ⟨(toInt_eq_iff _ g).1 (by omega), Fin.ext (by omega)⟩
  · rintro ⟨h0, rfl⟩ a
    have hg := (toInt_eq_iff _ g).2 h0
    match a with
    | ⟨0, _⟩ =>
      show scatter_S64x64_S100000x1_S100000x64_1_0_0_1.start (ix2 r f') idx 0
        + (scatter_S64x64_S100000x1_S100000x64_1_0_0_1.window (ix2 r f') 0 : Int) = (g.val : Int)
      rw [d1_start0, d1_window0]
      show (idx (ix2 r (0 : Fin 1))).toInt + ((0 : Nat) : Int) = (g.val : Int)
      omega
    | ⟨1, _⟩ =>
      show scatter_S64x64_S100000x1_S100000x64_1_0_0_1.start (ix2 r f') idx 1
        + (scatter_S64x64_S100000x1_S100000x64_1_0_0_1.window (ix2 r f') 1 : Int) = (f'.val : Int)
      rw [d1_start1, d1_window1]
      show (0 : Int) + ((f'.val : Nat) : Int) = (f'.val : Int)
      omega

/-- The 64×64 scatter-add read at (g, f): the operand there plus, over the rows r, the update at (r, f) where
    row r's id is the word g. -/
theorem d1_apply (x : S64x64.Idx → EReal) (idx : IVec S100000x1 32) (upd : S100000x64.Idx → EReal) (g f : Fin 64) :
    Ideal.hostScatterAdd scatter_S64x64_S100000x1_S100000x64_1_0_0_1 x idx upd (ix2 g f)
      = x (ix2 g f) + ∑ r : Fin 100000, Cert.PoolSpec.hot (idx (ix2 r (0 : Fin 1))) g * upd (ix2 r f) := by
  unfold Ideal.hostScatterAdd
  rw [Finset.sum_filter, sum_idx2]
  refine congrArg (fun z => x (ix2 g f) + z) (Finset.sum_congr rfl fun r _ => ?_)
  unfold Cert.PoolSpec.hot
  by_cases hr : idx (ix2 r (0 : Fin 1)) = BitVec.ofNat 32 g.val
  · rw [if_pos hr, one_mul, Finset.sum_eq_single f]
    · rw [if_pos ((d1_lands idx r f g f).2 ⟨hr, rfl⟩)]
    · intro f' _ hne
      rw [if_neg (fun h => hne ((d1_lands idx r f' g f).1 h).2)]
    · intro h
      exact absurd (Finset.mem_univ f) h
  · rw [if_neg hr, zero_mul]
    refine Finset.sum_eq_zero fun f' _ => ?_
    rw [if_neg (fun h => hr ((d1_lands idx r f' g f).1 h).1)]

/-! The 64-count scatter's axes: the start on axis 0 is row r's id read signed; there is no window. -/

theorem d2_start0 (j : S100000.Idx) (idx : IVec S100000x1 32) :
    scatter_S64_S100000x1_S100000_n_0_0_1.start j idx 0 = (idx (ix2 (j 0) (0 : Fin 1))).toInt := by
  unfold ScatterDims.start
  rw [dif_pos (show (0 : Fin S64.rank) ∈ scatter_S64_S100000x1_S100000_n_0_0_1.scatterDimsToOperandDims by decide)]
  congr 2
  funext b
  match b with
  | ⟨0, _⟩ => rfl
  | ⟨1, _⟩ => rfl

theorem d2_window0 (j : S100000.Idx) :
    scatter_S64_S100000x1_S100000_n_0_0_1.window j 0 = 0 := by
  unfold ScatterDims.window
  rw [dif_neg (show ¬(0 : Fin S64.rank) ∈ scatter_S64_S100000x1_S100000_n_0_0_1.sKept by decide)]

/-- Update element r of the 64-count scatter lands on g exactly when row r's id is the word g. -/
theorem d2_lands (idx : IVec S100000x1 32) (r : Fin 100000) (g : Fin 64) :
    scatter_S64_S100000x1_S100000_n_0_0_1.resultIdx? (ix1 r) idx = some (ix1 g)
      ↔ idx (ix2 r (0 : Fin 1)) = BitVec.ofNat 32 g.val := by
  rw [resultIdx?_eq_some_iff]
  constructor
  · intro h
    have h0 := h 0
    rw [d2_start0, d2_window0] at h0
    have h0' : (idx (ix2 r (0 : Fin 1))).toInt + ((0 : Nat) : Int) = (g.val : Int) := h0
    exact (toInt_eq_iff _ g).1 (by omega)
  · intro h0 a
    have hg := (toInt_eq_iff _ g).2 h0
    match a with
    | ⟨0, _⟩ =>
      show scatter_S64_S100000x1_S100000_n_0_0_1.start (ix1 r) idx 0
        + (scatter_S64_S100000x1_S100000_n_0_0_1.window (ix1 r) 0 : Int) = (g.val : Int)
      rw [d2_start0, d2_window0]
      show (idx (ix2 r (0 : Fin 1))).toInt + ((0 : Nat) : Int) = (g.val : Int)
      omega

/-- A sum over a rank-1 shape's indices is the sum over its coordinate. -/
theorem sum_idx1 {M : Type*} [AddCommMonoid M] {n : Nat} (F : (⟨1, ![n]⟩ : Shape).Idx → M) :
    ∑ i, F i = ∑ a : Fin n, F (ix1 a) := by
  rw [← Equiv.sum_comp (idxEquiv1 (n := n)).symm F]
  rfl

/-- The 64-count scatter-add read at g: the operand there plus, over the rows r, the update at r where row r's id
    is the word g. -/
theorem d2_apply (x : S64.Idx → EReal) (idx : IVec S100000x1 32) (upd : S100000.Idx → EReal) (g : Fin 64) :
    Ideal.hostScatterAdd scatter_S64_S100000x1_S100000_n_0_0_1 x idx upd (ix1 g)
      = x (ix1 g) + ∑ r : Fin 100000, Cert.PoolSpec.hot (idx (ix2 r (0 : Fin 1))) g * upd (ix1 r) := by
  unfold Ideal.hostScatterAdd
  rw [Finset.sum_filter, sum_idx1]
  refine congrArg (fun z => x (ix1 g) + z) (Finset.sum_congr rfl fun r _ => ?_)
  unfold Cert.PoolSpec.hot
  by_cases hr : idx (ix2 r (0 : Fin 1)) = BitVec.ofNat 32 g.val
  · rw [if_pos hr, one_mul, if_pos ((d2_lands idx r g).2 hr)]
  · rw [if_neg hr, zero_mul, if_neg (fun h => hr ((d2_lands idx r g).1 h))]

/-- The pattern of 1.0 denotes 1. -/
theorem ofBits_one_f32 : Ideal.ofBits .f32 0x3F800000#32 = 1 := by
  simp [Ideal.ofBits, Ideal.ieee, -EReal.coe_mul]; norm_num

/-- The scattered sums at (g, f) are PoolSpec's sum: the zero array contributes nothing, and the update at (r, f) is
    X[r, f] plus the bias row at f. -/
theorem num_apply (X : FVec Ideal S100000x64 .f32) (x2 : IVec S100000 32) (x6 : FVec Ideal S64 .f32) (g f : Fin 64) :
    Ideal.hostScatterAdd scatter_S64x64_S100000x1_S100000x64_1_0_0_1 (val_main_v111 (F := Ideal))
        (val_main_v112 (F := Ideal) x2) (addf X (val_main_v109 (F := Ideal) x6)) (ix2 g f)
      = Cert.PoolSpec.poolSum X (val_main_v108 (F := Ideal) x6) (val_main_v112 (F := Ideal) x2) g f := by
  rw [d1_apply, val_main_v111_apply, val_main_cst_28_apply, Ideal.ofBits_def, Ideal.ofBits_zero_f32, zero_add]
  unfold Cert.PoolSpec.poolSum
  refine Finset.sum_congr rfl fun r _ => ?_
  have hi : idx_main_v109 (ix2 r f) = ix2 (0 : Fin 1) f := by
    funext a
    match a with
    | ⟨0, _⟩ => rfl
    | ⟨1, _⟩ => rfl
  rw [addf_apply, val_main_v109_apply, hi]

/-- The divisor at (g, f) is max(the number of rows whose id is the word g, 1). -/
theorem den_apply (x2 : IVec S100000 32) (g f : Fin 64) :
    val_main_v121 (F := Ideal) x2 (ix2 g f) = max (Cert.PoolSpec.poolCnt (val_main_v112 (F := Ideal) x2) g) 1 := by
  have hi : idx_main_v120 (idx_main_v121 (ix2 g f)) = ix1 g := by
    funext a
    match a with
    | ⟨0, _⟩ => rfl
  have h116 : val_main_v116 (F := Ideal) x2 = val_main_v112 (F := Ideal) x2 := rfl
  have hsc : val_main_v117 (F := Ideal) x2
      = Ideal.hostScatterAdd scatter_S64_S100000x1_S100000_n_0_0_1 (val_main_v115 (F := Ideal))
          (val_main_v116 (F := Ideal) x2) (val_main_v114 (F := Ideal)) := rfl
  rw [val_main_v121_apply, val_main_v120_apply, val_main_v119_apply, hi, Ideal.maximumf_def, hsc, h116, d2_apply,
    val_main_v115_apply, val_main_cst_30_apply, Ideal.ofBits_def, Ideal.ofBits_zero_f32, zero_add,
    val_main_v118_apply, val_main_cst_31_apply, Ideal.ofBits_def, ofBits_one_f32]
  unfold Cert.PoolSpec.poolCnt
  refine congrArg (fun z => max z 1) (Finset.sum_congr rfl fun r _ => ?_)
  rw [val_main_v114_apply, val_main_cst_29_apply, Ideal.ofBits_def, ofBits_one_f32]

/-- The host's quotient of two arrays at Ideal, read at an index. -/
theorem hostDivf_apply {s : Shape} {φ : FTy} (a b : FVec Ideal s φ) (i : s.Idx) :
    Host.divf a b i = Ideal.div (a i) (b i) := rfl

/-- The host's scatter-add at Ideal is the exact one. -/
theorem scatterAdd_eq {s si u : Shape} {φ : FTy} {w : Nat} (d : ScatterDims s si u) (x : FVec Ideal s φ)
    (idx : IVec si w) (upd : FVec Ideal u φ) :
    Host.scatterAdd d x idx upd = Ideal.hostScatterAdd d x idx upd := rfl

/-- The reference's last operations (the two segment sums, the maximum with one, the division) applied to ANY
    100000×64 array X in place of the second aggregation's result, the bias x6 and the graph ids x2, are the
    pooled mean of X, the bias as a 1×64 row and the ids as a 100000×1 column. -/
theorem ref_pool (X : (⟨S100000x64, .f32⟩ : BufTy).Contents (Elt Ideal)) (x2 : (⟨S100000, .i32⟩ : BufTy).Contents (Elt Ideal))
    (x6 : (⟨S64, .f32⟩ : BufTy).Contents (Elt Ideal)) :
    Cert.ReferenceIdeal.Stages.pooled (F := Ideal) X x2 x6
      = Cert.PoolSpec.pool X (val_main_v108 (F := Ideal) x6) (val_main_v112 (F := Ideal) x2) := by
  funext i
  obtain ⟨g, f, rfl⟩ : ∃ (g f : Fin 64), i = ix2 g f := ⟨i 0, i 1, eq_ix2 i⟩
  have hR : Cert.PoolSpec.pool X (val_main_v108 (F := Ideal) x6) (val_main_v112 (F := Ideal) x2) (ix2 g f)
      = Ideal.div (Cert.PoolSpec.poolSum X (val_main_v108 (F := Ideal) x6) (val_main_v112 (F := Ideal) x2) g f)
          (max (Cert.PoolSpec.poolCnt (val_main_v112 (F := Ideal) x2) g) 1) := rfl
  unfold Cert.ReferenceIdeal.Stages.pooled
  rw [hR, hostDivf_apply, scatterAdd_eq, num_apply, den_apply]

end Cert.ReferenceIdeal.Pool

end
-- ==== Proof.KI.Bridge.lean ====
/-
  The kernel program's result is the reference's result, over the extended reals. Boundary by boundary: the first
  projection leaves the reference's first matrix product; the first aggregation, being the reference's own
  operations on equal operands, leaves the reference's aggregated features; the rectifier region leaves the
  reference's rectified hidden features; the second projection the reference's second product; the second
  aggregation the reference's second aggregated features; and the pooling region leaves the pooled mean of those,
  which is what the reference's two segment sums, its maximum with one and its division compute.
-/
import proofs.«420483_j44942537786128_1_alg».proof.Proof.KI.Host
import proofs.«420483_j44942537786128_1_alg».proof.Proof.KI.Val0
import proofs.«420483_j44942537786128_1_alg».proof.Proof.KI.Val1
import proofs.«420483_j44942537786128_1_alg».proof.Proof.KI.Val2
import proofs.«420483_j44942537786128_1_alg».proof.Proof.KI.Val3b
import proofs.«420483_j44942537786128_1_alg».proof.Proof.RefPool

set_option maxRecDepth 16384

noncomputable section

namespace Cert.KernelIdeal.Hand

open Idealize.ShloMosaic Idealize.ShloMosaic.TcCoe Idealize.ShloMosaic.StableHlo
open Idealize.SL Idealize.SL.Sem
open Cert.KernelIdeal.Gen
open Cert.ReferenceIdeal.ReadP Cert.ReferenceIdeal.Stages

variable (m : (ℓ : Loc nD τ sig) → Buf (Elt Ideal) ℓ) (ρ : Dev nD → PrngReg)

/-- After region 0 its result array holds the reference's first matrix product. -/
theorem v4_eq (c : Dev nD) :
    B2 m ρ c (Proc.devRef .tc main_v4) = val_main_v4 (F := Ideal) (m ((c : Thread nD τ).loc main_arg0)) (m ((c : Thread nD τ).loc main_arg3)) := by
  refine (B2_arr m ρ c 2).trans ((arr0 (V1 m ρ) c).trans ?_)
  rw [show V1 m ρ c main_arg0 = B1 m ρ c (Proc.devRef .tc main_arg0) from rfl, show V1 m ρ c main_arg3 = B1 m ρ c (Proc.devRef .tc main_arg3) from rfl,
    B1_arg0 m ρ c, B1_arg3 m ρ c]

/-- After the first aggregation: the reference's aggregated features. -/
theorem v53_eq (c : Dev nD) :
    B5 m ρ c (Proc.devRef .tc main_v53) = val_main_v53 (F := Ideal) (m ((c : Thread nD τ).loc main_arg0)) (m ((c : Thread nD τ).loc main_arg1)) (m ((c : Thread nD τ).loc main_arg3)) :=
  B5_v53 m ρ c (v4_eq m ρ c)

/-- After region 1 its result array holds the reference's rectified hidden features. -/
theorem v55_eq (c : Dev nD) :
    B6 m ρ c (Proc.devRef .tc main_v55) = val_main_v57 (F := Ideal) (m ((c : Thread nD τ).loc main_arg0)) (m ((c : Thread nD τ).loc main_arg1)) (m ((c : Thread nD τ).loc main_arg3)) (m ((c : Thread nD τ).loc main_arg4)) := by
  refine (B6_arr m ρ c 2).trans ((arr1 (V5 m ρ) c).trans ?_)
  rw [show V5 m ρ c main_v53 = B5 m ρ c (Proc.devRef .tc main_v53) from rfl, show V5 m ρ c main_v54 = B5 m ρ c (Proc.devRef .tc main_v54) from rfl,
    v53_eq m ρ c, B5_v54 m ρ c]
  exact (val_main_v57_eq _ _ _ _).symm

/-- After region 2 its result array holds the reference's second matrix product. -/
theorem v56_eq (c : Dev nD) :
    B7 m ρ c (Proc.devRef .tc main_v56) = val_main_v58 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (B7_arr m ρ c 2).trans ((arr2 (V6 m ρ) c).trans ?_)
  rw [show V6 m ρ c main_v55 = B6 m ρ c (Proc.devRef .tc main_v55) from rfl, show V6 m ρ c main_arg5 = B6 m ρ c (Proc.devRef .tc main_arg5) from rfl,
    v55_eq m ρ c, B6_arg5 m ρ c]
  exact (val_main_v58_eq _ _ _ _ _).symm

/-- After the second aggregation: the reference's second aggregated features. -/
theorem v105_eq (c : Dev nD) :
    B10 m ρ c (Proc.devRef .tc main_v105) = val_main_v107 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  B10_v105 m ρ c (v56_eq m ρ c)

/-- After region 3 the result array holds the reference's result. -/
theorem out_eq (c : Dev nD) :
    B11 m ρ c (Proc.devRef .tc main_v108)
      = val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (B11_arr m ρ c 3).trans ((arr3 (V10 m ρ) c).trans ?_)
  rw [show V10 m ρ c main_v105 = B10 m ρ c (Proc.devRef .tc main_v105) from rfl, show V10 m ρ c main_v106 = B10 m ρ c (Proc.devRef .tc main_v106) from rfl,
    show V10 m ρ c main_v107 = B10 m ρ c (Proc.devRef .tc main_v107) from rfl,
    v105_eq m ρ c, B10_v106 m ρ c, B10_v107 m ρ c, ← Cert.ReferenceIdeal.Pool.ref_pool]
  exact (val_main_v122_eq_pooled _ _ _ _ _ _ _).symm

end Cert.KernelIdeal.Hand

end
-- ==== Proof.lean ====
/-
  The certificate. The kernel program is four dense regions — the first projection x·W1, the bias-and-rectifier,
  the second projection h·W2, and the pooling that averages each graph's rows — with the two aggregations (gather,
  symmetric normalization, scatter-add over the edges and self-loops) as host operations between them; the reference
  is the same network written with host operations only.
  The three frames: each program runs to the end from any memory, faults nowhere and leaves its seven arguments as
  launched — for the kernel program (read at words and at extended reals) by running its eleven items in order,
  for the reference by its run read back. Nothing was rewritten by the idealization, so there is nothing to preserve.
  The value claim: over the extended reals both programs end with the same 64×64 array. Each projection's blocks
  tile the reference's whole matrix product (a change of float format is the identity, a sum is a sum however it
  is blocked); the aggregations are the same operations on equal operands; max(a + b, 0) is the reference's bias
  and rectifier; and the pooling's fifty accumulated indicator products are, for graph g and feature f, the sum
  over the rows whose id is g of the biased feature, over max(the number of such rows, 1) — the reference's two
  segment sums, maximum and division (0 · x = 0 and 1 · x = x for every extended real x, so no input need be finite).
-/
import proofs.«420483_j44942537786128_1_alg».proof.Defs
import proofs.«420483_j44942537786128_1_alg».proof.Proof.Gen.Kernel
import proofs.«420483_j44942537786128_1_alg».proof.Proof.Gen.KernelIdeal
import proofs.«420483_j44942537786128_1_alg».proof.Proof.Gen.ReferenceIdeal
import proofs.«420483_j44942537786128_1_alg».proof.Proof.Gen.Pre_finite_inputs
import proofs.«420483_j44942537786128_1_alg».proof.Proof.KB.Run
import proofs.«420483_j44942537786128_1_alg».proof.Proof.KI.Bridge
import proofs.«420483_j44942537786128_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

/-- The kernel program, read at words: it runs and its arguments end as launched. -/
theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.B11_main_arg0 m ρ c),
      (h c _ (Cert.Kernel.Hand.mem_uc Cert.Kernel.main_arg1 (by decide))).trans (Cert.Kernel.Hand.B11_main_arg1 m ρ c),
      (h c _ (Cert.Kernel.Hand.mem_uc Cert.Kernel.main_arg2 (by decide))).trans (Cert.Kernel.Hand.B11_main_arg2 m ρ c),
      (h c _ (Cert.Kernel.Hand.mem_uc Cert.Kernel.main_arg3 (by decide))).trans (Cert.Kernel.Hand.B11_main_arg3 m ρ c),
      (h c _ (Cert.Kernel.Hand.mem_uc Cert.Kernel.main_arg4 (by decide))).trans (Cert.Kernel.Hand.B11_main_arg4 m ρ c),
      (h c _ (Cert.Kernel.Hand.mem_uc Cert.Kernel.main_arg5 (by decide))).trans (Cert.Kernel.Hand.B11_main_arg5 m ρ c),
      (h c _ (Cert.Kernel.Hand.mem_uc Cert.Kernel.main_arg6 (by decide))).trans (Cert.Kernel.Hand.B11_main_arg6 m ρ c)⟩)
    (Cert.Kernel.Hand.run_main (F := Bits) m ρ)

/-- The kernel program, read at extended reals: the same. -/
theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.B11_main_arg0 m ρ c),
      (h c _ (Cert.KernelIdeal.Hand.mem_uc Cert.KernelIdeal.main_arg1 (by decide))).trans (Cert.KernelIdeal.Hand.B11_main_arg1 m ρ c),
      (h c _ (Cert.KernelIdeal.Hand.mem_uc Cert.KernelIdeal.main_arg2 (by decide))).trans (Cert.KernelIdeal.Hand.B11_main_arg2 m ρ c),
      (h c _ (Cert.KernelIdeal.Hand.mem_uc Cert.KernelIdeal.main_arg3 (by decide))).trans (Cert.KernelIdeal.Hand.B11_main_arg3 m ρ c),
      (h c _ (Cert.KernelIdeal.Hand.mem_uc Cert.KernelIdeal.main_arg4 (by decide))).trans (Cert.KernelIdeal.Hand.B11_main_arg4 m ρ c),
      (h c _ (Cert.KernelIdeal.Hand.mem_uc Cert.KernelIdeal.main_arg5 (by decide))).trans (Cert.KernelIdeal.Hand.B11_main_arg5 m ρ c),
      (h c _ (Cert.KernelIdeal.Hand.mem_uc Cert.KernelIdeal.main_arg6 (by decide))).trans (Cert.KernelIdeal.Hand.B11_main_arg6 m ρ c)⟩)
    (Cert.KernelIdeal.Hand.run_main (F := Ideal) m ρ)

/-- The reference: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs, from memories agreeing on the arguments, end with the kernel program's result array. -/
theorem algebraic : Cert.algebraic_KernelIdeal_ReferenceIdeal := by
  intro m ρ m' ρ' _ hagree
  refine ⟨fun c => Cert.KernelIdeal.Hand.B11 m ρ c (Proc.devRef .tc Cert.KernelIdeal.main_v108), ?_, ?_⟩
  · exact (θ_run (Cert.KernelIdeal.defs (F := Ideal)) _ _).mono (fun r h c =>
      ⟨h c _ (Cert.KernelIdeal.Hand.mem_uc Cert.KernelIdeal.main_v108 (by decide)),
      (h c _ (Cert.KernelIdeal.Hand.mem_uc Cert.KernelIdeal.main_arg0 (by decide))).trans (Cert.KernelIdeal.Hand.B11_main_arg0 m ρ c),
      (h c _ (Cert.KernelIdeal.Hand.mem_uc Cert.KernelIdeal.main_arg1 (by decide))).trans (Cert.KernelIdeal.Hand.B11_main_arg1 m ρ c),
      (h c _ (Cert.KernelIdeal.Hand.mem_uc Cert.KernelIdeal.main_arg2 (by decide))).trans (Cert.KernelIdeal.Hand.B11_main_arg2 m ρ c),
      (h c _ (Cert.KernelIdeal.Hand.mem_uc Cert.KernelIdeal.main_arg3 (by decide))).trans (Cert.KernelIdeal.Hand.B11_main_arg3 m ρ c),
      (h c _ (Cert.KernelIdeal.Hand.mem_uc Cert.KernelIdeal.main_arg4 (by decide))).trans (Cert.KernelIdeal.Hand.B11_main_arg4 m ρ c),
      (h c _ (Cert.KernelIdeal.Hand.mem_uc Cert.KernelIdeal.main_arg5 (by decide))).trans (Cert.KernelIdeal.Hand.B11_main_arg5 m ρ c),
      (h c _ (Cert.KernelIdeal.Hand.mem_uc Cert.KernelIdeal.main_arg6 (by decide))).trans (Cert.KernelIdeal.Hand.B11_main_arg6 m ρ c)⟩)
      (Cert.KernelIdeal.Hand.run_main (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v122_eq, (hagree c).1, (hagree c).2.1, (hagree c).2.2.1, (hagree c).2.2.2.1,
      (hagree c).2.2.2.2.1, (hagree c).2.2.2.2.2.1, (hagree c).2.2.2.2.2.2]
    exact (Cert.KernelIdeal.Hand.out_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
